-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v308) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x4096 : Shape := ⟨3, ![32, 256, 4096]⟩
abbrev S_ : Shape := ⟨0, ![]⟩

class Facts : Prop where
  bcast_S_S32x256x4096 : S_.BroadcastsInDim S32x256x4096 (![] : Fin 0 → Fin S32x256x4096.rank)
  reducesTo_S32x256x4096_S_d0_1_2 : S32x256x4096.ReducesTo [0, 1, 2] S_
  h_S_ : 0 < S_.numel

variable [Facts]

def fn {F : FTy → Type} [FloatOps F] (main_arg0 : FVec F S32x256x4096 .f32) : IVec S_ 1 :=
  let main_v0 : FVec F S32x256x4096 .f32 := Host.absf main_arg0
  let main_cst : FVec F S_ .f32 := constant S_ .f32 0x7F800000#32
  let main_v1 : FVec F S32x256x4096 .f32 := broadcastInDim S32x256x4096 ![] bcast_S_S32x256x4096 main_cst
  let main_v2 : IVec S32x256x4096 1 := cmpf .olt main_v0 main_v1
  let main_c : IVec S_ 1 := constantI S_ 1 1#1
  let main_v3 : IVec S_ 1 := (fun x v => Host.reduce IntOp.andi x v reducesTo_S32x256x4096_S_d0_1_2 h_S_) main_v2 main_c
  main_v3
-- ==== Kernel.lean ====
abbrev S32x256x4096 : Shape := ⟨3, ![32, 256, 4096]⟩
abbrev S2048x4x4096 : Shape := ⟨3, ![2048, 4, 4096]⟩
abbrev S2048x4096 : Shape := ⟨2, ![2048, 4096]⟩
abbrev S128x4x4096 : Shape := ⟨3, ![128, 4, 4096]⟩
abbrev S128x4096 : Shape := ⟨2, ![128, 4096]⟩
abbrev S128x1x4096 : Shape := ⟨3, ![128, 1, 4096]⟩
abbrev S32x64x4096 : Shape := ⟨3, ![32, 64, 4096]⟩

abbrev nBuf : Space → Nat
  | .hbm => 4
  | .vmem => 4
  | .smem => 0
  | _ => 0

abbrev bufTy : (tb : Table) → Fin (tcTables nBuf tb) → BufTy
  | .hbm, ⟨0, _⟩ => ⟨S32x256x4096, .f32⟩
  | .hbm, ⟨1, _⟩ => ⟨S2048x4x4096, .f32⟩
  | .hbm, ⟨2, _⟩ => ⟨S2048x4096, .f32⟩
  | .hbm, ⟨3, _⟩ => ⟨S32x64x4096, .f32⟩
  | .local _ .vmem, ⟨0, _⟩ => ⟨S128x4x4096, .f32⟩
  | .local _ .vmem, ⟨1, _⟩ => ⟨S128x4x4096, .f32⟩
  | .local _ .vmem, ⟨2, _⟩ => ⟨S128x4096, .f32⟩
  | .local _ .vmem, ⟨3, _⟩ => ⟨S128x4096, .f32⟩
  | _, _ => ⟨S32x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x256x4096_S2048x4x4096 : S32x256x4096.ShapeCasts S2048x4x4096
  inb_S128x4x4096_S128x1x4096_0_0_0 : ∀ a, (![0, 0, 0] : Fin 3 → Nat) a + S128x1x4096.size a ≤ S128x4x4096.size a
  h_S128x1x4096 : 0 < S128x1x4096.numel
  shapeCasts_S128x1x4096_S128x4096 : S128x1x4096.ShapeCasts S128x4096
  inb_S128x4x4096_S128x1x4096_0_1_0 : ∀ a, (![0, 1, 0] : Fin 3 → Nat) a + S128x1x4096.size a ≤ S128x4x4096.size a
  rotates_S128x4096_d1 : S128x4096.Rotates 1 none
  inb_S128x4x4096_S128x1x4096_0_2_0 : ∀ a, (![0, 2, 0] : Fin 3 → Nat) a + S128x1x4096.size a ≤ S128x4x4096.size a
  inb_S128x4x4096_S128x1x4096_0_3_0 : ∀ a, (![0, 3, 0] : Fin 3 → Nat) a + S128x1x4096.size a ≤ S128x4x4096.size a
  inb_S128x4096_S128x4096_0_0 : ∀ a, (![0, 0] : Fin 2 → Nat) a + S128x4096.size a ≤ S128x4096.size a
  h_S128x4096 : 0 < S128x4096.numel
  shapeCasts_S2048x4096_S32x64x4096 : S2048x4096.ShapeCasts S32x64x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4x4096.size a ≤ S2048x4x4096.size a
  hwx0_0 : ∀ i : grid0.Coords, EltTy.bits .f32 = 32 ∨ (Rect.block (s := S2048x4x4096) S128x4x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S2048x4096.size a
  hwx0_1 : ∀ i : grid0.Coords, EltTy.bits .f32 = 32 ∨ (Rect.block (s := S2048x4096) S128x4096.size (cc0_transform_1 i) (hinb0_1 i)).WholeWords (EltTy.packing .f32)

variable [Facts₀]

abbrev win0_0 : Pipeline.Window sig grid0 :=
  Pipeline.Window.ofSpec (Memref.whole main_v0) S128x4x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x256x4096 : Shape := ⟨3, ![32, 256, 4096]⟩
abbrev S8 : Shape := ⟨1, ![8]⟩
abbrev S2048x4x4096 : Shape := ⟨3, ![2048, 4, 4096]⟩
abbrev S2048x1x4096 : Shape := ⟨3, ![2048, 1, 4096]⟩
abbrev S2048x4096 : Shape := ⟨2, ![2048, 4096]⟩
abbrev S_ : Shape := ⟨0, ![]⟩
abbrev S1 : Shape := ⟨1, ![1]⟩
abbrev S2048x4084 : Shape := ⟨2, ![2048, 4084]⟩
abbrev S2048x12 : Shape := ⟨2, ![2048, 12]⟩
abbrev S2048x4088 : Shape := ⟨2, ![2048, 4088]⟩
abbrev S2048x8 : Shape := ⟨2, ![2048, 8]⟩
abbrev S2048x4092 : Shape := ⟨2, ![2048, 4092]⟩
abbrev S2048x4 : Shape := ⟨2, ![2048, 4]⟩
abbrev S2048x0 : Shape := ⟨2, ![2048, 0]⟩
abbrev S2048x16 : Shape := ⟨2, ![2048, 16]⟩
abbrev S2048x4080 : Shape := ⟨2, ![2048, 4080]⟩
abbrev S2048x4090 : Shape := ⟨2, ![2048, 4090]⟩
abbrev S2048x6 : Shape := ⟨2, ![2048, 6]⟩
abbrev S2048x4094 : Shape := ⟨2, ![2048, 4094]⟩
abbrev S2048x2 : Shape := ⟨2, ![2048, 2]⟩
abbrev S2048x4093 : Shape := ⟨2, ![2048, 4093]⟩
abbrev S2048x3 : Shape := ⟨2, ![2048, 3]⟩
abbrev S2048x4095 : Shape := ⟨2, ![2048, 4095]⟩
abbrev S2048x1 : Shape := ⟨2, ![2048, 1]⟩
abbrev S32x64x4096 : Shape := ⟨3, ![32, 64, 4096]⟩

abbrev nBuf : Space → Nat
  | .hbm => 414
  | .vmem => 0
  | .smem => 0
  | _ => 0

abbrev hbmTy0_0 (i : Nat) : BufTy := match i % 128 with
  | 0 => ⟨S32x256x4096, .f32⟩
  | 1 => ⟨S8, .f32⟩
  | 2 => ⟨S8, .f32⟩
  | 3 => ⟨S2048x4x4096, .f32⟩
  | 4 => ⟨S2048x1x4096, .f32⟩
  | 5 => ⟨S2048x4096, .f32⟩
  | 6 => ⟨S2048x1x4096, .f32⟩
  | 7 => ⟨S2048x4096, .f32⟩
  | 8 => ⟨S2048x1x4096, .f32⟩
  | 9 => ⟨S2048x4096, .f32⟩
  | 10 => ⟨S2048x1x4096, .f32⟩
  | 11 => ⟨S2048x4096, .f32⟩
  | 12 => ⟨S8, .f32⟩
  | 13 => ⟨S8, .f32⟩
  | 14 => ⟨S_, .f32⟩
  | 15 => ⟨S2048x4096, .f32⟩
  | 16 => ⟨S1, .f32⟩
  | 17 => ⟨S_, .f32⟩
  | 18 => ⟨S2048x4084, .f32⟩
  | 19 => ⟨S2048x12, .f32⟩
  | 20 => ⟨S2048x4096, .f32⟩
  | 21 => ⟨S2048x4096, .f32⟩
  | 22 => ⟨S2048x4096, .f32⟩
  | 23 => ⟨S2048x4096, .f32⟩
  | 24 => ⟨S1, .f32⟩
  | 25 => ⟨S_, .f32⟩
  | 26 => ⟨S2048x4084, .f32⟩
  | 27 => ⟨S2048x12, .f32⟩
  | 28 => ⟨S2048x4096, .f32⟩
  | 29 => ⟨S2048x4096, .f32⟩
  | 30 => ⟨S2048x4096, .f32⟩
  | 31 => ⟨S2048x4096, .f32⟩
  | 32 => ⟨S1, .f32⟩
  | 33 => ⟨S_, .f32⟩
  | 34 => ⟨S2048x4088, .f32⟩
  | 35 => ⟨S2048x8, .f32⟩
  | 36 => ⟨S2048x4096, .f32⟩
  | 37 => ⟨S2048x4096, .f32⟩
  | 38 => ⟨S2048x4096, .f32⟩
  | 39 => ⟨S2048x4096, .f32⟩
  | 40 => ⟨S1, .f32⟩
  | 41 => ⟨S_, .f32⟩
  | 42 => ⟨S2048x4088, .f32⟩
  | 43 => ⟨S2048x8, .f32⟩
  | 44 => ⟨S2048x4096, .f32⟩
  | 45 => ⟨S2048x4096, .f32⟩
  | 46 => ⟨S2048x4096, .f32⟩
  | 47 => ⟨S2048x4096, .f32⟩
  | 48 => ⟨S1, .f32⟩
  | 49 => ⟨S_, .f32⟩
  | 50 => ⟨S2048x4092, .f32⟩
  | 51 => ⟨S2048x4, .f32⟩
  | 52 => ⟨S2048x4096, .f32⟩
  | 53 => ⟨S2048x4096, .f32⟩
  | 54 => ⟨S2048x4096, .f32⟩
  | 55 => ⟨S2048x4096, .f32⟩
  | 56 => ⟨S1, .f32⟩
  | 57 => ⟨S_, .f32⟩
  | 58 => ⟨S2048x4092, .f32⟩
  | 59 => ⟨S2048x4, .f32⟩
  | 60 => ⟨S2048x4096, .f32⟩
  | 61 => ⟨S2048x4096, .f32⟩
  | 62 => ⟨S2048x4096, .f32⟩
  | 63 => ⟨S2048x4096, .f32⟩
  | 64 => ⟨S1, .f32⟩
  | 65 => ⟨S_, .f32⟩
  | 66 => ⟨S2048x4096, .f32⟩
  | 67 => ⟨S2048x0, .f32⟩
  | 68 => ⟨S2048x4096, .f32⟩
  | 69 => ⟨S2048x4096, .f32⟩
  | 70 => ⟨S2048x4096, .f32⟩
  | 71 => ⟨S2048x4096, .f32⟩
  | 72 => ⟨S1, .f32⟩
  | 73 => ⟨S_, .f32⟩
  | 74 => ⟨S2048x4096, .f32⟩
  | 75 => ⟨S2048x0, .f32⟩
  | 76 => ⟨S2048x4096, .f32⟩
  | 77 => ⟨S2048x4096, .f32⟩
  | 78 => ⟨S2048x4096, .f32⟩
  | 79 => ⟨S2048x4096, .f32⟩
  | 80 => ⟨S1, .f32⟩
  | 81 => ⟨S_, .f32⟩
  | 82 => ⟨S2048x4, .f32⟩
  | 83 => ⟨S2048x4092, .f32⟩
  | 84 => ⟨S2048x4096, .f32⟩
  | 85 => ⟨S2048x4096, .f32⟩
  | 86 => ⟨S2048x4096, .f32⟩
  | 87 => ⟨S2048x4096, .f32⟩
  | 88 => ⟨S1, .f32⟩
  | 89 => ⟨S_, .f32⟩
  | 90 => ⟨S2048x4, .f32⟩
  | 91 => ⟨S2048x4092, .f32⟩
  | 92 => ⟨S2048x4096, .f32⟩
  | 93 => ⟨S2048x4096, .f32⟩
  | 94 => ⟨S2048x4096, .f32⟩
  | 95 => ⟨S2048x4096, .f32⟩
  | 96 => ⟨S1, .f32⟩
  | 97 => ⟨S_, .f32⟩
  | 98 => ⟨S2048x8, .f32⟩
  | 99 => ⟨S2048x4088, .f32⟩
  | 100 => ⟨S2048x4096, .f32⟩
  | 101 => ⟨S2048x4096, .f32⟩
  | 102 => ⟨S2048x4096, .f32⟩
  | 103 => ⟨S2048x4096, .f32⟩
  | 104 => ⟨S1, .f32⟩
  | 105 => ⟨S_, .f32⟩
  | 106 => ⟨S2048x8, .f32⟩
  | 107 => ⟨S2048x4088, .f32⟩
  | 108 => ⟨S2048x4096, .f32⟩
  | 109 => ⟨S2048x4096, .f32⟩
  | 110 => ⟨S2048x4096, .f32⟩
  | 111 => ⟨S2048x4096, .f32⟩
  | 112 => ⟨S1, .f32⟩
  | 113 => ⟨S_, .f32⟩
  | 114 => ⟨S2048x12, .f32⟩
  | 115 => ⟨S2048x4084, .f32⟩
  | 116 => ⟨S2048x4096, .f32⟩
  | 117 => ⟨S2048x4096, .f32⟩
  | 118 => ⟨S2048x4096, .f32⟩
  | 119 => ⟨S2048x4096, .f32⟩
  | 120 => ⟨S1, .f32⟩
  | 121 => ⟨S_, .f32⟩
  | 122 => ⟨S2048x12, .f32⟩
  | 123 => ⟨S2048x4084, .f32⟩
  | 124 => ⟨S2048x4096, .f32⟩
  | 125 => ⟨S2048x4096, .f32⟩
  | 126 => ⟨S2048x4096, .f32⟩
  | 127 => ⟨S2048x4096, .f32⟩
  | _ => ⟨S32x256x4096, .f32⟩

abbrev hbmTy0_1 (i : Nat) : BufTy := match i % 128 with
  | 0 => ⟨S1, .f32⟩
  | 1 => ⟨S_, .f32⟩
  | 2 => ⟨S2048x16, .f32⟩
  | 3 => ⟨S2048x4080, .f32⟩
  | 4 => ⟨S2048x4096, .f32⟩
  | 5 => ⟨S2048x4096, .f32⟩
  | 6 => ⟨S2048x4096, .f32⟩
  | 7 => ⟨S2048x4096, .f32⟩
  | 8 => ⟨S1, .f32⟩
  | 9 => ⟨S_, .f32⟩
  | 10 => ⟨S2048x16, .f32⟩
  | 11 => ⟨S2048x4080, .f32⟩
  | 12 => ⟨S2048x4096, .f32⟩
  | 13 => ⟨S2048x4096, .f32⟩
  | 14 => ⟨S2048x4096, .f32⟩
  | 15 => ⟨S2048x4096, .f32⟩
  | 16 => ⟨S_, .f32⟩
  | 17 => ⟨S2048x4096, .f32⟩
  | 18 => ⟨S2048x4096, .f32⟩
  | 19 => ⟨S_, .f32⟩
  | 20 => ⟨S2048x4096, .f32⟩
  | 21 => ⟨S1, .f32⟩
  | 22 => ⟨S_, .f32⟩
  | 23 => ⟨S2048x4090, .f32⟩
  | 24 => ⟨S2048x6, .f32⟩
  | 25 => ⟨S2048x4096, .f32⟩
  | 26 => ⟨S2048x4096, .f32⟩
  | 27 => ⟨S2048x4096, .f32⟩
  | 28 => ⟨S2048x4096, .f32⟩
  | 29 => ⟨S1, .f32⟩
  | 30 => ⟨S_, .f32⟩
  | 31 => ⟨S2048x4090, .f32⟩
  | 32 => ⟨S2048x6, .f32⟩
  | 33 => ⟨S2048x4096, .f32⟩
  | 34 => ⟨S2048x4096, .f32⟩
  | 35 => ⟨S2048x4096, .f32⟩
  | 36 => ⟨S2048x4096, .f32⟩
  | 37 => ⟨S1, .f32⟩
  | 38 => ⟨S_, .f32⟩
  | 39 => ⟨S2048x4092, .f32⟩
  | 40 => ⟨S2048x4, .f32⟩
  | 41 => ⟨S2048x4096, .f32⟩
  | 42 => ⟨S2048x4096, .f32⟩
  | 43 => ⟨S2048x4096, .f32⟩
  | 44 => ⟨S2048x4096, .f32⟩
  | 45 => ⟨S1, .f32⟩
  | 46 => ⟨S_, .f32⟩
  | 47 => ⟨S2048x4092, .f32⟩
  | 48 => ⟨S2048x4, .f32⟩
  | 49 => ⟨S2048x4096, .f32⟩
  | 50 => ⟨S2048x4096, .f32⟩
  | 51 => ⟨S2048x4096, .f32⟩
  | 52 => ⟨S2048x4096, .f32⟩
  | 53 => ⟨S1, .f32⟩
  | 54 => ⟨S_, .f32⟩
  | 55 => ⟨S2048x4094, .f32⟩
  | 56 => ⟨S2048x2, .f32⟩
  | 57 => ⟨S2048x4096, .f32⟩
  | 58 => ⟨S2048x4096, .f32⟩
  | 59 => ⟨S2048x4096, .f32⟩
  | 60 => ⟨S2048x4096, .f32⟩
  | 61 => ⟨S1, .f32⟩
  | 62 => ⟨S_, .f32⟩
  | 63 => ⟨S2048x4094, .f32⟩
  | 64 => ⟨S2048x2, .f32⟩
  | 65 => ⟨S2048x4096, .f32⟩
  | 66 => ⟨S2048x4096, .f32⟩
  | 67 => ⟨S2048x4096, .f32⟩
  | 68 => ⟨S2048x4096, .f32⟩
  | 69 => ⟨S1, .f32⟩
  | 70 => ⟨S_, .f32⟩
  | 71 => ⟨S2048x4096, .f32⟩
  | 72 => ⟨S2048x0, .f32⟩
  | 73 => ⟨S2048x4096, .f32⟩
  | 74 => ⟨S2048x4096, .f32⟩
  | 75 => ⟨S2048x4096, .f32⟩
  | 76 => ⟨S2048x4096, .f32⟩
  | 77 => ⟨S1, .f32⟩
  | 78 => ⟨S_, .f32⟩
  | 79 => ⟨S2048x4096, .f32⟩
  | 80 => ⟨S2048x0, .f32⟩
  | 81 => ⟨S2048x4096, .f32⟩
  | 82 => ⟨S2048x4096, .f32⟩
  | 83 => ⟨S2048x4096, .f32⟩
  | 84 => ⟨S2048x4096, .f32⟩
  | 85 => ⟨S1, .f32⟩
  | 86 => ⟨S_, .f32⟩
  | 87 => ⟨S2048x2, .f32⟩
  | 88 => ⟨S2048x4094, .f32⟩
  | 89 => ⟨S2048x4096, .f32⟩
  | 90 => ⟨S2048x4096, .f32⟩
  | 91 => ⟨S2048x4096, .f32⟩
  | 92 => ⟨S2048x4096, .f32⟩
  | 93 => ⟨S1, .f32⟩
  | 94 => ⟨S_, .f32⟩
  | 95 => ⟨S2048x2, .f32⟩
  | 96 => ⟨S2048x4094, .f32⟩
  | 97 => ⟨S2048x4096, .f32⟩
  | 98 => ⟨S2048x4096, .f32⟩
  | 99 => ⟨S2048x4096, .f32⟩
  | 100 => ⟨S2048x4096, .f32⟩
  | 101 => ⟨S1, .f32⟩
  | 102 => ⟨S_, .f32⟩
  | 103 => ⟨S2048x4, .f32⟩
  | 104 => ⟨S2048x4092, .f32⟩
  | 105 => ⟨S2048x4096, .f32⟩
  | 106 => ⟨S2048x4096, .f32⟩
  | 107 => ⟨S2048x4096, .f32⟩
  | 108 => ⟨S2048x4096, .f32⟩
  | 109 => ⟨S1, .f32⟩
  | 110 => ⟨S_, .f32⟩
  | 111 => ⟨S2048x4, .f32⟩
  | 112 => ⟨S2048x4092, .f32⟩
  | 113 => ⟨S2048x4096, .f32⟩
  | 114 => ⟨S2048x4096, .f32⟩
  | 115 => ⟨S2048x4096, .f32⟩
  | 116 => ⟨S2048x4096, .f32⟩
  | 117 => ⟨S1, .f32⟩
  | 118 => ⟨S_, .f32⟩
  | 119 => ⟨S2048x6, .f32⟩
  | 120 => ⟨S2048x4090, .f32⟩
  | 121 => ⟨S2048x4096, .f32⟩
  | 122 => ⟨S2048x4096, .f32⟩
  | 123 => ⟨S2048x4096, .f32⟩
  | 124 => ⟨S2048x4096, .f32⟩
  | 125 => ⟨S1, .f32⟩
  | 126 => ⟨S_, .f32⟩
  | 127 => ⟨S2048x6, .f32⟩
  | _ => ⟨S32x256x4096, .f32⟩

abbrev hbmTy0_2 (i : Nat) : BufTy := match i % 128 with
  | 0 => ⟨S2048x4090, .f32⟩
  | 1 => ⟨S2048x4096, .f32⟩
  | 2 => ⟨S2048x4096, .f32⟩
  | 3 => ⟨S2048x4096, .f32⟩
  | 4 => ⟨S2048x4096, .f32⟩
  | 5 => ⟨S1, .f32⟩
  | 6 => ⟨S_, .f32⟩
  | 7 => ⟨S2048x8, .f32⟩
  | 8 => ⟨S2048x4088, .f32⟩
  | 9 => ⟨S2048x4096, .f32⟩
  | 10 => ⟨S2048x4096, .f32⟩
  | 11 => ⟨S2048x4096, .f32⟩
  | 12 => ⟨S2048x4096, .f32⟩
  | 13 => ⟨S1, .f32⟩
  | 14 => ⟨S_, .f32⟩
  | 15 => ⟨S2048x8, .f32⟩
  | 16 => ⟨S2048x4088, .f32⟩
  | 17 => ⟨S2048x4096, .f32⟩
  | 18 => ⟨S2048x4096, .f32⟩
  | 19 => ⟨S2048x4096, .f32⟩
  | 20 => ⟨S2048x4096, .f32⟩
  | 21 => ⟨S_, .f32⟩
  | 22 => ⟨S2048x4096, .f32⟩
  | 23 => ⟨S2048x4096, .f32⟩
  | 24 => ⟨S_, .f32⟩
  | 25 => ⟨S2048x4096, .f32⟩
  | 26 => ⟨S1, .f32⟩
  | 27 => ⟨S_, .f32⟩
  | 28 => ⟨S2048x4093, .f32⟩
  | 29 => ⟨S2048x3, .f32⟩
  | 30 => ⟨S2048x4096, .f32⟩
  | 31 => ⟨S2048x4096, .f32⟩
  | 32 => ⟨S2048x4096, .f32⟩
  | 33 => ⟨S2048x4096, .f32⟩
  | 34 => ⟨S1, .f32⟩
  | 35 => ⟨S_, .f32⟩
  | 36 => ⟨S2048x4093, .f32⟩
  | 37 => ⟨S2048x3, .f32⟩
  | 38 => ⟨S2048x4096, .f32⟩
  | 39 => ⟨S2048x4096, .f32⟩
  | 40 => ⟨S2048x4096, .f32⟩
  | 41 => ⟨S2048x4096, .f32⟩
  | 42 => ⟨S1, .f32⟩
  | 43 => ⟨S_, .f32⟩
  | 44 => ⟨S2048x4094, .f32⟩
  | 45 => ⟨S2048x2, .f32⟩
  | 46 => ⟨S2048x4096, .f32⟩
  | 47 => ⟨S2048x4096, .f32⟩
  | 48 => ⟨S2048x4096, .f32⟩
  | 49 => ⟨S2048x4096, .f32⟩
  | 50 => ⟨S1, .f32⟩
  | 51 => ⟨S_, .f32⟩
  | 52 => ⟨S2048x4094, .f32⟩
  | 53 => ⟨S2048x2, .f32⟩
  | 54 => ⟨S2048x4096, .f32⟩
  | 55 => ⟨S2048x4096, .f32⟩
  | 56 => ⟨S2048x4096, .f32⟩
  | 57 => ⟨S2048x4096, .f32⟩
  | 58 => ⟨S1, .f32⟩
  | 59 => ⟨S_, .f32⟩
  | 60 => ⟨S2048x4095, .f32⟩
  | 61 => ⟨S2048x1, .f32⟩
  | 62 => ⟨S2048x4096, .f32⟩
  | 63 => ⟨S2048x4096, .f32⟩
  | 64 => ⟨S2048x4096, .f32⟩
  | 65 => ⟨S2048x4096, .f32⟩
  | 66 => ⟨S1, .f32⟩
  | 67 => ⟨S_, .f32⟩
  | 68 => ⟨S2048x4095, .f32⟩
  | 69 => ⟨S2048x1, .f32⟩
  | 70 => ⟨S2048x4096, .f32⟩
  | 71 => ⟨S2048x4096, .f32⟩
  | 72 => ⟨S2048x4096, .f32⟩
  | 73 => ⟨S2048x4096, .f32⟩
  | 74 => ⟨S1, .f32⟩
  | 75 => ⟨S_, .f32⟩
  | 76 => ⟨S2048x4096, .f32⟩
  | 77 => ⟨S2048x0, .f32⟩
  | 78 => ⟨S2048x4096, .f32⟩
  | 79 => ⟨S2048x4096, .f32⟩
  | 80 => ⟨S2048x4096, .f32⟩
  | 81 => ⟨S2048x4096, .f32⟩
  | 82 => ⟨S1, .f32⟩
  | 83 => ⟨S_, .f32⟩
  | 84 => ⟨S2048x4096, .f32⟩
  | 85 => ⟨S2048x0, .f32⟩
  | 86 => ⟨S2048x4096, .f32⟩
  | 87 => ⟨S2048x4096, .f32⟩
  | 88 => ⟨S2048x4096, .f32⟩
  | 89 => ⟨S2048x4096, .f32⟩
  | 90 => ⟨S1, .f32⟩
  | 91 => ⟨S_, .f32⟩
  | 92 => ⟨S2048x1, .f32⟩
  | 93 => ⟨S2048x4095, .f32⟩
  | 94 => ⟨S2048x4096, .f32⟩
  | 95 => ⟨S2048x4096, .f32⟩
  | 96 => ⟨S2048x4096, .f32⟩
  | 97 => ⟨S2048x4096, .f32⟩
  | 98 => ⟨S1, .f32⟩
  | 99 => ⟨S_, .f32⟩
  | 100 => ⟨S2048x1, .f32⟩
  | 101 => ⟨S2048x4095, .f32⟩
  | 102 => ⟨S2048x4096, .f32⟩
  | 103 => ⟨S2048x4096, .f32⟩
  | 104 => ⟨S2048x4096, .f32⟩
  | 105 => ⟨S2048x4096, .f32⟩
  | 106 => ⟨S1, .f32⟩
  | 107 => ⟨S_, .f32⟩
  | 108 => ⟨S2048x2, .f32⟩
  | 109 => ⟨S2048x4094, .f32⟩
  | 110 => ⟨S2048x4096, .f32⟩
  | 111 => ⟨S2048x4096, .f32⟩
  | 112 => ⟨S2048x4096, .f32⟩
  | 113 => ⟨S2048x4096, .f32⟩
  | 114 => ⟨S1, .f32⟩
  | 115 => ⟨S_, .f32⟩
  | 116 => ⟨S2048x2, .f32⟩
  | 117 => ⟨S2048x4094, .f32⟩
  | 118 => ⟨S2048x4096, .f32⟩
  | 119 => ⟨S2048x4096, .f32⟩
  | 120 => ⟨S2048x4096, .f32⟩
  | 121 => ⟨S2048x4096, .f32⟩
  | 122 => ⟨S1, .f32⟩
  | 123 => ⟨S_, .f32⟩
  | 124 => ⟨S2048x3, .f32⟩
  | 125 => ⟨S2048x4093, .f32⟩
  | 126 => ⟨S2048x4096, .f32⟩
  | 127 => ⟨S2048x4096, .f32⟩
  | _ => ⟨S32x256x4096, .f32⟩

abbrev hbmTy0_3 (i : Nat) : BufTy := match i % 128 with
  | 0 => ⟨S2048x4096, .f32⟩
  | 1 => ⟨S2048x4096, .f32⟩
  | 2 => ⟨S1, .f32⟩
  | 3 => ⟨S_, .f32⟩
  | 4 => ⟨S2048x3, .f32⟩
  | 5 => ⟨S2048x4093, .f32⟩
  | 6 => ⟨S2048x4096, .f32⟩
  | 7 => ⟨S2048x4096, .f32⟩
  | 8 => ⟨S2048x4096, .f32⟩
  | 9 => ⟨S2048x4096, .f32⟩
  | 10 => ⟨S1, .f32⟩
  | 11 => ⟨S_, .f32⟩
  | 12 => ⟨S2048x4, .f32⟩
  | 13 => ⟨S2048x4092, .f32⟩
  | 14 => ⟨S2048x4096, .f32⟩
  | 15 => ⟨S2048x4096, .f32⟩
  | 16 => ⟨S2048x4096, .f32⟩
  | 17 => ⟨S2048x4096, .f32⟩
  | 18 => ⟨S1, .f32⟩
  | 19 => ⟨S_, .f32⟩
  | 20 => ⟨S2048x4, .f32⟩
  | 21 => ⟨S2048x4092, .f32⟩
  | 22 => ⟨S2048x4096, .f32⟩
  | 23 => ⟨S2048x4096, .f32⟩
  | 24 => ⟨S2048x4096, .f32⟩
  | 25 => ⟨S2048x4096, .f32⟩
  | 26 => ⟨S_, .f32⟩
  | 27 => ⟨S2048x4096, .f32⟩
  | 28 => ⟨S2048x4096, .f32⟩
  | 29 => ⟨S32x64x4096, .f32⟩
  | _ => ⟨S32x256x4096, .f32⟩

abbrev hbmTy (i : Nat) : BufTy := match i / 128 with
  | 0 => hbmTy0_0 i
  | 1 => hbmTy0_1 i
  | 2 => hbmTy0_2 i
  | 3 => hbmTy0_3 i
  | _ => ⟨S32x256x4096, .f32⟩

abbrev bufTy : (tb : Table) → Fin (tcTables nBuf tb) → BufTy
  | .hbm, ⟨i, _⟩ => hbmTy i
  | _, _ => ⟨S32x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_v1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call1_v0 : Ref sig .tc := ⟨.hbm, 26, rfl⟩
abbrev main_call1_v1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call2_v0 : Ref sig .tc := ⟨.hbm, 34, rfl⟩
abbrev main_call2_v1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_call3_v0 : Ref sig .tc := ⟨.hbm, 42, rfl⟩
abbrev main_call3_v1 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_call4_v0 : Ref sig .tc := ⟨.hbm, 50, rfl⟩
abbrev main_call4_v1 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_call5_v0 : Ref sig .tc := ⟨.hbm, 58, rfl⟩
abbrev main_call5_v1 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_call6_v0 : Ref sig .tc := ⟨.hbm, 66, rfl⟩
abbrev main_call6_v1 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_call7_v0 : Ref sig .tc := ⟨.hbm, 74, rfl⟩
abbrev main_call7_v1 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_call8_v0 : Ref sig .tc := ⟨.hbm, 82, rfl⟩
abbrev main_call8_v1 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_call9_v0 : Ref sig .tc := ⟨.hbm, 90, rfl⟩
abbrev main_call9_v1 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_call10_v0 : Ref sig .tc := ⟨.hbm, 98, rfl⟩
abbrev main_call10_v1 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_call11_v0 : Ref sig .tc := ⟨.hbm, 106, rfl⟩
abbrev main_call11_v1 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_call12_v0 : Ref sig .tc := ⟨.hbm, 114, rfl⟩
abbrev main_call12_v1 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_call13_v0 : Ref sig .tc := ⟨.hbm, 122, rfl⟩
abbrev main_call13_v1 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_call14_v0 : Ref sig .tc := ⟨.hbm, 130, rfl⟩
abbrev main_call14_v1 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_call15_v0 : Ref sig .tc := ⟨.hbm, 138, rfl⟩
abbrev main_call15_v1 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_2 : Ref sig .tc := ⟨.hbm, 144, rfl⟩
abbrev main_v108 : Ref sig .tc := ⟨.hbm, 145, rfl⟩
abbrev main_v109 : Ref sig .tc := ⟨.hbm, 146, rfl⟩
abbrev main_cst_3 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_call16_v0 : Ref sig .tc := ⟨.hbm, 151, rfl⟩
abbrev main_call16_v1 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_call17_v0 : Ref sig .tc := ⟨.hbm, 159, rfl⟩
abbrev main_call17_v1 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_call18_v0 : Ref sig .tc := ⟨.hbm, 167, rfl⟩
abbrev main_call18_v1 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_call19_v0 : Ref sig .tc := ⟨.hbm, 175, rfl⟩
abbrev main_call19_v1 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_call20_v0 : Ref sig .tc := ⟨.hbm, 183, rfl⟩
abbrev main_call20_v1 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_call21_v0 : Ref sig .tc := ⟨.hbm, 191, rfl⟩
abbrev main_call21_v1 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_call22_v0 : Ref sig .tc := ⟨.hbm, 199, rfl⟩
abbrev main_call22_v1 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_call23_v0 : Ref sig .tc := ⟨.hbm, 207, rfl⟩
abbrev main_call23_v1 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_call24_v0 : Ref sig .tc := ⟨.hbm, 215, rfl⟩
abbrev main_call24_v1 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_call25_v0 : Ref sig .tc := ⟨.hbm, 223, rfl⟩
abbrev main_call25_v1 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_call26_v0 : Ref sig .tc := ⟨.hbm, 231, rfl⟩
abbrev main_call26_v1 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_call27_v0 : Ref sig .tc := ⟨.hbm, 239, rfl⟩
abbrev main_call27_v1 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_call28_v0 : Ref sig .tc := ⟨.hbm, 247, rfl⟩
abbrev main_call28_v1 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_call29_v0 : Ref sig .tc := ⟨.hbm, 255, rfl⟩
abbrev main_call29_v1 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_call30_v0 : Ref sig .tc := ⟨.hbm, 263, rfl⟩
abbrev main_call30_v1 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_v200 : Ref sig .tc := ⟨.hbm, 268, rfl⟩
abbrev main_v201 : Ref sig .tc := ⟨.hbm, 269, rfl⟩
abbrev main_v202 : Ref sig .tc := ⟨.hbm, 270, rfl⟩
abbrev main_call31_v0 : Ref sig .tc := ⟨.hbm, 271, rfl⟩
abbrev main_call31_v1 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_cst_4 : Ref sig .tc := ⟨.hbm, 277, rfl⟩
abbrev main_v207 : Ref sig .tc := ⟨.hbm, 278, rfl⟩
abbrev main_v208 : Ref sig .tc := ⟨.hbm, 279, rfl⟩
abbrev main_cst_5 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_call32_v0 : Ref sig .tc := ⟨.hbm, 284, rfl⟩
abbrev main_call32_v1 : Ref sig .tc := ⟨.hbm, 285, rfl⟩
abbrev main_v212 : Ref sig .tc := ⟨.hbm, 286, rfl⟩
abbrev main_v213 : Ref sig .tc := ⟨.hbm, 287, rfl⟩
abbrev main_v214 : Ref sig .tc := ⟨.hbm, 288, rfl⟩
abbrev main_v215 : Ref sig .tc := ⟨.hbm, 289, rfl⟩
abbrev main_v216 : Ref sig .tc := ⟨.hbm, 290, rfl⟩
abbrev main_v217 : Ref sig .tc := ⟨.hbm, 291, rfl⟩
abbrev main_call33_v0 : Ref sig .tc := ⟨.hbm, 292, rfl⟩
abbrev main_call33_v1 : Ref sig .tc := ⟨.hbm, 293, rfl⟩
abbrev main_v218 : Ref sig .tc := ⟨.hbm, 294, rfl⟩
abbrev main_v219 : Ref sig .tc := ⟨.hbm, 295, rfl⟩
abbrev main_v220 : Ref sig .tc := ⟨.hbm, 296, rfl⟩
abbrev main_v221 : Ref sig .tc := ⟨.hbm, 297, rfl⟩
abbrev main_v222 : Ref sig .tc := ⟨.hbm, 298, rfl⟩
abbrev main_v223 : Ref sig .tc := ⟨.hbm, 299, rfl⟩
abbrev main_call34_v0 : Ref sig .tc := ⟨.hbm, 300, rfl⟩
abbrev main_call34_v1 : Ref sig .tc := ⟨.hbm, 301, rfl⟩
abbrev main_v224 : Ref sig .tc := ⟨.hbm, 302, rfl⟩
abbrev main_v225 : Ref sig .tc := ⟨.hbm, 303, rfl⟩
abbrev main_v226 : Ref sig .tc := ⟨.hbm, 304, rfl⟩
abbrev main_v227 : Ref sig .tc := ⟨.hbm, 305, rfl⟩
abbrev main_v228 : Ref sig .tc := ⟨.hbm, 306, rfl⟩
abbrev main_v229 : Ref sig .tc := ⟨.hbm, 307, rfl⟩
abbrev main_call35_v0 : Ref sig .tc := ⟨.hbm, 308, rfl⟩
abbrev main_call35_v1 : Ref sig .tc := ⟨.hbm, 309, rfl⟩
abbrev main_v230 : Ref sig .tc := ⟨.hbm, 310, rfl⟩
abbrev main_v231 : Ref sig .tc := ⟨.hbm, 311, rfl⟩
abbrev main_v232 : Ref sig .tc := ⟨.hbm, 312, rfl⟩
abbrev main_v233 : Ref sig .tc := ⟨.hbm, 313, rfl⟩
abbrev main_v234 : Ref sig .tc := ⟨.hbm, 314, rfl⟩
abbrev main_v235 : Ref sig .tc := ⟨.hbm, 315, rfl⟩
abbrev main_call36_v0 : Ref sig .tc := ⟨.hbm, 316, rfl⟩
abbrev main_call36_v1 : Ref sig .tc := ⟨.hbm, 317, rfl⟩
abbrev main_v236 : Ref sig .tc := ⟨.hbm, 318, rfl⟩
abbrev main_v237 : Ref sig .tc := ⟨.hbm, 319, rfl⟩
abbrev main_v238 : Ref sig .tc := ⟨.hbm, 320, rfl⟩
abbrev main_v239 : Ref sig .tc := ⟨.hbm, 321, rfl⟩
abbrev main_v240 : Ref sig .tc := ⟨.hbm, 322, rfl⟩
abbrev main_v241 : Ref sig .tc := ⟨.hbm, 323, rfl⟩
abbrev main_call37_v0 : Ref sig .tc := ⟨.hbm, 324, rfl⟩
abbrev main_call37_v1 : Ref sig .tc := ⟨.hbm, 325, rfl⟩
abbrev main_v242 : Ref sig .tc := ⟨.hbm, 326, rfl⟩
abbrev main_v243 : Ref sig .tc := ⟨.hbm, 327, rfl⟩
abbrev main_v244 : Ref sig .tc := ⟨.hbm, 328, rfl⟩
abbrev main_v245 : Ref sig .tc := ⟨.hbm, 329, rfl⟩
abbrev main_v246 : Ref sig .tc := ⟨.hbm, 330, rfl⟩
abbrev main_v247 : Ref sig .tc := ⟨.hbm, 331, rfl⟩
abbrev main_call38_v0 : Ref sig .tc := ⟨.hbm, 332, rfl⟩
abbrev main_call38_v1 : Ref sig .tc := ⟨.hbm, 333, rfl⟩
abbrev main_v248 : Ref sig .tc := ⟨.hbm, 334, rfl⟩
abbrev main_v249 : Ref sig .tc := ⟨.hbm, 335, rfl⟩
abbrev main_v250 : Ref sig .tc := ⟨.hbm, 336, rfl⟩
abbrev main_v251 : Ref sig .tc := ⟨.hbm, 337, rfl⟩
abbrev main_v252 : Ref sig .tc := ⟨.hbm, 338, rfl⟩
abbrev main_v253 : Ref sig .tc := ⟨.hbm, 339, rfl⟩
abbrev main_call39_v0 : Ref sig .tc := ⟨.hbm, 340, rfl⟩
abbrev main_call39_v1 : Ref sig .tc := ⟨.hbm, 341, rfl⟩
abbrev main_v254 : Ref sig .tc := ⟨.hbm, 342, rfl⟩
abbrev main_v255 : Ref sig .tc := ⟨.hbm, 343, rfl⟩
abbrev main_v256 : Ref sig .tc := ⟨.hbm, 344, rfl⟩
abbrev main_v257 : Ref sig .tc := ⟨.hbm, 345, rfl⟩
abbrev main_v258 : Ref sig .tc := ⟨.hbm, 346, rfl⟩
abbrev main_v259 : Ref sig .tc := ⟨.hbm, 347, rfl⟩
abbrev main_call40_v0 : Ref sig .tc := ⟨.hbm, 348, rfl⟩
abbrev main_call40_v1 : Ref sig .tc := ⟨.hbm, 349, rfl⟩
abbrev main_v260 : Ref sig .tc := ⟨.hbm, 350, rfl⟩
abbrev main_v261 : Ref sig .tc := ⟨.hbm, 351, rfl⟩
abbrev main_v262 : Ref sig .tc := ⟨.hbm, 352, rfl⟩
abbrev main_v263 : Ref sig .tc := ⟨.hbm, 353, rfl⟩
abbrev main_v264 : Ref sig .tc := ⟨.hbm, 354, rfl⟩
abbrev main_v265 : Ref sig .tc := ⟨.hbm, 355, rfl⟩
abbrev main_call41_v0 : Ref sig .tc := ⟨.hbm, 356, rfl⟩
abbrev main_call41_v1 : Ref sig .tc := ⟨.hbm, 357, rfl⟩
abbrev main_v266 : Ref sig .tc := ⟨.hbm, 358, rfl⟩
abbrev main_v267 : Ref sig .tc := ⟨.hbm, 359, rfl⟩
abbrev main_v268 : Ref sig .tc := ⟨.hbm, 360, rfl⟩
abbrev main_v269 : Ref sig .tc := ⟨.hbm, 361, rfl⟩
abbrev main_v270 : Ref sig .tc := ⟨.hbm, 362, rfl⟩
abbrev main_v271 : Ref sig .tc := ⟨.hbm, 363, rfl⟩
abbrev main_call42_v0 : Ref sig .tc := ⟨.hbm, 364, rfl⟩
abbrev main_call42_v1 : Ref sig .tc := ⟨.hbm, 365, rfl⟩
abbrev main_v272 : Ref sig .tc := ⟨.hbm, 366, rfl⟩
abbrev main_v273 : Ref sig .tc := ⟨.hbm, 367, rfl⟩
abbrev main_v274 : Ref sig .tc := ⟨.hbm, 368, rfl⟩
abbrev main_v275 : Ref sig .tc := ⟨.hbm, 369, rfl⟩
abbrev main_v276 : Ref sig .tc := ⟨.hbm, 370, rfl⟩
abbrev main_v277 : Ref sig .tc := ⟨.hbm, 371, rfl⟩
abbrev main_call43_v0 : Ref sig .tc := ⟨.hbm, 372, rfl⟩
abbrev main_call43_v1 : Ref sig .tc := ⟨.hbm, 373, rfl⟩
abbrev main_v278 : Ref sig .tc := ⟨.hbm, 374, rfl⟩
abbrev main_v279 : Ref sig .tc := ⟨.hbm, 375, rfl⟩
abbrev main_v280 : Ref sig .tc := ⟨.hbm, 376, rfl⟩
abbrev main_v281 : Ref sig .tc := ⟨.hbm, 377, rfl⟩
abbrev main_v282 : Ref sig .tc := ⟨.hbm, 378, rfl⟩
abbrev main_v283 : Ref sig .tc := ⟨.hbm, 379, rfl⟩
abbrev main_call44_v0 : Ref sig .tc := ⟨.hbm, 380, rfl⟩
abbrev main_call44_v1 : Ref sig .tc := ⟨.hbm, 381, rfl⟩
abbrev main_v284 : Ref sig .tc := ⟨.hbm, 382, rfl⟩
abbrev main_v285 : Ref sig .tc := ⟨.hbm, 383, rfl⟩
abbrev main_v286 : Ref sig .tc := ⟨.hbm, 384, rfl⟩
abbrev main_v287 : Ref sig .tc := ⟨.hbm, 385, rfl⟩
abbrev main_v288 : Ref sig .tc := ⟨.hbm, 386, rfl⟩
abbrev main_v289 : Ref sig .tc := ⟨.hbm, 387, rfl⟩
abbrev main_call45_v0 : Ref sig .tc := ⟨.hbm, 388, rfl⟩
abbrev main_call45_v1 : Ref sig .tc := ⟨.hbm, 389, rfl⟩
abbrev main_v290 : Ref sig .tc := ⟨.hbm, 390, rfl⟩
abbrev main_v291 : Ref sig .tc := ⟨.hbm, 391, rfl⟩
abbrev main_v292 : Ref sig .tc := ⟨.hbm, 392, rfl⟩
abbrev main_v293 : Ref sig .tc := ⟨.hbm, 393, rfl⟩
abbrev main_v294 : Ref sig .tc := ⟨.hbm, 394, rfl⟩
abbrev main_v295 : Ref sig .tc := ⟨.hbm, 395, rfl⟩
abbrev main_call46_v0 : Ref sig .tc := ⟨.hbm, 396, rfl⟩
abbrev main_call46_v1 : Ref sig .tc := ⟨.hbm, 397, rfl⟩
abbrev main_v296 : Ref sig .tc := ⟨.hbm, 398, rfl⟩
abbrev main_v297 : Ref sig .tc := ⟨.hbm, 399, rfl⟩
abbrev main_v298 : Ref sig .tc := ⟨.hbm, 400, rfl⟩
abbrev main_v299 : Ref sig .tc := ⟨.hbm, 401, rfl⟩
abbrev main_v300 : Ref sig .tc := ⟨.hbm, 402, rfl⟩
abbrev main_v301 : Ref sig .tc := ⟨.hbm, 403, rfl⟩
abbrev main_call47_v0 : Ref sig .tc := ⟨.hbm, 404, rfl⟩
abbrev main_call47_v1 : Ref sig .tc := ⟨.hbm, 405, rfl⟩
abbrev main_v302 : Ref sig .tc := ⟨.hbm, 406, rfl⟩
abbrev main_v303 : Ref sig .tc := ⟨.hbm, 407, rfl⟩
abbrev main_v304 : Ref sig .tc := ⟨.hbm, 408, rfl⟩
abbrev main_v305 : Ref sig .tc := ⟨.hbm, 409, rfl⟩
abbrev main_cst_6 : Ref sig .tc := ⟨.hbm, 410, rfl⟩
abbrev main_v306 : Ref sig .tc := ⟨.hbm, 411, rfl⟩
abbrev main_v307 : Ref sig .tc := ⟨.hbm, 412, rfl⟩
abbrev main_v308 : Ref sig .tc := ⟨.hbm, 413, rfl⟩

abbrev nD : Nat := 1
abbrev τ : Topo := Topo.v7x

variable {F : FTy → Type} [FloatOps F]

class Facts₀ : Prop where
  shapeCasts_S32x256x4096_S2048x4x4096 : S32x256x4096.ShapeCasts S2048x4x4096
  slices_S2048x4x4096_S2048x1x4096_0_0_0 : S2048x4x4096.Slices ![0, 0, 0] S2048x1x4096
  shapeCasts_S2048x1x4096_S2048x4096 : S2048x1x4096.ShapeCasts S2048x4096
  slices_S2048x4x4096_S2048x1x4096_0_1_0 : S2048x4x4096.Slices ![0, 1, 0] S2048x1x4096
  slices_S2048x4x4096_S2048x1x4096_0_2_0 : S2048x4x4096.Slices ![0, 2, 0] S2048x1x4096
  slices_S2048x4x4096_S2048x1x4096_0_3_0 : S2048x4x4096.Slices ![0, 3, 0] S2048x1x4096
  bcast_S_S2048x4096 : S_.BroadcastsInDim S2048x4096 (![] : Fin 0 → Fin S2048x4096.rank)
  slices_S8_S1_0 : S8.Slices ![0] S1
  shapeCasts_S1_S_ : S1.ShapeCasts S_
  slices_S2048x4096_S2048x4084_0_12 : S2048x4096.Slices ![0, 12] S2048x4084
  slices_S2048x4096_S2048x12_0_0 : S2048x4096.Slices ![0, 0] S2048x12
  concatenates_S2048x4084_S2048x12_S2048x4096_d1 : Shape.Concatenates [S2048x4084, S2048x12] S2048x4096 1
  slices_S8_S1_1 : S8.Slices ![1] S1
  slices_S2048x4096_S2048x4088_0_8 : S2048x4096.Slices ![0, 8] S2048x4088
  slices_S2048x4096_S2048x8_0_0 : S2048x4096.Slices ![0, 0] S2048x8
  concatenates_S2048x4088_S2048x8_S2048x4096_d1 : Shape.Concatenates [S2048x4088, S2048x8] S2048x4096 1
  slices_S8_S1_2 : S8.Slices ![2] S1
  slices_S2048x4096_S2048x4092_0_4 : S2048x4096.Slices ![0, 4] S2048x4092
  slices_S2048x4096_S2048x4_0_0 : S2048x4096.Slices ![0, 0] S2048x4
  concatenates_S2048x4092_S2048x4_S2048x4096_d1 : Shape.Concatenates [S2048x4092, S2048x4] S2048x4096 1
  slices_S8_S1_3 : S8.Slices ![3] S1
  slices_S2048x4096_S2048x4096_0_0 : S2048x4096.Slices ![0, 0] S2048x4096
  slices_S2048x4096_S2048x0_0_0 : S2048x4096.Slices ![0, 0] S2048x0
  concatenates_S2048x4096_S2048x0_S2048x4096_d1 : Shape.Concatenates [S2048x4096, S2048x0] S2048x4096 1
  slices_S8_S1_4 : S8.Slices ![4] S1
  slices_S2048x4096_S2048x4_0_4092 : S2048x4096.Slices ![0, 4092] S2048x4
  slices_S2048x4096_S2048x4092_0_0 : S2048x4096.Slices ![0, 0] S2048x4092
  concatenates_S2048x4_S2048x4092_S2048x4096_d1 : Shape.Concatenates [S2048x4, S2048x4092] S2048x4096 1
  slices_S8_S1_5 : S8.Slices ![5] S1
  slices_S2048x4096_S2048x8_0_4088 : S2048x4096.Slices ![0, 4088] S2048x8
  slices_S2048x4096_S2048x4088_0_0 : S2048x4096.Slices ![0, 0] S2048x4088
  concatenates_S2048x8_S2048x4088_S2048x4096_d1 : Shape.Concatenates [S2048x8, S2048x4088] S2048x4096 1
  slices_S8_S1_6 : S8.Slices ![6] S1
  slices_S2048x4096_S2048x12_0_4084 : S2048x4096.Slices ![0, 4084] S2048x12
  slices_S2048x4096_S2048x4084_0_0 : S2048x4096.Slices ![0, 0] S2048x4084
  concatenates_S2048x12_S2048x4084_S2048x4096_d1 : Shape.Concatenates [S2048x12, S2048x4084] S2048x4096 1
  slices_S8_S1_7 : S8.Slices ![7] S1
  slices_S2048x4096_S2048x16_0_4080 : S2048x4096.Slices ![0, 4080] S2048x16
  slices_S2048x4096_S2048x4080_0_0 : S2048x4096.Slices ![0, 0] S2048x4080
  concatenates_S2048x16_S2048x4080_S2048x4096_d1 : Shape.Concatenates [S2048x16, S2048x4080] S2048x4096 1
  slices_S2048x4096_S2048x4090_0_6 : S2048x4096.Slices ![0, 6] S2048x4090
  slices_S2048x4096_S2048x6_0_0 : S2048x4096.Slices ![0, 0] S2048x6
  concatenates_S2048x4090_S2048x6_S2048x4096_d1 : Shape.Concatenates [S2048x4090, S2048x6] S2048x4096 1
  slices_S2048x4096_S2048x4094_0_2 : S2048x4096.Slices ![0, 2] S2048x4094
  slices_S2048x4096_S2048x2_0_0 : S2048x4096.Slices ![0, 0] S2048x2
  concatenates_S2048x4094_S2048x2_S2048x4096_d1 : Shape.Concatenates [S2048x4094, S2048x2] S2048x4096 1
  slices_S2048x4096_S2048x2_0_4094 : S2048x4096.Slices ![0, 4094] S2048x2
  slices_S2048x4096_S2048x4094_0_0 : S2048x4096.Slices ![0, 0] S2048x4094
  concatenates_S2048x2_S2048x4094_S2048x4096_d1 : Shape.Concatenates [S2048x2, S2048x4094] S2048x4096 1
  slices_S2048x4096_S2048x6_0_4090 : S2048x4096.Slices ![0, 4090] S2048x6
  slices_S2048x4096_S2048x4090_0_0 : S2048x4096.Slices ![0, 0] S2048x4090
  concatenates_S2048x6_S2048x4090_S2048x4096_d1 : Shape.Concatenates [S2048x6, S2048x4090] S2048x4096 1
  slices_S2048x4096_S2048x4093_0_3 : S2048x4096.Slices ![0, 3] S2048x4093
  slices_S2048x4096_S2048x3_0_0 : S2048x4096.Slices ![0, 0] S2048x3
  concatenates_S2048x4093_S2048x3_S2048x4096_d1 : Shape.Concatenates [S2048x4093, S2048x3] S2048x4096 1
  slices_S2048x4096_S2048x4095_0_1 : S2048x4096.Slices ![0, 1] S2048x4095
  slices_S2048x4096_S2048x1_0_0 : S2048x4096.Slices ![0, 0] S2048x1
  concatenates_S2048x4095_S2048x1_S2048x4096_d1 : Shape.Concatenates [S2048x4095, S2048x1] S2048x4096 1
  slices_S2048x4096_S2048x1_0_4095 : S2048x4096.Slices ![0, 4095] S2048x1
  slices_S2048x4096_S2048x4095_0_0 : S2048x4096.Slices ![0, 0] S2048x4095
  concatenates_S2048x1_S2048x4095_S2048x4096_d1 : Shape.Concatenates [S2048x1, S2048x4095] S2048x4096 1
  slices_S2048x4096_S2048x3_0_4093 : S2048x4096.Slices ![0, 4093] S2048x3
  slices_S2048x4096_S2048x4093_0_0 : S2048x4096.Slices ![0, 0] S2048x4093
  concatenates_S2048x3_S2048x4093_S2048x4096_d1 : Shape.Concatenates [S2048x3, S2048x4093] S2048x4096 1
  shapeCasts_S2048x4096_S32x64x4096 : S2048x4096.ShapeCasts S32x64x4096

variable [Facts₀]

class Facts : Prop extends Facts₀ where

variable [Facts]
-- ==== Proof.Spec.lean ====
/-
  The inverse stationary wavelet transform of three levels, as ONE function of the argument array.

  A row of the result is built from four rows of 4096 entries: the coarsest approximation and the three
  detail rows, coarsest first. One level joins the running approximation `a` with a detail row `b`:
    out[t] = 1/2 · Σ_{m < 8} ( lo[m] · a[t + p_m] + hi[m] · b[t + p_m] ),   positions taken around the end,
  where `p_m` is the distance tap `m` looks ahead at that level. The eight-term sum is kept in the order the
  programs add it (a running sum from zero, tap 0 first): on the extended reals only the grouping inside one
  tap differs between the two programs, and that is associativity of addition alone.
-/
import Idealize.ShloMosaic.PureOps.Ideal
import Idealize.ShloMosaic.Lib.ValueIdx

noncomputable section

namespace Cert.Iswt

open Idealize.ShloMosaic Idealize.ShloMosaic.ValueIdx

/-- One row: 4096 extended reals. -/
abbrev Row : Type := Fin 4096 → EReal

/-- Position `t` moved `p` places on, around the end of the row. -/
def sh (p : Nat) (t : Fin 4096) : Fin 4096 := ⟨(t.val + p) % 4096, Nat.mod_lt _ (by decide)⟩

/-- One tap added to the running sum `acc`: the two products joined first. -/
def tap (l h : EReal) (p : Nat) (a b acc : Row) : Row :=
  fun t => acc t + (l * a (sh p t) + h * b (sh p t))

/-- One tap added to the running sum one product after the other. -/
def tapSeq (l h : EReal) (p : Nat) (a b acc : Row) : Row :=
  fun t => acc t + l * a (sh p t) + h * b (sh p t)

/-- The two groupings of a tap are one: addition of extended reals is associative. -/
theorem tapSeq_eq (l h : EReal) (p : Nat) (a b acc : Row) : tapSeq l h p a b acc = tap l h p a b acc := by
  funext t
  simp only [tapSeq, tap, add_assoc]

/-- The low-pass synthesis filter, as the eight single-precision words both programs hold. -/
def loW : Fin 8 → BitVec 32 :=
  ![0x3E6BE829#32, 0x3F37002F#32, 0x3F218167#32, 0xBCE53E38#32, 0xBE3F860E#32, 0x3CFCA711#32, 0x3D06B056#32, 0xBC2DA0BA#32]

/-- The high-pass synthesis filter: the low-pass one reversed with alternating signs. -/
def hiW : Fin 8 → BitVec 32 :=
  ![0xBC2DA0BA#32, 0xBD06B056#32, 0x3CFCA711#32, 0x3E3F860E#32, 0xBCE53E38#32, 0xBF218167#32, 0x3F37002F#32, 0xBE6BE829#32]

/-- The low-pass coefficients as extended reals. -/
def lo (m : Fin 8) : EReal := Ideal.ofBits .f32 (loW m)
/-- The high-pass coefficients as extended reals. -/
def hi (m : Fin 8) : EReal := Ideal.ofBits .f32 (hiW m)

/-- The running sum starts from zero, and a level ends in a halving. -/
def zeroE : EReal := Ideal.ofBits .f32 0x00000000#32
def halfE : EReal := Ideal.ofBits .f32 0x3F000000#32

/-- One level over coefficients `c`, `d` and look-ahead distances `p`: eight taps from zero, then the halving. -/
def lvl (c d : Fin 8 → EReal) (p : Fin 8 → Nat) (a b : Row) : Row := fun t =>
  halfE * tap (c 7) (d 7) (p 7) a b (tap (c 6) (d 6) (p 6) a b (tap (c 5) (d 5) (p 5) a b (tap (c 4) (d 4) (p 4) a b
    (tap (c 3) (d 3) (p 3) a b (tap (c 2) (d 2) (p 2) a b (tap (c 1) (d 1) (p 1) a b (tap (c 0) (d 0) (p 0) a b
      (fun _ => zeroE)))))))) t

/-- The same level with every tap added one product after the other. -/
def lvlSeq (c d : Fin 8 → EReal) (p : Fin 8 → Nat) (a b : Row) : Row := fun t =>
  halfE * tapSeq (c 7) (d 7) (p 7) a b (tapSeq (c 6) (d 6) (p 6) a b (tapSeq (c 5) (d 5) (p 5) a b (tapSeq (c 4) (d 4) (p 4) a b
    (tapSeq (c 3) (d 3) (p 3) a b (tapSeq (c 2) (d 2) (p 2) a b (tapSeq (c 1) (d 1) (p 1) a b (tapSeq (c 0) (d 0) (p 0) a b
      (fun _ => zeroE)))))))) t

theorem lvlSeq_eq (c d : Fin 8 → EReal) (p : Fin 8 → Nat) (a b : Row) : lvlSeq c d p a b = lvl c d p a b := by
  funext t
  simp only [lvlSeq, lvl, tapSeq_eq]

/-- The look-ahead distances at dilation 4, 2 and 1: tap `m` reads `d · (3 - m)` places on, around the end. -/
def p4 : Fin 8 → Nat := ![12, 8, 4, 0, 4092, 4088, 4084, 4080]
def p2 : Fin 8 → Nat := ![6, 4, 2, 0, 4094, 4092, 4090, 4088]
def p1 : Fin 8 → Nat := ![3, 2, 1, 0, 4095, 4094, 4093, 4092]

/-- A row of the result from its four rows of coefficients: three levels, coarsest first. -/
def rowOut (c d : Fin 8 → EReal) (x0 x1 x2 x3 : Row) : Row :=
  lvl c d p1 (lvl c d p2 (lvl c d p4 x0 x1) x2) x3

abbrev S32x256x4096 : Shape := ⟨3, ![32, 256, 4096]⟩
abbrev S2048x4x4096 : Shape := ⟨3, ![2048, 4, 4096]⟩
abbrev S2048x4096 : Shape := ⟨2, ![2048, 4096]⟩
abbrev S32x64x4096 : Shape := ⟨3, ![32, 64, 4096]⟩

/-- The transform of every row group: row `r` of the result from the four rows of group `r`. -/
def core (c d : Fin 8 → EReal) (x : S2048x4x4096.Idx → EReal) : S2048x4096.Idx → EReal := fun j =>
  rowOut c d (fun t => x (ix3 (j 0) (0 : Fin 4) t)) (fun t => x (ix3 (j 0) (1 : Fin 4) t))
    (fun t => x (ix3 (j 0) (2 : Fin 4) t)) (fun t => x (ix3 (j 0) (3 : Fin 4) t)) (j 1)

theorem core_apply (c d : Fin 8 → EReal) (x : S2048x4x4096.Idx → EReal) (r : Fin 2048) (t : Fin 4096) :
    core c d x (ix2 r t) = rowOut c d (fun t => x (ix3 r (0 : Fin 4) t)) (fun t => x (ix3 r (1 : Fin 4) t))
      (fun t => x (ix3 r (2 : Fin 4) t)) (fun t => x (ix3 r (3 : Fin 4) t)) t := rfl

theorem casts_in : S32x256x4096.ShapeCasts S2048x4x4096 := by decide
theorem casts_out : S2048x4096.ShapeCasts S32x64x4096 := by decide

/-- The whole result: the argument regrouped four rows at a time, transformed, and laid out as [32, 64, 4096]. -/
def whole (x : S32x256x4096.Idx → EReal) : S32x64x4096.Idx → EReal :=
  shapeCast S32x64x4096 (core lo hi (shapeCast S2048x4x4096 x casts_in)) casts_out

end Cert.Iswt

end
-- ==== Proof.KBody.lean ====
/-
  The body of the idealized kernel read at one entry of its block: one tap, one level, then the three levels, as the
  specification's row functions of the four rows of the block's row group.
-/
import proofs.«418173_j65420941852885_3_alg».proof.Proof.Gen.KernelIdeal.Frame
import proofs.«418173_j65420941852885_3_alg».proof.Proof.Spec
import Idealize.ShloMosaic.Lib.Pipeline.Value
import Idealize.ShloMosaic.Lib.KernelVsHost

noncomputable section

namespace Cert.KernelIdeal.KBody

open Cert.KernelIdeal Cert.KernelIdeal.Gen Idealize.ShloMosaic Idealize.ShloMosaic.ValueIdx

/-- Row `p` of a [128, 4096] vector. -/
def row (p : Fin 128) (v : FVec Ideal S128x4096 .f32) : Cert.Iswt.Row := fun t => v (ix2 p t)

/-- One tap on whole vectors, as the kernel writes it: the two products joined, rotated along the rows, added to the sum. -/
def vtap (l h : BitVec 32) (s : BitVec 32) (a b acc : FVec Ideal S128x4096 .f32) : FVec Ideal S128x4096 .f32 :=
  addf acc (dynamicRotate 1 s none (addf (mulf (broadcast S128x4096 (Scalar.ofBits .f32 l)) a)
    (mulf (broadcast S128x4096 (Scalar.ofBits .f32 h)) b)) rotates_S128x4096_d1)

/-- A rotation by `s` along the rows reads, at entry `t` of a row, the entry `(4096 - s % 4096) % 4096` places on, around the end. -/
theorem vtap_row (l h s : BitVec 32) (a b acc : FVec Ideal S128x4096 .f32) (P : Nat)
    (hP : (4096 - s.toNat % 4096) % 4096 = P) (p : Fin 128) :
    row p (vtap l h s a b acc)
      = Cert.Iswt.tap (Ideal.ofBits .f32 l) (Ideal.ofBits .f32 h) P (row p a) (row p b) (row p acc) := by
  funext t
  unfold row vtap Cert.Iswt.tap
  rw [addf_apply]
  rw [dynamicRotate_apply (1 : Fin 2) s _ rotates_S128x4096_d1 (ix2 p t) (ix2 p (Cert.Iswt.sh P t)) (fun b => by
    match b with
    | ⟨0, _⟩ => rfl
    | ⟨1, _⟩ =>
      show ((t.val + P) % 4096) = (t.val + 4096 - s.toNat % 4096) % 4096
      have := t.isLt
      omega)]
  rfl

/-- One level on whole vectors: eight taps from the zero vector, then the halving. -/
def vlvl (lw hw s : Fin 8 → BitVec 32) (a b : FVec Ideal S128x4096 .f32) : FVec Ideal S128x4096 .f32 :=
  mulf (broadcast S128x4096 (Scalar.ofBits .f32 0x3F000000#32))
    (vtap (lw 7) (hw 7) (s 7) a b (vtap (lw 6) (hw 6) (s 6) a b (vtap (lw 5) (hw 5) (s 5) a b (vtap (lw 4) (hw 4) (s 4) a b
      (vtap (lw 3) (hw 3) (s 3) a b (vtap (lw 2) (hw 2) (s 2) a b (vtap (lw 1) (hw 1) (s 1) a b (vtap (lw 0) (hw 0) (s 0) a b
        (broadcast S128x4096 (Scalar.ofBits .f32 0x00000000#32))))))))))

/-- A level read on a row is the specification's level of the operands' rows. -/
theorem vlvl_row (lw hw s : Fin 8 → BitVec 32) (a b : FVec Ideal S128x4096 .f32) (P : Fin 8 → Nat)
    (hP : ∀ m, (4096 - (s m).toNat % 4096) % 4096 = P m) (p : Fin 128) :
    row p (vlvl lw hw s a b)
      = Cert.Iswt.lvl (fun m => Ideal.ofBits .f32 (lw m)) (fun m => Ideal.ofBits .f32 (hw m)) P (row p a) (row p b) := by
  have h0 : row p (broadcast S128x4096 (Scalar.ofBits (F := Ideal) .f32 0x00000000#32)) = fun _ => Cert.Iswt.zeroE := rfl
  funext t
  show Cert.Iswt.halfE * row p (vtap (lw 7) (hw 7) (s 7) a b _) t = _
  rw [vtap_row _ _ _ _ _ _ (P 7) (hP 7), vtap_row _ _ _ _ _ _ (P 6) (hP 6), vtap_row _ _ _ _ _ _ (P 5) (hP 5),
    vtap_row _ _ _ _ _ _ (P 4) (hP 4), vtap_row _ _ _ _ _ _ (P 3) (hP 3), vtap_row _ _ _ _ _ _ (P 2) (hP 2),
    vtap_row _ _ _ _ _ _ (P 1) (hP 1), vtap_row _ _ _ _ _ _ (P 0) (hP 0), h0]
  rfl

/-- The rotation amounts of the three levels, tap by tap. -/
def s4 : Fin 8 → BitVec 32 := ![4084#32, 4088#32, 4092#32, 0#32, 4#32, 8#32, 12#32, 16#32]
def s2 : Fin 8 → BitVec 32 := ![4090#32, 4092#32, 4094#32, 0#32, 2#32, 4#32, 6#32, 8#32]
def s1 : Fin 8 → BitVec 32 := ![4093#32, 4094#32, 4095#32, 0#32, 1#32, 2#32, 3#32, 4#32]

theorem hs4 : ∀ m, (4096 - (s4 m).toNat % 4096) % 4096 = Cert.Iswt.p4 m := by decide
theorem hs2 : ∀ m, (4096 - (s2 m).toNat % 4096) % 4096 = Cert.Iswt.p2 m := by decide
theorem hs1 : ∀ m, (4096 - (s1 m).toNat % 4096) % 4096 = Cert.Iswt.p1 m := by decide

/-- The first level as the kernel's payloads compose it. -/
theorem lvl4_eq (v0 v2 : Vec Ideal S128x1x4096 .f32) :
    k0_pay6 (k0_pay2 v0) (k0_pay3 v2) (k0_pay4 v0 v2) (k0_pay5 v0 v2)
      = vlvl Cert.Iswt.loW Cert.Iswt.hiW s4 (k0_pay2 v0) (k0_pay3 v2) := rfl

/-- The second level. -/
theorem lvl2_eq (v1 v3 v32 v37 : FVec Ideal S128x4096 .f32) (v63 : Vec Ideal S128x1x4096 .f32) :
    k0_pay12 (k0_pay10 (k0_pay6 v1 v3 v32 v37) (k0_pay7 v63) (k0_pay8 v1 v3 v32 v37 v63) (k0_pay9 v1 v3 v32 v37 v63))
        (k0_pay11 (k0_pay6 v1 v3 v32 v37) (k0_pay7 v63))
      = vlvl Cert.Iswt.loW Cert.Iswt.hiW s2 (k0_pay6 v1 v3 v32 v37) (k0_pay7 v63) := rfl

/-- The third level. -/
theorem lvl1_eq (v114 v119 : FVec Ideal S128x4096 .f32) (v124 : Vec Ideal S128x1x4096 .f32) :
    k0_pay1 (k0_pay12 v114 v119) (k0_pay13 v124) (k0_pay14 v114 v119 v124) (k0_pay15 v114 v119 v124)
      = vlvl Cert.Iswt.loW Cert.Iswt.hiW s1 (k0_pay12 v114 v119) (k0_pay13 v124) := rfl

theorem hz2 : (![0, 0] : Fin 2 → Nat) = fun _ => 0 := funext fun a => by fin_cases a <;> rfl

/-- A [128, 1, 4096] vector viewed as [128, 4096], read on a row. -/
theorem cast_row (v : Vec Ideal S128x1x4096 .f32) (p : Fin 128) :
    row p (shapeCast S128x4096 v shapeCasts_S128x1x4096_S128x4096) = fun t => v (ix3 p (0 : Fin 1) t) := by
  funext t
  exact shapeCast_apply v _ (ix2 p t) (ix3 p (0 : Fin 1) t) (by
    rw [Shape.rowMajor_val_three, Shape.rowMajor_val_two]
    show (p.val * 1 + 0) * 4096 + t.val = p.val * 4096 + t.val
    omega)

/-- The four loads read the four rows of the block's row group. -/
theorem ld0 (x0 : Vec Ideal S128x4x4096 .f32) (p : Fin 128) (t : Fin 4096) :
    View.ld x0 r0_0 (ix3 p (0 : Fin 1) t) = x0 (ix3 p (0 : Fin 4) t) :=
  congrArg x0 (funext fun a => Fin.ext (by match a with | ⟨0, _⟩ => exact Nat.zero_add _ |>.trans (Nat.one_mul _) | ⟨1, _⟩ => rfl | ⟨2, _⟩ => exact Nat.zero_add _ |>.trans (Nat.one_mul _)))

theorem ld1 (x0 : Vec Ideal S128x4x4096 .f32) (p : Fin 128) (t : Fin 4096) :
    View.ld x0 r0_1 (ix3 p (0 : Fin 1) t) = x0 (ix3 p (1 : Fin 4) t) :=
  congrArg x0 (funext fun a => Fin.ext (by match a with | ⟨0, _⟩ => exact Nat.zero_add _ |>.trans (Nat.one_mul _) | ⟨1, _⟩ => rfl | ⟨2, _⟩ => exact Nat.zero_add _ |>.trans (Nat.one_mul _)))
theorem ld2 (x0 : Vec Ideal S128x4x4096 .f32) (p : Fin 128) (t : Fin 4096) :
    View.ld x0 r0_2 (ix3 p (0 : Fin 1) t) = x0 (ix3 p (2 : Fin 4) t) :=
  congrArg x0 (funext fun a => Fin.ext (by match a with | ⟨0, _⟩ => exact Nat.zero_add _ |>.trans (Nat.one_mul _) | ⟨1, _⟩ => rfl | ⟨2, _⟩ => exact Nat.zero_add _ |>.trans (Nat.one_mul _)))
theorem ld3 (x0 : Vec Ideal S128x4x4096 .f32) (p : Fin 128) (t : Fin 4096) :
    View.ld x0 r0_3 (ix3 p (0 : Fin 1) t) = x0 (ix3 p (3 : Fin 4) t) :=
  congrArg x0 (funext fun a => Fin.ext (by match a with | ⟨0, _⟩ => exact Nat.zero_add _ |>.trans (Nat.one_mul _) | ⟨1, _⟩ => rfl | ⟨2, _⟩ => exact Nat.zero_add _ |>.trans (Nat.one_mul _)))

theorem row_apply (p : Fin 128) (v : FVec Ideal S128x4096 .f32) (t : Fin 4096) : row p v t = v (ix2 p t) := rfl

/-- Each channel of the block, viewed as [128, 4096], read on row `p`: row `(p, channel)` of the block. -/
theorem chan0_row (x0 : Vec Ideal S128x4x4096 .f32) (p : Fin 128) :
    row p (k0_pay2 (View.ld x0 r0_0)) = fun t => x0 (ix3 p (0 : Fin 4) t) :=
  funext fun t => (congrFun (cast_row (View.ld x0 r0_0) p) t).trans (ld0 x0 p t)
theorem chan1_row (x0 : Vec Ideal S128x4x4096 .f32) (p : Fin 128) :
    row p (k0_pay3 (View.ld x0 r0_1)) = fun t => x0 (ix3 p (1 : Fin 4) t) :=
  funext fun t => (congrFun (cast_row (View.ld x0 r0_1) p) t).trans (ld1 x0 p t)
theorem chan2_row (x0 : Vec Ideal S128x4x4096 .f32) (p : Fin 128) :
    row p (k0_pay7 (View.ld x0 r0_2)) = fun t => x0 (ix3 p (2 : Fin 4) t) :=
  funext fun t => (congrFun (cast_row (View.ld x0 r0_2) p) t).trans (ld2 x0 p t)
theorem chan3_row (x0 : Vec Ideal S128x4x4096 .f32) (p : Fin 128) :
    row p (k0_pay13 (View.ld x0 r0_3)) = fun t => x0 (ix3 p (3 : Fin 4) t) :=
  funext fun t => (congrFun (cast_row (View.ld x0 r0_3) p) t).trans (ld3 x0 p t)

/-- THE BODY ON A ROW: row `p` of what the body stores is the specification's row of the four rows of group `p`. -/
theorem body_row (x0 : Vec Ideal S128x4x4096 .f32) (p : Fin 128) :
    row p (out0_1 x0) = Cert.Iswt.rowOut Cert.Iswt.lo Cert.Iswt.hi (fun t => x0 (ix3 p (0 : Fin 4) t))
      (fun t => x0 (ix3 p (1 : Fin 4) t)) (fun t => x0 (ix3 p (2 : Fin 4) t)) (fun t => x0 (ix3 p (3 : Fin 4) t)) := by
  unfold out0_1
  rw [View.canon_unit_zero hz2]
  rw [lvl1_eq, lvl2_eq, lvl4_eq]
  rw [vlvl_row _ _ _ _ _ _ hs1, vlvl_row _ _ _ _ _ _ hs2, vlvl_row _ _ _ _ _ _ hs4]
  rw [chan0_row, chan1_row, chan2_row, chan3_row]
  rfl

/-- The same at one entry. -/
theorem body_apply (x0 : Vec Ideal S128x4x4096 .f32) (p : Fin 128) (t : Fin 4096) :
    out0_1 x0 (ix2 p t) = Cert.Iswt.rowOut Cert.Iswt.lo Cert.Iswt.hi (fun t => x0 (ix3 p (0 : Fin 4) t))
      (fun t => x0 (ix3 p (1 : Fin 4) t)) (fun t => x0 (ix3 p (2 : Fin 4) t)) (fun t => x0 (ix3 p (3 : Fin 4) t)) t :=
  (row_apply p (out0_1 x0) t).symm.trans (congrFun (body_row x0 p) t)

end Cert.KernelIdeal.KBody

end
-- ==== Proof.KVal.lean ====
/-
  The kernel's result as one function of its argument: every run of the idealized kernel ends with the result array at
  `Cert.Iswt.whole` of the argument array, and the argument unchanged.

  The region's output array is the transform of every row group of the regrouped argument: grid point `t` stores rows
  `128 t … 128 t + 127`, each from the four rows of its group (the body on a row), and the sixteen points cover the
  2048 rows. The reshapes before and after the region are the specification's two regroupings.
-/
import proofs.«418173_j65420941852885_3_alg».proof.Proof.Gen.KernelIdeal.Frame
import proofs.«418173_j65420941852885_3_alg».proof.Proof.Spec
import proofs.«418173_j65420941852885_3_alg».proof.Proof.KBody
import Idealize.ShloMosaic.Lib.Pipeline.Value
import Idealize.ShloMosaic.Lib.Tactic

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

section Region

variable (m : (ℓ : Loc nD τ sig) → Buf (Elt Ideal) ℓ)

/-- The regrouped argument as the region finds it, at its literal type. -/
abbrev xarr (c : Dev nD) : S2048x4x4096.Idx → EReal := V m c main_v0

/-- The printed index maps over the grid: point `t` takes block `t` of rows, and every other block index is 0. -/
theorem idx_facts : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, _)

/-- Entry `(p, ch, q)` of the input block at point `t` is entry `(128 t + p, ch, q)` of the array. -/
theorem iblk_apply (c : Dev nD) (t : Fin cfg0.N) (p : Fin 128) (ch : Fin 4) (q : Fin 4096) (r : Fin 2048)
    (hr : r.val = 128 * t.val + p.val) :
    (iblk m c 0 t : S128x4x4096.Idx → EReal) (ix3 p ch q) = xarr m c (ix3 r ch q) := by
  obtain ⟨e0, e1, e2, -, -⟩ := idx_facts t
  unfold iblk
  rw [View.read_apply]
  show V m c main_v0 _ = V m c main_v0 _
  congr 1
  funext a
  apply Fin.ext
  match a with
  | ⟨0, _⟩ => show win0_0.index t (0 : Fin 3) * 128 + 1 * p.val = r.val; omega
  | ⟨1, _⟩ => show win0_0.index t (1 : Fin 3) * 4 + 1 * ch.val = ch.val; omega
  | ⟨2, _⟩ => show win0_0.index t (2 : Fin 3) * 4096 + 1 * q.val = q.val; omega

/-- The transform of every row group of the regrouped argument: what the region's output array ends holding. -/
abbrev G (c : Dev nD) : S2048x4096.Idx → EReal := Cert.Iswt.core Cert.Iswt.lo Cert.Iswt.hi (xarr m c)

/-- A row of the body's result, from rows of a block that are rows of the array, is the row of `core`. -/
theorem core_of_rows (X : S2048x4x4096.Idx → EReal) (x0 : S128x4x4096.Idx → EReal) (r : Fin 2048) (p : Fin 128)
    (q : Fin 4096) (hx : ∀ (ch : Fin 4) (q' : Fin 4096), x0 (ix3 p ch q') = X (ix3 r ch q')) :
    Cert.Iswt.rowOut Cert.Iswt.lo Cert.Iswt.hi (fun t => x0 (ix3 p (0 : Fin 4) t)) (fun t => x0 (ix3 p (1 : Fin 4) t))
        (fun t => x0 (ix3 p (2 : Fin 4) t)) (fun t => x0 (ix3 p (3 : Fin 4) t)) q
      = Cert.Iswt.core Cert.Iswt.lo Cert.Iswt.hi X (ix2 r q) := by
  rw [Cert.Iswt.core_apply]
  simp only [hx]

/-- WHAT POINT `t` WRITES BACK is block `t` of `G`. -/
theorem flushed_eq (c : Dev nD) (t : Fin cfg0.N) :
    (dats m 0 c).flushed 1 t = ((cfg0.win 1).blk t).view.read (Elt Ideal) (G m c) := by
  show (cfg0.win 1).cut (grid0.coords t) ((dats m 0 c).after 1 t) = _
  rw [after0_1]
  obtain ⟨-, -, -, e3, e4⟩ := idx_facts t
  have hN : cfg0.N = 16 := N_0
  funext j
  obtain ⟨p, q, rfl⟩ : ∃ (p : Fin 128) (q : Fin 4096), j = ix2 p q := ⟨j 0, j 1, eq_ix2 j⟩
  have ht : t.val < 16 := hN ▸ t.isLt
  have hi : ((cfg0.win 1).blk t).view.emb (ix2 p q) = (ix2 (⟨128 * t.val + p.val, by have := p.isLt; omega⟩ : Fin 2048) q : S2048x4096.Idx) := by
    funext a
    apply Fin.ext
    match a with
    | ⟨0, _⟩ => show win0_1.index t (0 : Fin 2) * 128 + 1 * p.val = 128 * t.val + p.val; omega
    | ⟨1, _⟩ => show win0_1.index t (1 : Fin 2) * 4096 + 1 * q.val = q.val; omega
  show out0_1 (iblk m c 0 t) (ix2 p q) = G m c (((cfg0.win 1).blk t).view.emb (ix2 p q))
  rw [hi]
  refine (KBody.body_apply (iblk m c 0 t) p q).trans ?_
  exact core_of_rows (xarr m c) (iblk m c 0 t) ⟨128 * t.val + p.val, by have := p.isLt; omega⟩ p q
    (fun ch q' => iblk_apply m c t p ch q' ⟨128 * t.val + p.val, by have := p.isLt; omega⟩ rfl)

/-- Every index of the output array is in the block of the point that stores its row: row `r` belongs to point `r / 128`. -/
theorem cover (i : S2048x4096.Idx) :
    ∃ t : Fin cfg0.N, (cfg0.win 1).flush t = true ∧ i ∈ ((cfg0.win 1).blk t).view.set := by
  have hN : cfg0.N = 16 := N_0
  have h0 : (i 0).val < 2048 := (i 0).isLt
  have h1 : (i 1).val < 4096 := (i 1).isLt
  let t : Fin cfg0.N := ⟨(i 0).val / 128, by rw [hN]; omega⟩
  obtain ⟨-, -, -, e3, e4⟩ := idx_facts t
  have ht : t.val = (i 0).val / 128 := rfl
  refine ⟨t, flush0_1 t, ?_⟩
  show i ∈ ((View.whole main_v1).slice (win0_1.rect t)).set
  rw [View.set_slice_whole, Rect.mem_set_unit]
  intro a
  match a with
  | ⟨0, _⟩ => show win0_1.index t (0 : Fin 2) * 128 ≤ (i 0).val ∧ (i 0).val < win0_1.index t (0 : Fin 2) * 128 + 128; omega
  | ⟨1, _⟩ => show win0_1.index t (1 : Fin 2) * 4096 ≤ (i 1).val ∧ (i 1).val < win0_1.index t (1 : Fin 2) * 4096 + 4096; omega

/-- THE OUTPUT ARRAY after the region: the transform of every row group. -/
theorem final (c : Dev nD) : (dats m 0 c).arrAt 1 cfg0.N = G m c :=
  (dats m 0 c).arrAt_eq_of_cover 1 (G m c) (fun t _ => flushed_eq m c t) cover

/-- The reshape before the region: the region finds the argument regrouped four rows at a time. -/
theorem xarr_eq (c : Dev nD) :
    xarr m c = shapeCast Cert.Iswt.S2048x4x4096 (m ((c.tc : Thread nD τ).loc main_arg0)) Cert.Iswt.casts_in := by
  show StableHlo.after hostOps0 (fun b => m (c, b)) (Proc.devRef .tc main_v0) = _
  after_results
  rfl

/-- The reshape after the region: the result is the output array laid out as [32, 64, 4096]. -/
theorem tail_eq (c : Dev nD) :
    Pipeline.afterTail₀ cfgs (dats m) 0 (V0 m) [hostOps1] c main_v2
      = shapeCast Cert.Iswt.S32x64x4096 (G m c) Cert.Iswt.casts_out := by
  have e := (Pipeline.withArrays_arr spec0 launch0.win.arr_inj c (V0 m c) (fun w => (dats m 0 c).arrAt w cfg0.N) 1).trans (final m c)
  unfold Pipeline.afterTail₀
  show StableHlo.after hostOps1 _ (Proc.devRef .tc main_v2) = _
  after_results
  exact congrArg (fun A : S2048x4096.Idx → EReal => shapeCast Cert.Iswt.S32x64x4096 A Cert.Iswt.casts_out) e

end Region

/-- THE RUN, READ: the result at the whole transform of the argument, the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2) = Cert.Iswt.whole (m ((c.tc : Thread nD τ).loc main_arg0))
      ∧ r.2.mem ((c.tc : Thread nD τ).loc main_arg0) = m ((c.tc : Thread nD τ).loc main_arg0) :=
  (θ_run defs _ _).mono (fun _ h c =>
    ⟨((h c).2 main_v2 (Pipeline.mem_restRefs_of main_v2 (by decide) (by decide))).trans
        ((tail_eq m c).trans (by unfold Cert.Iswt.whole; rw [← xarr_eq m c])),
      ((h c).2 main_arg0 (Pipeline.mem_restRefs_of main_arg0 (by decide) (by decide))).trans (W_main_arg0 m (dats m) c)⟩)
    (run_main m ρ)

end Cert.KernelIdeal.KVal

end
-- ==== Proof.RefLemmas.lean ====
/-
  Three readings at an index that the reference's value needs, stated over any element type:
  a row array cut at a column and joined back with the two pieces swapped (a circular shift of every row; the joining
  of two pieces has a name of its own here, `cat2`, so that the pieces are plain arguments of it),
  one entry of a table of eight broadcast over the whole array, and a table of eight reversed.
-/
import Idealize.ShloMosaic.Lib.Pipeline.Value
import Idealize.ShloMosaic.Lib.ValueIdx
import Mathlib.Tactic.FinCases
import proofs.«418173_j65420941852885_3_alg».proof.Proof.Spec

noncomputable section

namespace Cert.Iswt

open Idealize.ShloMosaic Idealize.ShloMosaic.ValueIdx

/-- The first four taps of a level, from zero, each added one product after the other. -/
def firstHalf (c d : Fin 8 → EReal) (p : Fin 8 → Nat) (a b : Row) : Row :=
  tapSeq (c 3) (d 3) (p 3) a b (tapSeq (c 2) (d 2) (p 2) a b (tapSeq (c 1) (d 1) (p 1) a b (tapSeq (c 0) (d 0) (p 0) a b
    (fun _ => zeroE))))

/-- The last four taps of a level on top of a running sum, then the halving. -/
def secondHalf (c d : Fin 8 → EReal) (p : Fin 8 → Nat) (a b acc : Row) : Row := fun t =>
  halfE * tapSeq (c 7) (d 7) (p 7) a b (tapSeq (c 6) (d 6) (p 6) a b (tapSeq (c 5) (d 5) (p 5) a b (tapSeq (c 4) (d 4) (p 4) a b
    acc))) t

/-- The two halves make the level. -/
theorem secondHalf_firstHalf (c d : Fin 8 → EReal) (p : Fin 8 → Nat) (a b : Row) :
    secondHalf c d p a b (firstHalf c d p a b) = lvlSeq c d p a b := rfl

variable {α : Type}

abbrev S8 : Shape := ⟨1, ![8]⟩
abbrev S1 : Shape := ⟨1, ![1]⟩
abbrev S_ : Shape := ⟨0, ![]⟩

/-- Two row arrays of `A` and `B` columns joined side by side into one of 4096 columns. -/
def cat2 (A B : Nat) (h : Shape.Concatenates [⟨2, ![2048, A]⟩, ⟨2, ![2048, B]⟩] S2048x4096 1)
    (a : (⟨2, ![2048, A]⟩ : Shape).Idx → α) (b : (⟨2, ![2048, B]⟩ : Shape).Idx → α) : S2048x4096.Idx → α :=
  concatenate S2048x4096 1 [⟨⟨2, ![2048, A]⟩, a⟩, ⟨⟨2, ![2048, B]⟩, b⟩] h

/-- Columns `B …` of every row followed by columns `0 … B - 1`: entry `t` of a row is its entry `t + B`, around the end. -/
theorem roll_apply {A B : Nat} (hAB : A + B = 4096) (x : S2048x4096.Idx → α)
    (h1 : S2048x4096.Slices ![0, B] ⟨2, ![2048, A]⟩) (h2 : S2048x4096.Slices ![0, 0] ⟨2, ![2048, B]⟩)
    (h3 : Shape.Concatenates [⟨2, ![2048, A]⟩, ⟨2, ![2048, B]⟩] S2048x4096 1) (r : Fin 2048) (t : Fin 4096) :
    cat2 A B h3 (extractStridedSlice ⟨2, ![2048, A]⟩ ![0, B] x h1) (extractStridedSlice ⟨2, ![2048, B]⟩ ![0, 0] x h2) (ix2 r t)
      = x (ix2 r (sh B t)) := by
  have htl : t.val < 4096 := t.isLt
  unfold cat2
  by_cases ht : t.val < A
  · refine (concatenate_pair_apply_left (t := S2048x4096) (s₁ := ⟨2, ![2048, A]⟩) (s₂ := ⟨2, ![2048, B]⟩) (1 : Fin 2) _ _ h3
      (ix2 r t) rfl (ix2 r (⟨t.val, ht⟩ : Fin A) : (⟨2, ![2048, A]⟩ : Shape).Idx) ?_).trans ?_
    · intro b
      match b with
      | ⟨0, _⟩ => rfl
      | ⟨1, _⟩ => rfl
    · refine extractStridedSlice_apply _ x h1 _ (ix2 r (sh B t)) ?_
      intro a
      match a with
      | ⟨0, _⟩ => show r.val = 0 + r.val; omega
      | ⟨1, _⟩ =>
        show (t.val + B) % 4096 = B + t.val
        rw [Nat.mod_eq_of_lt (by omega)]; omega
  · refine (concatenate_pair_apply_right (t := S2048x4096) (s₁ := ⟨2, ![2048, A]⟩) (s₂ := ⟨2, ![2048, B]⟩) (1 : Fin 2) _ _ h3
      (ix2 r t) rfl rfl (ix2 r (⟨t.val - A, by omega⟩ : Fin B) : (⟨2, ![2048, B]⟩ : Shape).Idx) ?_ ?_).trans ?_
    · intro b hb
      match b with
      | ⟨0, _⟩ => rfl
      | ⟨1, _⟩ => exact absurd rfl hb
    · show t.val - A + A = t.val; omega
    · refine extractStridedSlice_apply _ x h2 _ (ix2 r (sh B t)) ?_
      intro a
      match a with
      | ⟨0, _⟩ => show r.val = 0 + r.val; omega
      | ⟨1, _⟩ =>
        show (t.val + B) % 4096 = 0 + (t.val - A)
        have : t.val + B = (t.val - A) + 4096 := by omega
        rw [this, Nat.add_mod_right, Nat.mod_eq_of_lt (by omega)]; omega

/-- The one entry of a one-entry slice of a table of eight taken at `k` is the table's entry `k`. -/
theorem slice1_apply (k : Nat) (hk : k < 8) (tbl : S8.Idx → α) (hs : S8.Slices ![k] S1) (e : S1.Idx) :
    extractStridedSlice S1 ![k] tbl hs e = tbl (ix1 (⟨k, hk⟩ : Fin 8)) := by
  refine extractStridedSlice_apply _ tbl hs e (ix1 (⟨k, hk⟩ : Fin 8)) ?_
  intro a
  match a with
  | ⟨0, _⟩ =>
    show k = k + (e 0).val
    have : (e 0).val < 1 := (e 0).isLt
    omega

/-- Entry `k` of a table of eight, taken out as a scalar (a shape of one entry, whatever its rank) and spread over the
    whole array. -/
theorem coef_apply {T : Shape} (dims : Fin T.rank → Fin 2) (hb : T.BroadcastsInDim S2048x4096 dims)
    (k : Nat) (hk : k < 8) (tbl : S8.Idx → α) (hs : S8.Slices ![k] S1) (hc : S1.ShapeCasts T) (j : S2048x4096.Idx) :
    broadcastInDim S2048x4096 dims hb (shapeCast T (extractStridedSlice S1 ![k] tbl hs) hc) j = tbl (ix1 (⟨k, hk⟩ : Fin 8)) := by
  unfold broadcastInDim shapeCast
  exact slice1_apply k hk tbl hs _

/-- The same with the scalar written as a function of its (one) index. -/
theorem coef_apply_fun {T : Shape} (dims : Fin T.rank → Fin 2) (hb : T.BroadcastsInDim S2048x4096 dims)
    (k : Nat) (hk : k < 8) (tbl : S8.Idx → α) (hs : S8.Slices ![k] S1) (hc : S1.ShapeCasts T) (j : S2048x4096.Idx) :
    broadcastInDim S2048x4096 dims hb (fun i => shapeCast T (extractStridedSlice S1 ![k] tbl hs) hc i) j = tbl (ix1 (⟨k, hk⟩ : Fin 8)) :=
  coef_apply dims hb k hk tbl hs hc j

/-! ## A level on whole arrays, as the reference spells it

The reference works on whole [2048, 4096] arrays: a coefficient is an entry of a table of eight spread over the array,
a shift is a cut-and-rejoin of every row, a tap is two products added to the running sum one after the other. The two
halves of a level are written here once for any look-ahead distances `p`, and read at an entry of a row. -/

/-- What cutting every row at column `B` and joining the pieces the other way round needs of the shapes. -/
structure RollFacts (B : Nat) : Prop where
  le : B ≤ 4096
  h1 : S2048x4096.Slices ![0, B] ⟨2, ![2048, 4096 - B]⟩
  h2 : S2048x4096.Slices ![0, 0] ⟨2, ![2048, B]⟩
  h3 : Shape.Concatenates [⟨2, ![2048, 4096 - B]⟩, ⟨2, ![2048, B]⟩] S2048x4096 1

/-- Every row shifted `B` places back, around the end: columns `B …` followed by columns `0 … B - 1`. -/
def vroll (B : Nat) (f : RollFacts B) (x : S2048x4096.Idx → α) : S2048x4096.Idx → α :=
  cat2 (4096 - B) B f.h3 (extractStridedSlice ⟨2, ![2048, 4096 - B]⟩ ![0, B] x f.h1)
    (extractStridedSlice ⟨2, ![2048, B]⟩ ![0, 0] x f.h2)

theorem vroll_apply (B : Nat) (f : RollFacts B) (x : S2048x4096.Idx → α) (r : Fin 2048) (t : Fin 4096) :
    vroll B f x (ix2 r t) = x (ix2 r (sh B t)) :=
  roll_apply (by have := f.le; omega) x f.h1 f.h2 f.h3 r t

/-- Entry `k` of a table of eight spread over the whole array. -/
def vcoef (tbl : S8.Idx → α) (k : Nat) (hs : S8.Slices ![k] S1) : S2048x4096.Idx → α :=
  broadcastInDim S2048x4096 (![] : Fin 0 → Fin 2) (by decide) (shapeCast S_ (extractStridedSlice S1 ![k] tbl hs) (by decide))

theorem vcoef_apply (tbl : S8.Idx → α) (k : Nat) (hk : k < 8) (hs : S8.Slices ![k] S1) (j : S2048x4096.Idx) :
    vcoef tbl k hs j = tbl (ix1 (⟨k, hk⟩ : Fin 8)) :=
  coef_apply _ _ k hk tbl hs _ j

/-- A scalar constant spread over the whole array. -/
def vconst (w : BitVec 32) : S2048x4096.Idx → EReal :=
  broadcastInDim S2048x4096 (![] : Fin 0 → Fin 2) (by decide) (constant (F := Ideal) S_ .f32 w)

theorem vconst_apply (w : BitVec 32) (j : S2048x4096.Idx) : vconst w j = Ideal.ofBits .f32 w := rfl

/-- One tap on whole arrays: the two products added to the running sum one after the other. -/
def vtap (cst v10 : S8.Idx → EReal) (k : Nat) (hs : S8.Slices ![k] S1) (B : Nat) (f : RollFacts B)
    (a h acc : S2048x4096.Idx → EReal) : S2048x4096.Idx → EReal :=
  addf (F := Ideal) (φ := .f32) (addf (F := Ideal) (φ := .f32) acc (mulf (F := Ideal) (φ := .f32) (vcoef cst k hs) (vroll B f a)))
    (mulf (F := Ideal) (φ := .f32) (vcoef v10 k hs) (vroll B f h))

theorem vtap_apply (cst v10 : S8.Idx → EReal) (k : Nat) (hk : k < 8) (hs : S8.Slices ![k] S1) (B : Nat) (f : RollFacts B)
    (a h acc : S2048x4096.Idx → EReal) (r : Fin 2048) (t : Fin 4096) :
    vtap cst v10 k hs B f a h acc (ix2 r t)
      = tapSeq (cst (ix1 (⟨k, hk⟩ : Fin 8))) (v10 (ix1 (⟨k, hk⟩ : Fin 8))) B (fun t => a (ix2 r t)) (fun t => h (ix2 r t))
          (fun t => acc (ix2 r t)) t := by
  unfold vtap tapSeq
  rw [addf_apply, addf_apply, mulf_apply, mulf_apply, vcoef_apply cst k hk, vcoef_apply v10 k hk, vroll_apply, vroll_apply]

/-- The zero sum and the first four taps of a level. -/
def vFirst (p : Fin 8 → Nat) (f : ∀ k, RollFacts (p k)) (cst v10 : S8.Idx → EReal) (a h : S2048x4096.Idx → EReal) :
    S2048x4096.Idx → EReal :=
  vtap cst v10 3 (by decide) (p 3) (f 3) a h (vtap cst v10 2 (by decide) (p 2) (f 2) a h
    (vtap cst v10 1 (by decide) (p 1) (f 1) a h (vtap cst v10 0 (by decide) (p 0) (f 0) a h (vconst 0x00000000#32))))

/-- The last four taps of a level on a running sum, and the halving. -/
def vSecond (p : Fin 8 → Nat) (f : ∀ k, RollFacts (p k)) (cst v10 : S8.Idx → EReal) (a h acc : S2048x4096.Idx → EReal) :
    S2048x4096.Idx → EReal :=
  mulf (F := Ideal) (φ := .f32) (vconst 0x3F000000#32)
    (vtap cst v10 7 (by decide) (p 7) (f 7) a h (vtap cst v10 6 (by decide) (p 6) (f 6) a h
      (vtap cst v10 5 (by decide) (p 5) (f 5) a h (vtap cst v10 4 (by decide) (p 4) (f 4) a h acc))))

theorem vFirst_apply (p : Fin 8 → Nat) (f : ∀ k, RollFacts (p k)) (cst v10 : S8.Idx → EReal) (a h : S2048x4096.Idx → EReal)
    (r : Fin 2048) (t : Fin 4096) :
    vFirst p f cst v10 a h (ix2 r t)
      = firstHalf (fun k => cst (ix1 k)) (fun k => v10 (ix1 k)) p (fun t => a (ix2 r t)) (fun t => h (ix2 r t)) t := by
  unfold vFirst firstHalf
  simp only [vtap_apply _ _ 0 (by decide), vtap_apply _ _ 1 (by decide), vtap_apply _ _ 2 (by decide),
    vtap_apply _ _ 3 (by decide), vconst_apply]
  rfl

theorem vSecond_apply (p : Fin 8 → Nat) (f : ∀ k, RollFacts (p k)) (cst v10 : S8.Idx → EReal) (a h acc : S2048x4096.Idx → EReal)
    (r : Fin 2048) (t : Fin 4096) :
    vSecond p f cst v10 a h acc (ix2 r t)
      = secondHalf (fun k => cst (ix1 k)) (fun k => v10 (ix1 k)) p (fun t => a (ix2 r t)) (fun t => h (ix2 r t))
          (fun t => acc (ix2 r t)) t := by
  unfold vSecond secondHalf
  rw [mulf_apply, vconst_apply]
  simp only [vtap_apply _ _ 4 (by decide), vtap_apply _ _ 5 (by decide), vtap_apply _ _ 6 (by decide),
    vtap_apply _ _ 7 (by decide)]
  rfl

/-- The shapes admit every look-ahead distance the three levels use. -/
theorem facts4 : ∀ k, RollFacts (p4 k) := by
  intro k; fin_cases k <;> exact ⟨by decide, by decide, by decide, by decide⟩
theorem facts2 : ∀ k, RollFacts (p2 k) := by
  intro k; fin_cases k <;> exact ⟨by decide, by decide, by decide, by decide⟩
theorem facts1 : ∀ k, RollFacts (p1 k) := by
  intro k; fin_cases k <;> exact ⟨by decide, by decide, by decide, by decide⟩

/-- A table of eight reversed: entry `k` is entry `7 - k`. -/
theorem reverse8_apply (tbl : S8.Idx → α) (k : Fin 8) :
    Host.reverse (s := S8) [0] tbl (ix1 k) = tbl (ix1 k.rev) := by
  unfold Host.reverse
  refine congrArg tbl (funext fun a => ?_)
  match a with
  | ⟨0, _⟩ => rfl

end Cert.Iswt

end
-- ==== Proof.RefOps.lean ====
/- The reference program's @main as literal lists of its host operations, each call's callee written out at the call's
   own buffers: window by window as printed. A table; nothing is proved here. -/
import proofs.«418173_j65420941852885_3_alg».proof.Proof.Gen.ReferenceIdeal
import proofs.«418173_j65420941852885_3_alg».proof.Proof.RefLemmas
import Idealize.ShloMosaic.Lib.StableHlo.Run

-- one list at a time: elaborated side by side the lists hold several gigabytes
set_option Elab.async false

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 76 of 413: the printed window main_part0. -/
abbrev opsW0 : List (HloOp τ sig (Elt F)) :=
  [
    nullary main_cst (fun i => FloatOps.ofBits .f32 (lit0 (S8.rowMajor i))),
    nullary main_cst_0 (fun i => FloatOps.ofBits .f32 (lit1 (S8.rowMajor i))),
    reshape main_arg0 main_v0 rfl shapeCasts_S32x256x4096_S2048x4x4096,
    unary main_v0 main_v1 ((extractStridedSlice S2048x1x4096 ![0, 0, 0] · slices_S2048x4x4096_S2048x1x4096_0_0_0) : (⟨S2048x4x4096, .f32⟩ : BufTy).Contents (Elt F) → (⟨S2048x1x4096, .f32⟩ : BufTy).Contents (Elt F)),
    reshape main_v1 main_v2 rfl shapeCasts_S2048x1x4096_S2048x4096,
    unary main_v0 main_v3 ((extractStridedSlice S2048x1x4096 ![0, 1, 0] · slices_S2048x4x4096_S2048x1x4096_0_1_0) : (⟨S2048x4x4096, .f32⟩ : BufTy).Contents (Elt F) → (⟨S2048x1x4096, .f32⟩ : BufTy).Contents (Elt F)),
    reshape main_v3 main_v4 rfl shapeCasts_S2048x1x4096_S2048x4096,
    unary main_v0 main_v5 ((extractStridedSlice S2048x1x4096 ![0, 2, 0] · slices_S2048x4x4096_S2048x1x4096_0_2_0) : (⟨S2048x4x4096, .f32⟩ : BufTy).Contents (Elt F) → (⟨S2048x1x4096, .f32⟩ : BufTy).Contents (Elt F)),
    reshape main_v5 main_v6 rfl shapeCasts_S2048x1x4096_S2048x4096,
    unary main_v0 main_v7 ((extractStridedSlice S2048x1x4096 ![0, 3, 0] · slices_S2048x4x4096_S2048x1x4096_0_3_0) : (⟨S2048x4x4096, .f32⟩ : BufTy).Contents (Elt F) → (⟨S2048x1x4096, .f32⟩ : BufTy).Contents (Elt F)),
    reshape main_v7 main_v8 rfl shapeCasts_S2048x1x4096_S2048x4096,
    unary main_cst main_v9 (Host.reverse [0] : (⟨S8, .f32⟩ : BufTy).Contents (Elt F) → (⟨S8, .f32⟩ : BufTy).Contents (Elt F)),
    binary main_v9 main_cst_0 main_v10 (mulf : (⟨S8, .f32⟩ : BufTy).Contents (Elt F) → (⟨S8, .f32⟩ : BufTy).Contents (Elt F) → (⟨S8, .f32⟩ : BufTy).Contents (Elt F)),
    nullary main_cst_1 (constant S_ .f32 0x00000000#32),
    unary main_cst_1 main_v11 (broadcastInDim S2048x4096 ![] bcast_S_S2048x4096 : (⟨S_, .f32⟩ : BufTy).Contents (Elt F) → (⟨S2048x4096, .f32⟩ : BufTy).Contents (Elt F)),
    unary main_cst main_v12 ((extractStridedSlice S1 ![0] · slices_S8_S1_0) : (⟨S8, .f32⟩ : BufTy).Contents (Elt F) → (⟨S1, .f32⟩ : BufTy).Contents (Elt F)),
    reshape main_v12 main_v13 rfl shapeCasts_S1_S_,
    unary main_v2 main_call0_v0 ((extractStridedSlice S2048x4084 ![0, 12] · slices_S2048x4096_S2048x4084_0_12) : (⟨S2048x4096, .f32⟩ : BufTy).Contents (Elt F) → (⟨S2048x4084, .f32⟩ : BufTy).Contents (Elt F)),
    unary main_v2 main_call0_v1 ((extractStridedSlice S2048x12 ![0, 0] · slices_S2048x4096_S2048x12_0_0) : (⟨S2048x4096, .f32⟩ : BufTy).Contents (Elt F) → (⟨S2048x12, .f32⟩ : BufTy).Contents (Elt F)),
    binary main_call0_v0 main_call0_v1 main_v14 ((Cert.Iswt.cat2 4084 12 concatenates_S2048x4084_S2048x12_S2048x4096_d1) : (⟨S2048x4084, .f32⟩ : BufTy).Contents (Elt F) → (⟨S2048x12, .f32⟩ : BufTy).Contents (Elt F) → (⟨S2048x4096, .f32⟩ : BufTy).Contents (Elt F)),
    unary main_v13 main_v15 (broadcastInDim S2048x4096 ![] bcast_S_S2048x4096 : (⟨S_, .f32⟩ : BufTy).Contents (Elt F) → (⟨S2048x4096, .f32⟩ : BufTy).Contents (Elt F)),
    binary main_v15 main_v14 main_v16 (mulf : (⟨S2048x4096, .f32⟩ : BufTy).Contents (Elt F) → (⟨S2048x4096, .f32⟩ : BufTy).Contents (Elt F) → (⟨S2048x4096, .f32⟩ : BufTy).Contents (Elt F)),
    binary main_v11 main_v16 main_v17 (addf : (⟨S2048x4096, .f32⟩ : BufTy).Contents (Elt F) → (⟨S2048x4096, .f32⟩ : BufTy).Contents (Elt F) → (⟨S2048x4096, .f32⟩ : BufTy).Contents (Elt F)),
    unary main_v10 main_v18 ((extractStridedSlice S1 ![0] · slices_S8_S1_0) : (⟨S8, .f32⟩ : BufTy).Contents (Elt F) → (⟨S1, .f32⟩ : BufTy).Contents (Elt F)),
    reshape main_v18 main_v19 rfl shapeCasts_S1_S_,
    unary main_v4 main_call1_v0 ((extractStridedSlice S2048x4084 ![0, 12] · slices_S2048x4096_S2048x4084_0_12) : (⟨S2048x4096, .f32⟩ : BufTy).Contents (Elt F) → (⟨S2048x4084, .f32⟩ : BufTy).Contents (Elt F)),
    unary main_v4 main_call1_v1 ((extractStridedSlice S2048x12 ![0, 0] · slices_S2048x4096_S2048x12_0_0) : (⟨S2048x4096, .f32⟩ : BufTy).Contents (Elt F) → (⟨S2048x12, .f32⟩ : BufTy).Contents (Elt F)),
    binary main_call1_v0 main_call1_v1 main_v20 ((Cert.Iswt.cat2 4084 12 concatenates_S2048x4084_S2048x12_S2048x4096_d1) : (⟨S2048x4084, .f32⟩ : BufTy).Contents (Elt F) → (⟨S2048x12, .f32⟩ : BufTy).Contents (Elt F) → (⟨S2048x4096, .f32⟩ : BufTy).Contents (Elt F)),
    unary main_v19 main_v21 (broadcastInDim S2048x4096 ![] bcast_S_S2048x4096 : (⟨S_, .f32⟩ : BufTy).Contents (Elt F) → (⟨S2048x4096, .f32⟩ : BufTy).Contents (Elt F)),
    binary main_v21 main_v20 main_v22 (mulf : (⟨S2048x4096, .f32⟩ : BufTy).Contents (Elt F) → (⟨S2048x4096, .f32⟩ : BufTy).Contents (Elt F) → (⟨S2048x4096, .f32⟩ : BufTy).Contents (Elt F)),
    binary main_v17 main_v22 main_v23 (addf : (⟨S2048x4096, .f32⟩ : BufTy).Contents (Elt F) → (⟨S2048x4096, .f32⟩ : BufTy).Contents (Elt F) → (⟨S2048x4096, .f32⟩ : BufTy).Contents (Elt F)),
    unary main_cst main_v24 ((extractStridedSlice S1 ![1] · slices_S8_S1_1) : (⟨S8, .f32⟩ : BufTy).Contents (Elt F) → (⟨S1, .f32⟩ : BufTy).Contents (Elt F)),
    reshape main_v24 main_v25 rfl shapeCasts_S1_S_,
    unary main_v2 main_call2_v0 ((extractStridedSlice S2048x4088 ![0, 8] · slices_S2048x4096_S2048x4088_0_8) : (⟨S2048x4096, .f32⟩ : BufTy).Contents (Elt F) → (⟨S2048x4088, .f32⟩ : BufTy).Contents (Elt F)),
    unary main_v2 main_call2_v1 ((extractStridedSlice S2048x8 ![0, 0] · slices_S2048x4096_S2048x8_0_0) : (⟨S2048x4096, .f32⟩ : BufTy).Contents (Elt F) → (⟨S2048x8, .f32⟩ : BufTy).Contents (Elt F)),
    binary main_call2_v0 main_call2_v1 main_v26 ((Cert.Iswt.cat2 4088 8 concatenates_S2048x4088_S2048x8_S2048x4096_d1) : (⟨S2048x4088, .f32⟩ : BufTy).Contents (Elt F) → (⟨S2048x8, .f32⟩ : BufTy).Contents (Elt F) → (⟨S2048x4096, .f32⟩ : BufTy).Contents (Elt F)),
    unary main_v25 main_v27 (broadcastInDim S2048x4096 ![] bcast_S_S2048x4096 : (⟨S_, .f32⟩ : BufTy).Contents (Elt F) → (⟨S2048x4096, .f32⟩ : BufTy).Contents (Elt F)),
    binary main_v27 main_v26 main_v28 (mulf : (⟨S2048x4096, .f32⟩ : BufTy).Contents (Elt F) → (⟨S2048x4096, .f32⟩ : BufTy).Contents (Elt F) → (⟨S2048x4096, .f32⟩ : BufTy).Contents (Elt F)),
    binary main_v23 main_v28 main_v29 (addf : (⟨S2048x4096, .f32⟩ : BufTy).Contents (Elt F) → (⟨S2048x4096, .f32⟩ : BufTy).Contents (Elt F) → (⟨S2048x4096, .f32⟩ : BufTy).Contents (Elt F)),
    unary main_v10 main_v30 ((extractStridedSlice S1 ![1] · slices_S8_S1_1) : (⟨S8, .f32⟩ : BufTy).Contents (Elt F) → (⟨S1, .f32⟩ : BufTy).Contents (Elt F)),
    reshape main_v30 main_v31 rfl shapeCasts_S1_S_,
    unary main_v4 main_call3_v0 ((extractStridedSlice S2048x4088 ![0, 8] · slices_S2048x4096_S2048x4088_0_8) : (⟨S2048x4096, .f32⟩ : BufTy).Contents (Elt F) → (⟨S2048x4088, .f32⟩ : BufTy).Contents (Elt F)),
    unary main_v4 main_call3_v1 ((extractStridedSlice S2048x8 ![0, 0] · slices_S2048x4096_S2048x8_0_0) : (⟨S2048x4096, .f32⟩ : BufTy).Contents (Elt F) → (⟨S2048x8, .f32⟩ : BufTy).Contents (Elt F)),
    binary main_call3_v0 main_call3_v1 main_v32 ((Cert.Iswt.cat2 4088 8 concatenates_S2048x4088_S2048x8_S2048x4096_d1) : (⟨S2048x4088, .f32⟩ : BufTy).Contents (Elt F) → (⟨S2048x8, .f32⟩ : BufTy).Contents (Elt F) → (⟨S2048x4096, .f32⟩ : BufTy).Contents (Elt F)),
    unary main_v31 main_v33 (broadcastInDim S2048x4096 ![] bcast_S_S2048x4096 : (⟨S_, .f32⟩ : BufTy).Contents (Elt F) → (⟨S2048x4096, .f32⟩ : BufTy).Contents (Elt F)),
    binary main_v33 main_v32 main_v34 (mulf : (⟨S2048x4096, .f32⟩ : BufTy).Contents (Elt F) → (⟨S2048x4096, .f32⟩ : BufTy).Contents (Elt F) → (⟨S2048x4096, .f32⟩ : BufTy).Contents (Elt F)),
    binary main_v29 main_v34 main_v35 (addf : (⟨S2048x4096, .f32⟩ : BufTy).Contents (Elt F) → (⟨S2048x4096, .f32⟩ : BufTy).Contents (Elt F) → (⟨S2048x4096, .f32⟩ : BufTy).Contents (Elt F)),
    unary main_cst main_v36 ((extractStridedSlice S1 ![2] · slices_S8_S1_2) : (⟨S8, .f32⟩ : BufTy).Contents (Elt F) → (⟨S1, .f32⟩ : BufTy).Contents (Elt F)),
    reshape main_v36 main_v37 rfl shapeCasts_S1_S_,
    unary main_v2 main_call4_v0 ((extractStridedSlice S2048x4092 ![0, 4] · slices_S2048x4096_S2048x4092_0_4) : (⟨S2048x4096, .f32⟩ : BufTy).Contents (Elt F) → (⟨S2048x4092, .f32⟩ : BufTy).Contents (Elt F)),
    unary main_v2 main_call4_v1 ((extractStridedSlice S2048x4 ![0, 0] · slices_S2048x4096_S2048x4_0_0) : (⟨S2048x4096, .f32⟩ : BufTy).Contents (Elt F) → (⟨S2048x4, .f32⟩ : BufTy).Contents (Elt F)),
    binary main_call4_v0 main_call4_v1 main_v38 ((Cert.Iswt.cat2 4092 4 concatenates_S2048x4092_S2048x4_S2048x4096_d1) : (⟨S2048x4092, .f32⟩ : BufTy).Contents (Elt F) → (⟨S2048x4, .f32⟩ : BufTy).Contents (Elt F) → (⟨S2048x4096, .f32⟩ : BufTy).Contents (Elt F)),
    unary main_v37 main_v39 (broadcastInDim S2048x4096 ![] bcast_S_S2048x4096 : (⟨S_, .f32⟩ : BufTy).Contents (Elt F) → (⟨S2048x4096, .f32⟩ : BufTy).Contents (Elt F)),
    binary main_v39 main_v38 main_v40 (mulf : (⟨S2048x4096, .f32⟩ : BufTy).Contents (Elt F) → (⟨S2048x4096, .f32⟩ : BufTy).Contents (Elt F) → (⟨S2048x4096, .f32⟩ : BufTy).Contents (Elt F)),
    binary main_v35 main_v40 main_v41 (addf : (⟨S2048x4096, .f32⟩ : BufTy).Contents (Elt F) → (⟨S2048x4096, .f32⟩ : BufTy).Contents (Elt F) → (⟨S2048x4096, .f32⟩ : BufTy).Contents (Elt F)),
    unary main_v10 main_v42 ((extractStridedSlice S1 ![2] · slices_S8_S1_2) : (⟨S8, .f32⟩ : BufTy).Contents (Elt F) → (⟨S1, .f32⟩ : BufTy).Contents (Elt F)),
    reshape main_v42 main_v43 rfl shapeCasts_S1_S_,
    unary main_v4 main_call5_v0 ((extractStridedSlice S2048x4092 ![0, 4] · slices_S2048x4096_S2048x4092_0_4) : (⟨S2048x4096, .f32⟩ : BufTy).Contents (Elt F) → (⟨S2048x4092, .f32⟩ : BufTy).Contents (Elt F)),
    unary main_v4 main_call5_v1 ((extractStridedSlice S2048x4 ![0, 0] · slices_S2048x4096_S2048x4_0_0) : (⟨S2048x4096, .f32⟩ : BufTy).Contents (Elt F) → (⟨S2048x4, .f32⟩ : BufTy).Contents (Elt F)),
    binary main_call5_v0 main_call5_v1 main_v44 ((Cert.Iswt.cat2 4092 4 concatenates_S2048x4092_S2048x4_S2048x4096_d1) : (⟨S2048x4092, .f32⟩ : BufTy).Contents (Elt F) → (⟨S2048x4, .f32⟩ : BufTy).Contents (Elt F) → (⟨S2048x4096, .f32⟩ : BufTy).Contents (Elt F)),
    unary main_v43 main_v45 (broadcastInDim S2048x4096 ![] bcast_S_S2048x4096 : (⟨S_, .f32⟩ : BufTy).Contents (Elt F) → (⟨S2048x4096, .f32⟩ : BufTy).Contents (Elt F)),
    binary main_v45 main_v44 main_v46 (mulf : (⟨S2048x4096, .f32⟩ : BufTy).Contents (Elt F) → (⟨S2048x4096, .f32⟩ : BufTy).Contents (Elt F) → (⟨S2048x4096, .f32⟩ : BufTy).Contents (Elt F)),
    binary main_v41 main_v46 main_v47 (addf : (⟨S2048x4096, .f32⟩ : BufTy).Contents (Elt F) → (⟨S2048x4096, .f32⟩ : BufTy).Contents (Elt F) → (⟨S2048x4096, .f32⟩ : BufTy).Contents (Elt F)),
    unary main_cst main_v48 ((extractStridedSlice S1 ![3] · slices_S8_S1_3) : (⟨S8, .f32⟩ : BufTy).Contents (Elt F) → (⟨S1, .f32⟩ : BufTy).Contents (Elt F)),
    reshape main_v48 main_v49 rfl shapeCasts_S1_S_,
    unary main_v2 main_call6_v0 ((extractStridedSlice S2048x4096 ![0, 0] · slices_S2048x4096_S2048x4096_0_0) : (⟨S2048x4096, .f32⟩ : BufTy).Contents (Elt F) → (⟨S2048x4096, .f32⟩ : BufTy).Contents (Elt F)),
    unary main_v2 main_call6_v1 ((extractStridedSlice S2048x0 ![0, 0] · slices_S2048x4096_S2048x0_0_0) : (⟨S2048x4096, .f32⟩ : BufTy).Contents (Elt F) → (⟨S2048x0, .f32⟩ : BufTy).Contents (Elt F)),
    binary main_call6_v0 main_call6_v1 main_v50 ((Cert.Iswt.cat2 4096 0 concatenates_S2048x4096_S2048x0_S2048x4096_d1) : (⟨S2048x4096, .f32⟩ : BufTy).Contents (Elt F) → (⟨S2048x0, .f32⟩ : BufTy).Contents (Elt F) → (⟨S2048x4096, .f32⟩ : BufTy).Contents (Elt F)),
    unary main_v49 main_v51 (broadcastInDim S2048x4096 ![] bcast_S_S2048x4096 : (⟨S_, .f32⟩ : BufTy).Contents (Elt F) → (⟨S2048x4096, .f32⟩ : BufTy).Contents (Elt F)),
    binary main_v51 main_v50 main_v52 (mulf : (⟨S2048x4096, .f32⟩ : BufTy).Contents (Elt F) → (⟨S2048x4096, .f32⟩ : BufTy).Contents (Elt F) → (⟨S2048x4096, .f32⟩ : BufTy).Contents (Elt F)),
    binary main_v47 main_v52 main_v53 (addf : (⟨S2048x4096, .f32⟩ : BufTy).Contents (Elt F) → (⟨S2048x4096, .f32⟩ : BufTy).Contents (Elt F) → (⟨S2048x4096, .f32⟩ : BufTy).Contents (Elt F)),
    unary main_v10 main_v54 ((extractStridedSlice S1 ![3] · slices_S8_S1_3) : (⟨S8, .f32⟩ : BufTy).Contents (Elt F) → (⟨S1, .f32⟩ : BufTy).Contents (Elt F)),
    reshape main_v54 main_v55 rfl shapeCasts_S1_S_,
    unary main_v4 main_call7_v0 ((extractStridedSlice S2048x4096 ![0, 0] · slices_S2048x4096_S2048x4096_0_0) : (⟨S2048x4096, .f32⟩ : BufTy).Contents (Elt F) → (⟨S2048x4096, .f32⟩ : BufTy).Contents (Elt F)),
    unary main_v4 main_call7_v1 ((extractStridedSlice S2048x0 ![0, 0] · slices_S2048x4096_S2048x0_0_0) : (⟨S2048x4096, .f32⟩ : BufTy).Contents (Elt F) → (⟨S2048x0, .f32⟩ : BufTy).Contents (Elt F)),
    binary main_call7_v0 main_call7_v1 main_v56 ((Cert.Iswt.cat2 4096 0 concatenates_S2048x4096_S2048x0_S2048x4096_d1) : (⟨S2048x4096, .f32⟩ : BufTy).Contents (Elt F) → (⟨S2048x0, .f32⟩ : BufTy).Contents (Elt F) → (⟨S2048x4096, .f32⟩ : BufTy).Contents (Elt F))
  ]

/-- @main's operations 77 … 154 of 413: the printed window main_part1. -/
abbrev opsW1 : List (HloOp τ sig (Elt F)) :=
  [
    unary main_v55 main_v57 (broadcastInDim S2048x4096 ![] bcast_S_S2048x4096 : (⟨S_, .f32⟩ : BufTy).Contents (Elt F) → (⟨S2048x4096, .f32⟩ : BufTy).Contents (Elt F)),
    binary main_v57 main_v56 main_v58 (mulf : (⟨S2048x4096, .f32⟩ : BufTy).Contents (Elt F) → (⟨S2048x4096, .f32⟩ : BufTy).Contents (Elt F) → (⟨S2048x4096, .f32⟩ : BufTy).Contents (Elt F)),
    binary main_v53 main_v58 main_v59 (addf : (⟨S2048x4096, .f32⟩ : BufTy).Contents (Elt F) → (⟨S2048x4096, .f32⟩ : BufTy).Contents (Elt F) → (⟨S2048x4096, .f32⟩ : BufTy).Contents (Elt F)),
    unary main_cst main_v60 ((extractStridedSlice S1 ![4] · slices_S8_S1_4) : (⟨S8, .f32⟩ : BufTy).Contents (Elt F) → (⟨S1, .f32⟩ : BufTy).Contents (Elt F)),
    reshape main_v60 main_v61 rfl shapeCasts_S1_S_,
    unary main_v2 main_call8_v0 ((extractStridedSlice S2048x4 ![0, 4092] · slices_S2048x4096_S2048x4_0_4092) : (⟨S2048x4096, .f32⟩ : BufTy).Contents (Elt F) → (⟨S2048x4, .f32⟩ : BufTy).Contents (Elt F)),
    unary main_v2 main_call8_v1 ((extractStridedSlice S2048x4092 ![0, 0] · slices_S2048x4096_S2048x4092_0_0) : (⟨S2048x4096, .f32⟩ : BufTy).Contents (Elt F) → (⟨S2048x4092, .f32⟩ : BufTy).Contents (Elt F)),
    binary main_call8_v0 main_call8_v1 main_v62 ((Cert.Iswt.cat2 4 4092 concatenates_S2048x4_S2048x4092_S2048x4096_d1) : (⟨S2048x4, .f32⟩ : BufTy).Contents (Elt F) → (⟨S2048x4092, .f32⟩ : BufTy).Contents (Elt F) → (⟨S2048x4096, .f32⟩ : BufTy).Contents (Elt F)),
    unary main_v61 main_v63 (broadcastInDim S2048x4096 ![] bcast_S_S2048x4096 : (⟨S_, .f32⟩ : BufTy).Contents (Elt F) → (⟨S2048x4096, .f32⟩ : BufTy).Contents (Elt F)),
    binary main_v63 main_v62 main_v64 (mulf : (⟨S2048x4096, .f32⟩ : BufTy).Contents (Elt F) → (⟨S2048x4096, .f32⟩ : BufTy).Contents (Elt F) → (⟨S2048x4096, .f32⟩ : BufTy).Contents (Elt F)),
    binary main_v59 main_v64 main_v65 (addf : (⟨S2048x4096, .f32⟩ : BufTy).Contents (Elt F) → (⟨S2048x4096, .f32⟩ : BufTy).Contents (Elt F) → (⟨S2048x4096, .f32⟩ : BufTy).Contents (Elt F)),
    unary main_v10 main_v66 ((extractStridedSlice S1 ![4] · slices_S8_S1_4) : (⟨S8, .f32⟩ : BufTy).Contents (Elt F) → (⟨S1, .f32⟩ : BufTy).Contents (Elt F)),
    reshape main_v66 main_v67 rfl shapeCasts_S1_S_,
    unary main_v4 main_call9_v0 ((extractStridedSlice S2048x4 ![0, 4092] · slices_S2048x4096_S2048x4_0_4092) : (⟨S2048x4096, .f32⟩ : BufTy).Contents (Elt F) → (⟨S2048x4, .f32⟩ : BufTy).Contents (Elt F)),
    unary main_v4 main_call9_v1 ((extractStridedSlice S2048x4092 ![0, 0] · slices_S2048x4096_S2048x4092_0_0) : (⟨S2048x4096, .f32⟩ : BufTy).Contents (Elt F) → (⟨S2048x4092, .f32⟩ : BufTy).Contents (Elt F)),
    binary main_call9_v0 main_call9_v1 main_v68 ((Cert.Iswt.cat2 4 4092 concatenates_S2048x4_S2048x4092_S2048x4096_d1) : (⟨S2048x4, .f32⟩ : BufTy).Contents (Elt F) → (⟨S2048x4092, .f32⟩ : BufTy).Contents (Elt F) → (⟨S2048x4096, .f32⟩ : BufTy).Contents (Elt F)),
    unary main_v67 main_v69 (broadcastInDim S2048x4096 ![] bcast_S_S2048x4096 : (⟨S_, .f32⟩ : BufTy).Contents (Elt F) → (⟨S2048x4096, .f32⟩ : BufTy).Contents (Elt F)),
    binary main_v69 main_v68 main_v70 (mulf : (⟨S2048x4096, .f32⟩ : BufTy).Contents (Elt F) → (⟨S2048x4096, .f32⟩ : BufTy).Contents (Elt F) → (⟨S2048x4096, .f32⟩ : BufTy).Contents (Elt F)),
    binary main_v65 main_v70 main_v71 (addf : (⟨S2048x4096, .f32⟩ : BufTy).Contents (Elt F) → (⟨S2048x4096, .f32⟩ : BufTy).Contents (Elt F) → (⟨S2048x4096, .f32⟩ : BufTy).Contents (Elt F)),
    unary main_cst main_v72 ((extractStridedSlice S1 ![5] · slices_S8_S1_5) : (⟨S8, .f32⟩ : BufTy).Contents (Elt F) → (⟨S1, .f32⟩ : BufTy).Contents (Elt F)),
    reshape main_v72 main_v73 rfl shapeCasts_S1_S_,
    unary main_v2 main_call10_v0 ((extractStridedSlice S2048x8 ![0, 4088] · slices_S2048x4096_S2048x8_0_4088) : (⟨S2048x4096, .f32⟩ : BufTy).Contents (Elt F) → (⟨S2048x8, .f32⟩ : BufTy).Contents (Elt F)),
    unary main_v2 main_call10_v1 ((extractStridedSlice S2048x4088 ![0, 0] · slices_S2048x4096_S2048x4088_0_0) : (⟨S2048x4096, .f32⟩ : BufTy).Contents (Elt F) → (⟨S2048x4088, .f32⟩ : BufTy).Contents (Elt F)),
    binary main_call10_v0 main_call10_v1 main_v74 ((Cert.Iswt.cat2 8 4088 concatenates_S2048x8_S2048x4088_S2048x4096_d1) : (⟨S2048x8, .f32⟩ : BufTy).Contents (Elt F) → (⟨S2048x4088, .f32⟩ : BufTy).Contents (Elt F) → (⟨S2048x4096, .f32⟩ : BufTy).Contents (Elt F)),
    unary main_v73 main_v75 (broadcastInDim S2048x4096 ![] bcast_S_S2048x4096 : (⟨S_, .f32⟩ : BufTy).Contents (Elt F) → (⟨S2048x4096, .f32⟩ : BufTy).Contents (Elt F)),
    binary main_v75 main_v74 main_v76 (mulf : (⟨S2048x4096, .f32⟩ : BufTy).Contents (Elt F) → (⟨S2048x4096, .f32⟩ : BufTy).Contents (Elt F) → (⟨S2048x4096, .f32⟩ : BufTy).Contents (Elt F)),
    binary main_v71 main_v76 main_v77 (addf : (⟨S2048x4096, .f32⟩ : BufTy).Contents (Elt F) → (⟨S2048x4096, .f32⟩ : BufTy).Contents (Elt F) → (⟨S2048x4096, .f32⟩ : BufTy).Contents (Elt F)),
    unary main_v10 main_v78 ((extractStridedSlice S1 ![5] · slices_S8_S1_5) : (⟨S8, .f32⟩ : BufTy).Contents (Elt F) → (⟨S1, .f32⟩ : BufTy).Contents (Elt F)),
    reshape main_v78 main_v79 rfl shapeCasts_S1_S_,
    unary main_v4 main_call11_v0 ((extractStridedSlice S2048x8 ![0, 4088] · slices_S2048x4096_S2048x8_0_4088) : (⟨S2048x4096, .f32⟩ : BufTy).Contents (Elt F) → (⟨S2048x8, .f32⟩ : BufTy).Contents (Elt F)),
    unary main_v4 main_call11_v1 ((extractStridedSlice S2048x4088 ![0, 0] · slices_S2048x4096_S2048x4088_0_0) : (⟨S2048x4096, .f32⟩ : BufTy).Contents (Elt F) → (⟨S2048x4088, .f32⟩ : BufTy).Contents (Elt F)),
    binary main_call11_v0 main_call11_v1 main_v80 ((Cert.Iswt.cat2 8 4088 concatenates_S2048x8_S2048x4088_S2048x4096_d1) : (⟨S2048x8, .f32⟩ : BufTy).Contents (Elt F) → (⟨S2048x4088, .f32⟩ : BufTy).Contents (Elt F) → (⟨S2048x4096, .f32⟩ : BufTy).Contents (Elt F)),
    unary main_v79 main_v81 (broadcastInDim S2048x4096 ![] bcast_S_S2048x4096 : (⟨S_, .f32⟩ : BufTy).Contents (Elt F) → (⟨S2048x4096, .f32⟩ : BufTy).Contents (Elt F)),
    binary main_v81 main_v80 main_v82 (mulf : (⟨S2048x4096, .f32⟩ : BufTy).Contents (Elt F) → (⟨S2048x4096, .f32⟩ : BufTy).Contents (Elt F) → (⟨S2048x4096, .f32⟩ : BufTy).Contents (Elt F)),
    binary main_v77 main_v82 main_v83 (addf : (⟨S2048x4096, .f32⟩ : BufTy).Contents (Elt F) → (⟨S2048x4096, .f32⟩ : BufTy).Contents (Elt F) → (⟨S2048x4096, .f32⟩ : BufTy).Contents (Elt F)),
    unary main_cst main_v84 ((extractStridedSlice S1 ![6] · slices_S8_S1_6) : (⟨S8, .f32⟩ : BufTy).Contents (Elt F) → (⟨S1, .f32⟩ : BufTy).Contents (Elt F)),
    reshape main_v84 main_v85 rfl shapeCasts_S1_S_,
    unary main_v2 main_call12_v0 ((extractStridedSlice S2048x12 ![0, 4084] · slices_S2048x4096_S2048x12_0_4084) : (⟨S2048x4096, .f32⟩ : BufTy).Contents (Elt F) → (⟨S2048x12, .f32⟩ : BufTy).Contents (Elt F)),
    unary main_v2 main_call12_v1 ((extractStridedSlice S2048x4084 ![0, 0] · slices_S2048x4096_S2048x4084_0_0) : (⟨S2048x4096, .f32⟩ : BufTy).Contents (Elt F) → (⟨S2048x4084, .f32⟩ : BufTy).Contents (Elt F)),
    binary main_call12_v0 main_call12_v1 main_v86 ((Cert.Iswt.cat2 12 4084 concatenates_S2048x12_S2048x4084_S2048x4096_d1) : (⟨S2048x12, .f32⟩ : BufTy).Contents (Elt F) → (⟨S2048x4084, .f32⟩ : BufTy).Contents (Elt F) → (⟨S2048x4096, .f32⟩ : BufTy).Contents (Elt F)),
    unary main_v85 main_v87 (broadcastInDim S2048x4096 ![] bcast_S_S2048x4096 : (⟨S_, .f32⟩ : BufTy).Contents (Elt F) → (⟨S2048x4096, .f32⟩ : BufTy).Contents (Elt F)),
    binary main_v87 main_v86 main_v88 (mulf : (⟨S2048x4096, .f32⟩ : BufTy).Contents (Elt F) → (⟨S2048x4096, .f32⟩ : BufTy).Contents (Elt F) → (⟨S2048x4096, .f32⟩ : BufTy).Contents (Elt F)),
    binary main_v83 main_v88 main_v89 (addf : (⟨S2048x4096, .f32⟩ : BufTy).Contents (Elt F) → (⟨S2048x4096, .f32⟩ : BufTy).Contents (Elt F) → (⟨S2048x4096, .f32⟩ : BufTy).Contents (Elt F)),
    unary main_v10 main_v90 ((extractStridedSlice S1 ![6] · slices_S8_S1_6) : (⟨S8, .f32⟩ : BufTy).Contents (Elt F) → (⟨S1, .f32⟩ : BufTy).Contents (Elt F)),
    reshape main_v90 main_v91 rfl shapeCasts_S1_S_,
    unary main_v4 main_call13_v0 ((extractStridedSlice S2048x12 ![0, 4084] · slices_S2048x4096_S2048x12_0_4084) : (⟨S2048x4096, .f32⟩ : BufTy).Contents (Elt F) → (⟨S2048x12, .f32⟩ : BufTy).Contents (Elt F)),
    unary main_v4 main_call13_v1 ((extractStridedSlice S2048x4084 ![0, 0] · slices_S2048x4096_S2048x4084_0_0) : (⟨S2048x4096, .f32⟩ : BufTy).Contents (Elt F) → (⟨S2048x4084, .f32⟩ : BufTy).Contents (Elt F)),
    binary main_call13_v0 main_call13_v1 main_v92 ((Cert.Iswt.cat2 12 4084 concatenates_S2048x12_S2048x4084_S2048x4096_d1) : (⟨S2048x12, .f32⟩ : BufTy).Contents (Elt F) → (⟨S2048x4084, .f32⟩ : BufTy).Contents (Elt F) → (⟨S2048x4096, .f32⟩ : BufTy).Contents (Elt F)),
    unary main_v91 main_v93 (broadcastInDim S2048x4096 ![] bcast_S_S2048x4096 : (⟨S_, .f32⟩ : BufTy).Contents (Elt F) → (⟨S2048x4096, .f32⟩ : BufTy).Contents (Elt F)),
    binary main_v93 main_v92 main_v94 (mulf : (⟨S2048x4096, .f32⟩ : BufTy).Contents (Elt F) → (⟨S2048x4096, .f32⟩ : BufTy).Contents (Elt F) → (⟨S2048x4096, .f32⟩ : BufTy).Contents (Elt F)),
    binary main_v89 main_v94 main_v95 (addf : (⟨S2048x4096, .f32⟩ : BufTy).Contents (Elt F) → (⟨S2048x4096, .f32⟩ : BufTy).Contents (Elt F) → (⟨S2048x4096, .f32⟩ : BufTy).Contents (Elt F)),
    unary main_cst main_v96 ((extractStridedSlice S1 ![7] · slices_S8_S1_7) : (⟨S8, .f32⟩ : BufTy).Contents (Elt F) → (⟨S1, .f32⟩ : BufTy).Contents (Elt F)),
    reshape main_v96 main_v97 rfl shapeCasts_S1_S_,
    unary main_v2 main_call14_v0 ((extractStridedSlice S2048x16 ![0, 4080] · slices_S2048x4096_S2048x16_0_4080) : (⟨S2048x4096, .f32⟩ : BufTy).Contents (Elt F) → (⟨S2048x16, .f32⟩ : BufTy).Contents (Elt F)),
    unary main_v2 main_call14_v1 ((extractStridedSlice S2048x4080 ![0, 0] · slices_S2048x4096_S2048x4080_0_0) : (⟨S2048x4096, .f32⟩ : BufTy).Contents (Elt F) → (⟨S2048x4080, .f32⟩ : BufTy).Contents (Elt F)),
    binary main_call14_v0 main_call14_v1 main_v98 ((Cert.Iswt.cat2 16 4080 concatenates_S2048x16_S2048x4080_S2048x4096_d1) : (⟨S2048x16, .f32⟩ : BufTy).Contents (Elt F) → (⟨S2048x4080, .f32⟩ : BufTy).Contents (Elt F) → (⟨S2048x4096, .f32⟩ : BufTy).Contents (Elt F)),
    unary main_v97 main_v99 (broadcastInDim S2048x4096 ![] bcast_S_S2048x4096 : (⟨S_, .f32⟩ : BufTy).Contents (Elt F) → (⟨S2048x4096, .f32⟩ : BufTy).Contents (Elt F)),
    binary main_v99 main_v98 main_v100 (mulf : (⟨S2048x4096, .f32⟩ : BufTy).Contents (Elt F) → (⟨S2048x4096, .f32⟩ : BufTy).Contents (Elt F) → (⟨S2048x4096, .f32⟩ : BufTy).Contents (Elt F)),
    binary main_v95 main_v100 main_v101 (addf : (⟨S2048x4096, .f32⟩ : BufTy).Contents (Elt F) → (⟨S2048x4096, .f32⟩ : BufTy).Contents (Elt F) → (⟨S2048x4096, .f32⟩ : BufTy).Contents (Elt F)),
    unary main_v10 main_v102 ((extractStridedSlice S1 ![7] · slices_S8_S1_7) : (⟨S8, .f32⟩ : BufTy).Contents (Elt F) → (⟨S1, .f32⟩ : BufTy).Contents (Elt F)),
    reshape main_v102 main_v103 rfl shapeCasts_S1_S_,
    unary main_v4 main_call15_v0 ((extractStridedSlice S2048x16 ![0, 4080] · slices_S2048x4096_S2048x16_0_4080) : (⟨S2048x4096, .f32⟩ : BufTy).Contents (Elt F) → (⟨S2048x16, .f32⟩ : BufTy).Contents (Elt F)),
    unary main_v4 main_call15_v1 ((extractStridedSlice S2048x4080 ![0, 0] · slices_S2048x4096_S2048x4080_0_0) : (⟨S2048x4096, .f32⟩ : BufTy).Contents (Elt F) → (⟨S2048x4080, .f32⟩ : BufTy).Contents (Elt F)),
    binary main_call15_v0 main_call15_v1 main_v104 ((Cert.Iswt.cat2 16 4080 concatenates_S2048x16_S2048x4080_S2048x4096_d1) : (⟨S2048x16, .f32⟩ : BufTy).Contents (Elt F) → (⟨S2048x4080, .f32⟩ : BufTy).Contents (Elt F) → (⟨S2048x4096, .f32⟩ : BufTy).Contents (Elt F)),
    unary main_v103 main_v105 (broadcastInDim S2048x4096 ![] bcast_S_S2048x4096 : (⟨S_, .f32⟩ : BufTy).Contents (Elt F) → (⟨S2048x4096, .f32⟩ : BufTy).Contents (Elt F)),
    binary main_v105 main_v104 main_v106 (mulf : (⟨S2048x4096, .f32⟩ : BufTy).Contents (Elt F) → (⟨S2048x4096, .f32⟩ : BufTy).Contents (Elt F) → (⟨S2048x4096, .f32⟩ : BufTy).Contents (Elt F)),
    binary main_v101 main_v106 main_v107 (addf : (⟨S2048x4096, .f32⟩ : BufTy).Contents (Elt F) → (⟨S2048x4096, .f32⟩ : BufTy).Contents (Elt F) → (⟨S2048x4096, .f32⟩ : BufTy).Contents (Elt F)),
    nullary main_cst_2 (constant S_ .f32 0x3F000000#32),
    unary main_cst_2 main_v108 (broadcastInDim S2048x4096 ![] bcast_S_S2048x4096 : (⟨S_, .f32⟩ : BufTy).Contents (Elt F) → (⟨S2048x4096, .f32⟩ : BufTy).Contents (Elt F)),
    binary main_v108 main_v107 main_v109 (mulf : (⟨S2048x4096, .f32⟩ : BufTy).Contents (Elt F) → (⟨S2048x4096, .f32⟩ : BufTy).Contents (Elt F) → (⟨S2048x4096, .f32⟩ : BufTy).Contents (Elt F)),
    nullary main_cst_3 (constant S_ .f32 0x00000000#32),
    unary main_cst_3 main_v110 (broadcastInDim S2048x4096 ![] bcast_S_S2048x4096 : (⟨S_, .f32⟩ : BufTy).Contents (Elt F) → (⟨S2048x4096, .f32⟩ : BufTy).Contents (Elt F)),
    unary main_cst main_v111 ((extractStridedSlice S1 ![0] · slices_S8_S1_0) : (⟨S8, .f32⟩ : BufTy).Contents (Elt F) → (⟨S1, .f32⟩ : BufTy).Contents (Elt F)),
    reshape main_v111 main_v112 rfl shapeCasts_S1_S_,
    unary main_v109 main_call16_v0 ((extractStridedSlice S2048x4090 ![0, 6] · slices_S2048x4096_S2048x4090_0_6) : (⟨S2048x4096, .f32⟩ : BufTy).Contents (Elt F) → (⟨S2048x4090, .f32⟩ : BufTy).Contents (Elt F)),
    unary main_v109 main_call16_v1 ((extractStridedSlice S2048x6 ![0, 0] · slices_S2048x4096_S2048x6_0_0) : (⟨S2048x4096, .f32⟩ : BufTy).Contents (Elt F) → (⟨S2048x6, .f32⟩ : BufTy).Contents (Elt F)),
    binary main_call16_v0 main_call16_v1 main_v113 ((Cert.Iswt.cat2 4090 6 concatenates_S2048x4090_S2048x6_S2048x4096_d1) : (⟨S2048x4090, .f32⟩ : BufTy).Contents (Elt F) → (⟨S2048x6, .f32⟩ : BufTy).Contents (Elt F) → (⟨S2048x4096, .f32⟩ : BufTy).Contents (Elt F)),
    unary main_v112 main_v114 (broadcastInDim S2048x4096 ![] bcast_S_S2048x4096 : (⟨S_, .f32⟩ : BufTy).Contents (Elt F) → (⟨S2048x4096, .f32⟩ : BufTy).Contents (Elt F))
  ]

/-- @main's operations 155 … 234 of 413: the printed window main_part2. -/
abbrev opsW2 : List (HloOp τ sig (Elt F)) :=
  [
    binary main_v114 main_v113 main_v115 (mulf : (⟨S2048x4096, .f32⟩ : BufTy).Contents (Elt F) → (⟨S2048x4096, .f32⟩ : BufTy).Contents (Elt F) → (⟨S2048x4096, .f32⟩ : BufTy).Contents (Elt F)),
    binary main_v110 main_v115 main_v116 (addf : (⟨S2048x4096, .f32⟩ : BufTy).Contents (Elt F) → (⟨S2048x4096, .f32⟩ : BufTy).Contents (Elt F) → (⟨S2048x4096, .f32⟩ : BufTy).Contents (Elt F)),
    unary main_v10 main_v117 ((extractStridedSlice S1 ![0] · slices_S8_S1_0) : (⟨S8, .f32⟩ : BufTy).Contents (Elt F) → (⟨S1, .f32⟩ : BufTy).Contents (Elt F)),
    reshape main_v117 main_v118 rfl shapeCasts_S1_S_,
    unary main_v6 main_call17_v0 ((extractStridedSlice S2048x4090 ![0, 6] · slices_S2048x4096_S2048x4090_0_6) : (⟨S2048x4096, .f32⟩ : BufTy).Contents (Elt F) → (⟨S2048x4090, .f32⟩ : BufTy).Contents (Elt F)),
    unary main_v6 main_call17_v1 ((extractStridedSlice S2048x6 ![0, 0] · slices_S2048x4096_S2048x6_0_0) : (⟨S2048x4096, .f32⟩ : BufTy).Contents (Elt F) → (⟨S2048x6, .f32⟩ : BufTy).Contents (Elt F)),
    binary main_call17_v0 main_call17_v1 main_v119 ((Cert.Iswt.cat2 4090 6 concatenates_S2048x4090_S2048x6_S2048x4096_d1) : (⟨S2048x4090, .f32⟩ : BufTy).Contents (Elt F) → (⟨S2048x6, .f32⟩ : BufTy).Contents (Elt F) → (⟨S2048x4096, .f32⟩ : BufTy).Contents (Elt F)),
    unary main_v118 main_v120 (broadcastInDim S2048x4096 ![] bcast_S_S2048x4096 : (⟨S_, .f32⟩ : BufTy).Contents (Elt F) → (⟨S2048x4096, .f32⟩ : BufTy).Contents (Elt F)),
    binary main_v120 main_v119 main_v121 (mulf : (⟨S2048x4096, .f32⟩ : BufTy).Contents (Elt F) → (⟨S2048x4096, .f32⟩ : BufTy).Contents (Elt F) → (⟨S2048x4096, .f32⟩ : BufTy).Contents (Elt F)),
    binary main_v116 main_v121 main_v122 (addf : (⟨S2048x4096, .f32⟩ : BufTy).Contents (Elt F) → (⟨S2048x4096, .f32⟩ : BufTy).Contents (Elt F) → (⟨S2048x4096, .f32⟩ : BufTy).Contents (Elt F)),
    unary main_cst main_v123 ((extractStridedSlice S1 ![1] · slices_S8_S1_1) : (⟨S8, .f32⟩ : BufTy).Contents (Elt F) → (⟨S1, .f32⟩ : BufTy).Contents (Elt F)),
    reshape main_v123 main_v124 rfl shapeCasts_S1_S_,
    unary main_v109 main_call18_v0 ((extractStridedSlice S2048x4092 ![0, 4] · slices_S2048x4096_S2048x4092_0_4) : (⟨S2048x4096, .f32⟩ : BufTy).Contents (Elt F) → (⟨S2048x4092, .f32⟩ : BufTy).Contents (Elt F)),
    unary main_v109 main_call18_v1 ((extractStridedSlice S2048x4 ![0, 0] · slices_S2048x4096_S2048x4_0_0) : (⟨S2048x4096, .f32⟩ : BufTy).Contents (Elt F) → (⟨S2048x4, .f32⟩ : BufTy).Contents (Elt F)),
    binary main_call18_v0 main_call18_v1 main_v125 ((Cert.Iswt.cat2 4092 4 concatenates_S2048x4092_S2048x4_S2048x4096_d1) : (⟨S2048x4092, .f32⟩ : BufTy).Contents (Elt F) → (⟨S2048x4, .f32⟩ : BufTy).Contents (Elt F) → (⟨S2048x4096, .f32⟩ : BufTy).Contents (Elt F)),
    unary main_v124 main_v126 (broadcastInDim S2048x4096 ![] bcast_S_S2048x4096 : (⟨S_, .f32⟩ : BufTy).Contents (Elt F) → (⟨S2048x4096, .f32⟩ : BufTy).Contents (Elt F)),
    binary main_v126 main_v125 main_v127 (mulf : (⟨S2048x4096, .f32⟩ : BufTy).Contents (Elt F) → (⟨S2048x4096, .f32⟩ : BufTy).Contents (Elt F) → (⟨S2048x4096, .f32⟩ : BufTy).Contents (Elt F)),
    binary main_v122 main_v127 main_v128 (addf : (⟨S2048x4096, .f32⟩ : BufTy).Contents (Elt F) → (⟨S2048x4096, .f32⟩ : BufTy).Contents (Elt F) → (⟨S2048x4096, .f32⟩ : BufTy).Contents (Elt F)),
    unary main_v10 main_v129 ((extractStridedSlice S1 ![1] · slices_S8_S1_1) : (⟨S8, .f32⟩ : BufTy).Contents (Elt F) → (⟨S1, .f32⟩ : BufTy).Contents (Elt F)),
    reshape main_v129 main_v130 rfl shapeCasts_S1_S_,
    unary main_v6 main_call19_v0 ((extractStridedSlice S2048x4092 ![0, 4] · slices_S2048x4096_S2048x4092_0_4) : (⟨S2048x4096, .f32⟩ : BufTy).Contents (Elt F) → (⟨S2048x4092, .f32⟩ : BufTy).Contents (Elt F)),
    unary main_v6 main_call19_v1 ((extractStridedSlice S2048x4 ![0, 0] · slices_S2048x4096_S2048x4_0_0) : (⟨S2048x4096, .f32⟩ : BufTy).Contents (Elt F) → (⟨S2048x4, .f32⟩ : BufTy).Contents (Elt F)),
    binary main_call19_v0 main_call19_v1 main_v131 ((Cert.Iswt.cat2 4092 4 concatenates_S2048x4092_S2048x4_S2048x4096_d1) : (⟨S2048x4092, .f32⟩ : BufTy).Contents (Elt F) → (⟨S2048x4, .f32⟩ : BufTy).Contents (Elt F) → (⟨S2048x4096, .f32⟩ : BufTy).Contents (Elt F)),
    unary main_v130 main_v132 (broadcastInDim S2048x4096 ![] bcast_S_S2048x4096 : (⟨S_, .f32⟩ : BufTy).Contents (Elt F) → (⟨S2048x4096, .f32⟩ : BufTy).Contents (Elt F)),
    binary main_v132 main_v131 main_v133 (mulf : (⟨S2048x4096, .f32⟩ : BufTy).Contents (Elt F) → (⟨S2048x4096, .f32⟩ : BufTy).Contents (Elt F) → (⟨S2048x4096, .f32⟩ : BufTy).Contents (Elt F)),
    binary main_v128 main_v133 main_v134 (addf : (⟨S2048x4096, .f32⟩ : BufTy).Contents (Elt F) → (⟨S2048x4096, .f32⟩ : BufTy).Contents (Elt F) → (⟨S2048x4096, .f32⟩ : BufTy).Contents (Elt F)),
    unary main_cst main_v135 ((extractStridedSlice S1 ![2] · slices_S8_S1_2) : (⟨S8, .f32⟩ : BufTy).Contents (Elt F) → (⟨S1, .f32⟩ : BufTy).Contents (Elt F)),
    reshape main_v135 main_v136 rfl shapeCasts_S1_S_,
    unary main_v109 main_call20_v0 ((extractStridedSlice S2048x4094 ![0, 2] · slices_S2048x4096_S2048x4094_0_2) : (⟨S2048x4096, .f32⟩ : BufTy).Contents (Elt F) → (⟨S2048x4094, .f32⟩ : BufTy).Contents (Elt F)),
    unary main_v109 main_call20_v1 ((extractStridedSlice S2048x2 ![0, 0] · slices_S2048x4096_S2048x2_0_0) : (⟨S2048x4096, .f32⟩ : BufTy).Contents (Elt F) → (⟨S2048x2, .f32⟩ : BufTy).Contents (Elt F)),
    binary main_call20_v0 main_call20_v1 main_v137 ((Cert.Iswt.cat2 4094 2 concatenates_S2048x4094_S2048x2_S2048x4096_d1) : (⟨S2048x4094, .f32⟩ : BufTy).Contents (Elt F) → (⟨S2048x2, .f32⟩ : BufTy).Contents (Elt F) → (⟨S2048x4096, .f32⟩ : BufTy).Contents (Elt F)),
    unary main_v136 main_v138 (broadcastInDim S2048x4096 ![] bcast_S_S2048x4096 : (⟨S_, .f32⟩ : BufTy).Contents (Elt F) → (⟨S2048x4096, .f32⟩ : BufTy).Contents (Elt F)),
    binary main_v138 main_v137 main_v139 (mulf : (⟨S2048x4096, .f32⟩ : BufTy).Contents (Elt F) → (⟨S2048x4096, .f32⟩ : BufTy).Contents (Elt F) → (⟨S2048x4096, .f32⟩ : BufTy).Contents (Elt F)),
    binary main_v134 main_v139 main_v140 (addf : (⟨S2048x4096, .f32⟩ : BufTy).Contents (Elt F) → (⟨S2048x4096, .f32⟩ : BufTy).Contents (Elt F) → (⟨S2048x4096, .f32⟩ : BufTy).Contents (Elt F)),
    unary main_v10 main_v141 ((extractStridedSlice S1 ![2] · slices_S8_S1_2) : (⟨S8, .f32⟩ : BufTy).Contents (Elt F) → (⟨S1, .f32⟩ : BufTy).Contents (Elt F)),
    reshape main_v141 main_v142 rfl shapeCasts_S1_S_,
    unary main_v6 main_call21_v0 ((extractStridedSlice S2048x4094 ![0, 2] · slices_S2048x4096_S2048x4094_0_2) : (⟨S2048x4096, .f32⟩ : BufTy).Contents (Elt F) → (⟨S2048x4094, .f32⟩ : BufTy).Contents (Elt F)),
    unary main_v6 main_call21_v1 ((extractStridedSlice S2048x2 ![0, 0] · slices_S2048x4096_S2048x2_0_0) : (⟨S2048x4096, .f32⟩ : BufTy).Contents (Elt F) → (⟨S2048x2, .f32⟩ : BufTy).Contents (Elt F)),
    binary main_call21_v0 main_call21_v1 main_v143 ((Cert.Iswt.cat2 4094 2 concatenates_S2048x4094_S2048x2_S2048x4096_d1) : (⟨S2048x4094, .f32⟩ : BufTy).Contents (Elt F) → (⟨S2048x2, .f32⟩ : BufTy).Contents (Elt F) → (⟨S2048x4096, .f32⟩ : BufTy).Contents (Elt F)),
    unary main_v142 main_v144 (broadcastInDim S2048x4096 ![] bcast_S_S2048x4096 : (⟨S_, .f32⟩ : BufTy).Contents (Elt F) → (⟨S2048x4096, .f32⟩ : BufTy).Contents (Elt F)),
    binary main_v144 main_v143 main_v145 (mulf : (⟨S2048x4096, .f32⟩ : BufTy).Contents (Elt F) → (⟨S2048x4096, .f32⟩ : BufTy).Contents (Elt F) → (⟨S2048x4096, .f32⟩ : BufTy).Contents (Elt F)),
    binary main_v140 main_v145 main_v146 (addf : (⟨S2048x4096, .f32⟩ : BufTy).Contents (Elt F) → (⟨S2048x4096, .f32⟩ : BufTy).Contents (Elt F) → (⟨S2048x4096, .f32⟩ : BufTy).Contents (Elt F)),
    unary main_cst main_v147 ((extractStridedSlice S1 ![3] · slices_S8_S1_3) : (⟨S8, .f32⟩ : BufTy).Contents (Elt F) → (⟨S1, .f32⟩ : BufTy).Contents (Elt F)),
    reshape main_v147 main_v148 rfl shapeCasts_S1_S_,
    unary main_v109 main_call22_v0 ((extractStridedSlice S2048x4096 ![0, 0] · slices_S2048x4096_S2048x4096_0_0) : (⟨S2048x4096, .f32⟩ : BufTy).Contents (Elt F) → (⟨S2048x4096, .f32⟩ : BufTy).Contents (Elt F)),
    unary main_v109 main_call22_v1 ((extractStridedSlice S2048x0 ![0, 0] · slices_S2048x4096_S2048x0_0_0) : (⟨S2048x4096, .f32⟩ : BufTy).Contents (Elt F) → (⟨S2048x0, .f32⟩ : BufTy).Contents (Elt F)),
    binary main_call22_v0 main_call22_v1 main_v149 ((Cert.Iswt.cat2 4096 0 concatenates_S2048x4096_S2048x0_S2048x4096_d1) : (⟨S2048x4096, .f32⟩ : BufTy).Contents (Elt F) → (⟨S2048x0, .f32⟩ : BufTy).Contents (Elt F) → (⟨S2048x4096, .f32⟩ : BufTy).Contents (Elt F)),
    unary main_v148 main_v150 (broadcastInDim S2048x4096 ![] bcast_S_S2048x4096 : (⟨S_, .f32⟩ : BufTy).Contents (Elt F) → (⟨S2048x4096, .f32⟩ : BufTy).Contents (Elt F)),
    binary main_v150 main_v149 main_v151 (mulf : (⟨S2048x4096, .f32⟩ : BufTy).Contents (Elt F) → (⟨S2048x4096, .f32⟩ : BufTy).Contents (Elt F) → (⟨S2048x4096, .f32⟩ : BufTy).Contents (Elt F)),
    binary main_v146 main_v151 main_v152 (addf : (⟨S2048x4096, .f32⟩ : BufTy).Contents (Elt F) → (⟨S2048x4096, .f32⟩ : BufTy).Contents (Elt F) → (⟨S2048x4096, .f32⟩ : BufTy).Contents (Elt F)),
    unary main_v10 main_v153 ((extractStridedSlice S1 ![3] · slices_S8_S1_3) : (⟨S8, .f32⟩ : BufTy).Contents (Elt F) → (⟨S1, .f32⟩ : BufTy).Contents (Elt F)),
    reshape main_v153 main_v154 rfl shapeCasts_S1_S_,
    unary main_v6 main_call23_v0 ((extractStridedSlice S2048x4096 ![0, 0] · slices_S2048x4096_S2048x4096_0_0) : (⟨S2048x4096, .f32⟩ : BufTy).Contents (Elt F) → (⟨S2048x4096, .f32⟩ : BufTy).Contents (Elt F)),
    unary main_v6 main_call23_v1 ((extractStridedSlice S2048x0 ![0, 0] · slices_S2048x4096_S2048x0_0_0) : (⟨S2048x4096, .f32⟩ : BufTy).Contents (Elt F) → (⟨S2048x0, .f32⟩ : BufTy).Contents (Elt F)),
    binary main_call23_v0 main_call23_v1 main_v155 ((Cert.Iswt.cat2 4096 0 concatenates_S2048x4096_S2048x0_S2048x4096_d1) : (⟨S2048x4096, .f32⟩ : BufTy).Contents (Elt F) → (⟨S2048x0, .f32⟩ : BufTy).Contents (Elt F) → (⟨S2048x4096, .f32⟩ : BufTy).Contents (Elt F)),
    unary main_v154 main_v156 (broadcastInDim S2048x4096 ![] bcast_S_S2048x4096 : (⟨S_, .f32⟩ : BufTy).Contents (Elt F) → (⟨S2048x4096, .f32⟩ : BufTy).Contents (Elt F)),
    binary main_v156 main_v155 main_v157 (mulf : (⟨S2048x4096, .f32⟩ : BufTy).Contents (Elt F) → (⟨S2048x4096, .f32⟩ : BufTy).Contents (Elt F) → (⟨S2048x4096, .f32⟩ : BufTy).Contents (Elt F)),
    binary main_v152 main_v157 main_v158 (addf : (⟨S2048x4096, .f32⟩ : BufTy).Contents (Elt F) → (⟨S2048x4096, .f32⟩ : BufTy).Contents (Elt F) → (⟨S2048x4096, .f32⟩ : BufTy).Contents (Elt F)),
    unary main_cst main_v159 ((extractStridedSlice S1 ![4] · slices_S8_S1_4) : (⟨S8, .f32⟩ : BufTy).Contents (Elt F) → (⟨S1, .f32⟩ : BufTy).Contents (Elt F)),
    reshape main_v159 main_v160 rfl shapeCasts_S1_S_,
    unary main_v109 main_call24_v0 ((extractStridedSlice S2048x2 ![0, 4094] · slices_S2048x4096_S2048x2_0_4094) : (⟨S2048x4096, .f32⟩ : BufTy).Contents (Elt F) → (⟨S2048x2, .f32⟩ : BufTy).Contents (Elt F)),
    unary main_v109 main_call24_v1 ((extractStridedSlice S2048x4094 ![0, 0] · slices_S2048x4096_S2048x4094_0_0) : (⟨S2048x4096, .f32⟩ : BufTy).Contents (Elt F) → (⟨S2048x4094, .f32⟩ : BufTy).Contents (Elt F)),
    binary main_call24_v0 main_call24_v1 main_v161 ((Cert.Iswt.cat2 2 4094 concatenates_S2048x2_S2048x4094_S2048x4096_d1) : (⟨S2048x2, .f32⟩ : BufTy).Contents (Elt F) → (⟨S2048x4094, .f32⟩ : BufTy).Contents (Elt F) → (⟨S2048x4096, .f32⟩ : BufTy).Contents (Elt F)),
    unary main_v160 main_v162 (broadcastInDim S2048x4096 ![] bcast_S_S2048x4096 : (⟨S_, .f32⟩ : BufTy).Contents (Elt F) → (⟨S2048x4096, .f32⟩ : BufTy).Contents (Elt F)),
    binary main_v162 main_v161 main_v163 (mulf : (⟨S2048x4096, .f32⟩ : BufTy).Contents (Elt F) → (⟨S2048x4096, .f32⟩ : BufTy).Contents (Elt F) → (⟨S2048x4096, .f32⟩ : BufTy).Contents (Elt F)),
    binary main_v158 main_v163 main_v164 (addf : (⟨S2048x4096, .f32⟩ : BufTy).Contents (Elt F) → (⟨S2048x4096, .f32⟩ : BufTy).Contents (Elt F) → (⟨S2048x4096, .f32⟩ : BufTy).Contents (Elt F)),
    unary main_v10 main_v165 ((extractStridedSlice S1 ![4] · slices_S8_S1_4) : (⟨S8, .f32⟩ : BufTy).Contents (Elt F) → (⟨S1, .f32⟩ : BufTy).Contents (Elt F)),
    reshape main_v165 main_v166 rfl shapeCasts_S1_S_,
    unary main_v6 main_call25_v0 ((extractStridedSlice S2048x2 ![0, 4094] · slices_S2048x4096_S2048x2_0_4094) : (⟨S2048x4096, .f32⟩ : BufTy).Contents (Elt F) → (⟨S2048x2, .f32⟩ : BufTy).Contents (Elt F)),
    unary main_v6 main_call25_v1 ((extractStridedSlice S2048x4094 ![0, 0] · slices_S2048x4096_S2048x4094_0_0) : (⟨S2048x4096, .f32⟩ : BufTy).Contents (Elt F) → (⟨S2048x4094, .f32⟩ : BufTy).Contents (Elt F)),
    binary main_call25_v0 main_call25_v1 main_v167 ((Cert.Iswt.cat2 2 4094 concatenates_S2048x2_S2048x4094_S2048x4096_d1) : (⟨S2048x2, .f32⟩ : BufTy).Contents (Elt F) → (⟨S2048x4094, .f32⟩ : BufTy).Contents (Elt F) → (⟨S2048x4096, .f32⟩ : BufTy).Contents (Elt F)),
    unary main_v166 main_v168 (broadcastInDim S2048x4096 ![] bcast_S_S2048x4096 : (⟨S_, .f32⟩ : BufTy).Contents (Elt F) → (⟨S2048x4096, .f32⟩ : BufTy).Contents (Elt F)),
    binary main_v168 main_v167 main_v169 (mulf : (⟨S2048x4096, .f32⟩ : BufTy).Contents (Elt F) → (⟨S2048x4096, .f32⟩ : BufTy).Contents (Elt F) → (⟨S2048x4096, .f32⟩ : BufTy).Contents (Elt F)),
    binary main_v164 main_v169 main_v170 (addf : (⟨S2048x4096, .f32⟩ : BufTy).Contents (Elt F) → (⟨S2048x4096, .f32⟩ : BufTy).Contents (Elt F) → (⟨S2048x4096, .f32⟩ : BufTy).Contents (Elt F)),
    unary main_cst main_v171 ((extractStridedSlice S1 ![5] · slices_S8_S1_5) : (⟨S8, .f32⟩ : BufTy).Contents (Elt F) → (⟨S1, .f32⟩ : BufTy).Contents (Elt F)),
    reshape main_v171 main_v172 rfl shapeCasts_S1_S_,
    unary main_v109 main_call26_v0 ((extractStridedSlice S2048x4 ![0, 4092] · slices_S2048x4096_S2048x4_0_4092) : (⟨S2048x4096, .f32⟩ : BufTy).Contents (Elt F) → (⟨S2048x4, .f32⟩ : BufTy).Contents (Elt F)),
    unary main_v109 main_call26_v1 ((extractStridedSlice S2048x4092 ![0, 0] · slices_S2048x4096_S2048x4092_0_0) : (⟨S2048x4096, .f32⟩ : BufTy).Contents (Elt F) → (⟨S2048x4092, .f32⟩ : BufTy).Contents (Elt F)),
    binary main_call26_v0 main_call26_v1 main_v173 ((Cert.Iswt.cat2 4 4092 concatenates_S2048x4_S2048x4092_S2048x4096_d1) : (⟨S2048x4, .f32⟩ : BufTy).Contents (Elt F) → (⟨S2048x4092, .f32⟩ : BufTy).Contents (Elt F) → (⟨S2048x4096, .f32⟩ : BufTy).Contents (Elt F)),
    unary main_v172 main_v174 (broadcastInDim S2048x4096 ![] bcast_S_S2048x4096 : (⟨S_, .f32⟩ : BufTy).Contents (Elt F) → (⟨S2048x4096, .f32⟩ : BufTy).Contents (Elt F))
  ]

/-- @main's operations 235 … 312 of 413: the printed window main_part3. -/
abbrev opsW3 : List (HloOp τ sig (Elt F)) :=
  [
    binary main_v174 main_v173 main_v175 (mulf : (⟨S2048x4096, .f32⟩ : BufTy).Contents (Elt F) → (⟨S2048x4096, .f32⟩ : BufTy).Contents (Elt F) → (⟨S2048x4096, .f32⟩ : BufTy).Contents (Elt F)),
    binary main_v170 main_v175 main_v176 (addf : (⟨S2048x4096, .f32⟩ : BufTy).Contents (Elt F) → (⟨S2048x4096, .f32⟩ : BufTy).Contents (Elt F) → (⟨S2048x4096, .f32⟩ : BufTy).Contents (Elt F)),
    unary main_v10 main_v177 ((extractStridedSlice S1 ![5] · slices_S8_S1_5) : (⟨S8, .f32⟩ : BufTy).Contents (Elt F) → (⟨S1, .f32⟩ : BufTy).Contents (Elt F)),
    reshape main_v177 main_v178 rfl shapeCasts_S1_S_,
    unary main_v6 main_call27_v0 ((extractStridedSlice S2048x4 ![0, 4092] · slices_S2048x4096_S2048x4_0_4092) : (⟨S2048x4096, .f32⟩ : BufTy).Contents (Elt F) → (⟨S2048x4, .f32⟩ : BufTy).Contents (Elt F)),
    unary main_v6 main_call27_v1 ((extractStridedSlice S2048x4092 ![0, 0] · slices_S2048x4096_S2048x4092_0_0) : (⟨S2048x4096, .f32⟩ : BufTy).Contents (Elt F) → (⟨S2048x4092, .f32⟩ : BufTy).Contents (Elt F)),
    binary main_call27_v0 main_call27_v1 main_v179 ((Cert.Iswt.cat2 4 4092 concatenates_S2048x4_S2048x4092_S2048x4096_d1) : (⟨S2048x4, .f32⟩ : BufTy).Contents (Elt F) → (⟨S2048x4092, .f32⟩ : BufTy).Contents (Elt F) → (⟨S2048x4096, .f32⟩ : BufTy).Contents (Elt F)),
    unary main_v178 main_v180 (broadcastInDim S2048x4096 ![] bcast_S_S2048x4096 : (⟨S_, .f32⟩ : BufTy).Contents (Elt F) → (⟨S2048x4096, .f32⟩ : BufTy).Contents (Elt F)),
    binary main_v180 main_v179 main_v181 (mulf : (⟨S2048x4096, .f32⟩ : BufTy).Contents (Elt F) → (⟨S2048x4096, .f32⟩ : BufTy).Contents (Elt F) → (⟨S2048x4096, .f32⟩ : BufTy).Contents (Elt F)),
    binary main_v176 main_v181 main_v182 (addf : (⟨S2048x4096, .f32⟩ : BufTy).Contents (Elt F) → (⟨S2048x4096, .f32⟩ : BufTy).Contents (Elt F) → (⟨S2048x4096, .f32⟩ : BufTy).Contents (Elt F)),
    unary main_cst main_v183 ((extractStridedSlice S1 ![6] · slices_S8_S1_6) : (⟨S8, .f32⟩ : BufTy).Contents (Elt F) → (⟨S1, .f32⟩ : BufTy).Contents (Elt F)),
    reshape main_v183 main_v184 rfl shapeCasts_S1_S_,
    unary main_v109 main_call28_v0 ((extractStridedSlice S2048x6 ![0, 4090] · slices_S2048x4096_S2048x6_0_4090) : (⟨S2048x4096, .f32⟩ : BufTy).Contents (Elt F) → (⟨S2048x6, .f32⟩ : BufTy).Contents (Elt F)),
    unary main_v109 main_call28_v1 ((extractStridedSlice S2048x4090 ![0, 0] · slices_S2048x4096_S2048x4090_0_0) : (⟨S2048x4096, .f32⟩ : BufTy).Contents (Elt F) → (⟨S2048x4090, .f32⟩ : BufTy).Contents (Elt F)),
    binary main_call28_v0 main_call28_v1 main_v185 ((Cert.Iswt.cat2 6 4090 concatenates_S2048x6_S2048x4090_S2048x4096_d1) : (⟨S2048x6, .f32⟩ : BufTy).Contents (Elt F) → (⟨S2048x4090, .f32⟩ : BufTy).Contents (Elt F) → (⟨S2048x4096, .f32⟩ : BufTy).Contents (Elt F)),
    unary main_v184 main_v186 (broadcastInDim S2048x4096 ![] bcast_S_S2048x4096 : (⟨S_, .f32⟩ : BufTy).Contents (Elt F) → (⟨S2048x4096, .f32⟩ : BufTy).Contents (Elt F)),
    binary main_v186 main_v185 main_v187 (mulf : (⟨S2048x4096, .f32⟩ : BufTy).Contents (Elt F) → (⟨S2048x4096, .f32⟩ : BufTy).Contents (Elt F) → (⟨S2048x4096, .f32⟩ : BufTy).Contents (Elt F)),
    binary main_v182 main_v187 main_v188 (addf : (⟨S2048x4096, .f32⟩ : BufTy).Contents (Elt F) → (⟨S2048x4096, .f32⟩ : BufTy).Contents (Elt F) → (⟨S2048x4096, .f32⟩ : BufTy).Contents (Elt F)),
    unary main_v10 main_v189 ((extractStridedSlice S1 ![6] · slices_S8_S1_6) : (⟨S8, .f32⟩ : BufTy).Contents (Elt F) → (⟨S1, .f32⟩ : BufTy).Contents (Elt F)),
    reshape main_v189 main_v190 rfl shapeCasts_S1_S_,
    unary main_v6 main_call29_v0 ((extractStridedSlice S2048x6 ![0, 4090] · slices_S2048x4096_S2048x6_0_4090) : (⟨S2048x4096, .f32⟩ : BufTy).Contents (Elt F) → (⟨S2048x6, .f32⟩ : BufTy).Contents (Elt F)),
    unary main_v6 main_call29_v1 ((extractStridedSlice S2048x4090 ![0, 0] · slices_S2048x4096_S2048x4090_0_0) : (⟨S2048x4096, .f32⟩ : BufTy).Contents (Elt F) → (⟨S2048x4090, .f32⟩ : BufTy).Contents (Elt F)),
    binary main_call29_v0 main_call29_v1 main_v191 ((Cert.Iswt.cat2 6 4090 concatenates_S2048x6_S2048x4090_S2048x4096_d1) : (⟨S2048x6, .f32⟩ : BufTy).Contents (Elt F) → (⟨S2048x4090, .f32⟩ : BufTy).Contents (Elt F) → (⟨S2048x4096, .f32⟩ : BufTy).Contents (Elt F)),
    unary main_v190 main_v192 (broadcastInDim S2048x4096 ![] bcast_S_S2048x4096 : (⟨S_, .f32⟩ : BufTy).Contents (Elt F) → (⟨S2048x4096, .f32⟩ : BufTy).Contents (Elt F)),
    binary main_v192 main_v191 main_v193 (mulf : (⟨S2048x4096, .f32⟩ : BufTy).Contents (Elt F) → (⟨S2048x4096, .f32⟩ : BufTy).Contents (Elt F) → (⟨S2048x4096, .f32⟩ : BufTy).Contents (Elt F)),
    binary main_v188 main_v193 main_v194 (addf : (⟨S2048x4096, .f32⟩ : BufTy).Contents (Elt F) → (⟨S2048x4096, .f32⟩ : BufTy).Contents (Elt F) → (⟨S2048x4096, .f32⟩ : BufTy).Contents (Elt F)),
    unary main_cst main_v195 ((extractStridedSlice S1 ![7] · slices_S8_S1_7) : (⟨S8, .f32⟩ : BufTy).Contents (Elt F) → (⟨S1, .f32⟩ : BufTy).Contents (Elt F)),
    reshape main_v195 main_v196 rfl shapeCasts_S1_S_,
    unary main_v109 main_call30_v0 ((extractStridedSlice S2048x8 ![0, 4088] · slices_S2048x4096_S2048x8_0_4088) : (⟨S2048x4096, .f32⟩ : BufTy).Contents (Elt F) → (⟨S2048x8, .f32⟩ : BufTy).Contents (Elt F)),
    unary main_v109 main_call30_v1 ((extractStridedSlice S2048x4088 ![0, 0] · slices_S2048x4096_S2048x4088_0_0) : (⟨S2048x4096, .f32⟩ : BufTy).Contents (Elt F) → (⟨S2048x4088, .f32⟩ : BufTy).Contents (Elt F)),
    binary main_call30_v0 main_call30_v1 main_v197 ((Cert.Iswt.cat2 8 4088 concatenates_S2048x8_S2048x4088_S2048x4096_d1) : (⟨S2048x8, .f32⟩ : BufTy).Contents (Elt F) → (⟨S2048x4088, .f32⟩ : BufTy).Contents (Elt F) → (⟨S2048x4096, .f32⟩ : BufTy).Contents (Elt F)),
    unary main_v196 main_v198 (broadcastInDim S2048x4096 ![] bcast_S_S2048x4096 : (⟨S_, .f32⟩ : BufTy).Contents (Elt F) → (⟨S2048x4096, .f32⟩ : BufTy).Contents (Elt F)),
    binary main_v198 main_v197 main_v199 (mulf : (⟨S2048x4096, .f32⟩ : BufTy).Contents (Elt F) → (⟨S2048x4096, .f32⟩ : BufTy).Contents (Elt F) → (⟨S2048x4096, .f32⟩ : BufTy).Contents (Elt F)),
    binary main_v194 main_v199 main_v200 (addf : (⟨S2048x4096, .f32⟩ : BufTy).Contents (Elt F) → (⟨S2048x4096, .f32⟩ : BufTy).Contents (Elt F) → (⟨S2048x4096, .f32⟩ : BufTy).Contents (Elt F)),
    unary main_v10 main_v201 ((extractStridedSlice S1 ![7] · slices_S8_S1_7) : (⟨S8, .f32⟩ : BufTy).Contents (Elt F) → (⟨S1, .f32⟩ : BufTy).Contents (Elt F)),
    reshape main_v201 main_v202 rfl shapeCasts_S1_S_,
    unary main_v6 main_call31_v0 ((extractStridedSlice S2048x8 ![0, 4088] · slices_S2048x4096_S2048x8_0_4088) : (⟨S2048x4096, .f32⟩ : BufTy).Contents (Elt F) → (⟨S2048x8, .f32⟩ : BufTy).Contents (Elt F)),
    unary main_v6 main_call31_v1 ((extractStridedSlice S2048x4088 ![0, 0] · slices_S2048x4096_S2048x4088_0_0) : (⟨S2048x4096, .f32⟩ : BufTy).Contents (Elt F) → (⟨S2048x4088, .f32⟩ : BufTy).Contents (Elt F)),
    binary main_call31_v0 main_call31_v1 main_v203 ((Cert.Iswt.cat2 8 4088 concatenates_S2048x8_S2048x4088_S2048x4096_d1) : (⟨S2048x8, .f32⟩ : BufTy).Contents (Elt F) → (⟨S2048x4088, .f32⟩ : BufTy).Contents (Elt F) → (⟨S2048x4096, .f32⟩ : BufTy).Contents (Elt F)),
    unary main_v202 main_v204 (broadcastInDim S2048x4096 ![] bcast_S_S2048x4096 : (⟨S_, .f32⟩ : BufTy).Contents (Elt F) → (⟨S2048x4096, .f32⟩ : BufTy).Contents (Elt F)),
    binary main_v204 main_v203 main_v205 (mulf : (⟨S2048x4096, .f32⟩ : BufTy).Contents (Elt F) → (⟨S2048x4096, .f32⟩ : BufTy).Contents (Elt F) → (⟨S2048x4096, .f32⟩ : BufTy).Contents (Elt F)),
    binary main_v200 main_v205 main_v206 (addf : (⟨S2048x4096, .f32⟩ : BufTy).Contents (Elt F) → (⟨S2048x4096, .f32⟩ : BufTy).Contents (Elt F) → (⟨S2048x4096, .f32⟩ : BufTy).Contents (Elt F)),
    nullary main_cst_4 (constant S_ .f32 0x3F000000#32),
    unary main_cst_4 main_v207 (broadcastInDim S2048x4096 ![] bcast_S_S2048x4096 : (⟨S_, .f32⟩ : BufTy).Contents (Elt F) → (⟨S2048x4096, .f32⟩ : BufTy).Contents (Elt F)),
    binary main_v207 main_v206 main_v208 (mulf : (⟨S2048x4096, .f32⟩ : BufTy).Contents (Elt F) → (⟨S2048x4096, .f32⟩ : BufTy).Contents (Elt F) → (⟨S2048x4096, .f32⟩ : BufTy).Contents (Elt F)),
    nullary main_cst_5 (constant S_ .f32 0x00000000#32),
    unary main_cst_5 main_v209 (broadcastInDim S2048x4096 ![] bcast_S_S2048x4096 : (⟨S_, .f32⟩ : BufTy).Contents (Elt F) → (⟨S2048x4096, .f32⟩ : BufTy).Contents (Elt F)),
    unary main_cst main_v210 ((extractStridedSlice S1 ![0] · slices_S8_S1_0) : (⟨S8, .f32⟩ : BufTy).Contents (Elt F) → (⟨S1, .f32⟩ : BufTy).Contents (Elt F)),
    reshape main_v210 main_v211 rfl shapeCasts_S1_S_,
    unary main_v208 main_call32_v0 ((extractStridedSlice S2048x4093 ![0, 3] · slices_S2048x4096_S2048x4093_0_3) : (⟨S2048x4096, .f32⟩ : BufTy).Contents (Elt F) → (⟨S2048x4093, .f32⟩ : BufTy).Contents (Elt F)),
    unary main_v208 main_call32_v1 ((extractStridedSlice S2048x3 ![0, 0] · slices_S2048x4096_S2048x3_0_0) : (⟨S2048x4096, .f32⟩ : BufTy).Contents (Elt F) → (⟨S2048x3, .f32⟩ : BufTy).Contents (Elt F)),
    binary main_call32_v0 main_call32_v1 main_v212 ((Cert.Iswt.cat2 4093 3 concatenates_S2048x4093_S2048x3_S2048x4096_d1) : (⟨S2048x4093, .f32⟩ : BufTy).Contents (Elt F) → (⟨S2048x3, .f32⟩ : BufTy).Contents (Elt F) → (⟨S2048x4096, .f32⟩ : BufTy).Contents (Elt F)),
    unary main_v211 main_v213 (broadcastInDim S2048x4096 ![] bcast_S_S2048x4096 : (⟨S_, .f32⟩ : BufTy).Contents (Elt F) → (⟨S2048x4096, .f32⟩ : BufTy).Contents (Elt F)),
    binary main_v213 main_v212 main_v214 (mulf : (⟨S2048x4096, .f32⟩ : BufTy).Contents (Elt F) → (⟨S2048x4096, .f32⟩ : BufTy).Contents (Elt F) → (⟨S2048x4096, .f32⟩ : BufTy).Contents (Elt F)),
    binary main_v209 main_v214 main_v215 (addf : (⟨S2048x4096, .f32⟩ : BufTy).Contents (Elt F) → (⟨S2048x4096, .f32⟩ : BufTy).Contents (Elt F) → (⟨S2048x4096, .f32⟩ : BufTy).Contents (Elt F)),
    unary main_v10 main_v216 ((extractStridedSlice S1 ![0] · slices_S8_S1_0) : (⟨S8, .f32⟩ : BufTy).Contents (Elt F) → (⟨S1, .f32⟩ : BufTy).Contents (Elt F)),
    reshape main_v216 main_v217 rfl shapeCasts_S1_S_,
    unary main_v8 main_call33_v0 ((extractStridedSlice S2048x4093 ![0, 3] · slices_S2048x4096_S2048x4093_0_3) : (⟨S2048x4096, .f32⟩ : BufTy).Contents (Elt F) → (⟨S2048x4093, .f32⟩ : BufTy).Contents (Elt F)),
    unary main_v8 main_call33_v1 ((extractStridedSlice S2048x3 ![0, 0] · slices_S2048x4096_S2048x3_0_0) : (⟨S2048x4096, .f32⟩ : BufTy).Contents (Elt F) → (⟨S2048x3, .f32⟩ : BufTy).Contents (Elt F)),
    binary main_call33_v0 main_call33_v1 main_v218 ((Cert.Iswt.cat2 4093 3 concatenates_S2048x4093_S2048x3_S2048x4096_d1) : (⟨S2048x4093, .f32⟩ : BufTy).Contents (Elt F) → (⟨S2048x3, .f32⟩ : BufTy).Contents (Elt F) → (⟨S2048x4096, .f32⟩ : BufTy).Contents (Elt F)),
    unary main_v217 main_v219 (broadcastInDim S2048x4096 ![] bcast_S_S2048x4096 : (⟨S_, .f32⟩ : BufTy).Contents (Elt F) → (⟨S2048x4096, .f32⟩ : BufTy).Contents (Elt F)),
    binary main_v219 main_v218 main_v220 (mulf : (⟨S2048x4096, .f32⟩ : BufTy).Contents (Elt F) → (⟨S2048x4096, .f32⟩ : BufTy).Contents (Elt F) → (⟨S2048x4096, .f32⟩ : BufTy).Contents (Elt F)),
    binary main_v215 main_v220 main_v221 (addf : (⟨S2048x4096, .f32⟩ : BufTy).Contents (Elt F) → (⟨S2048x4096, .f32⟩ : BufTy).Contents (Elt F) → (⟨S2048x4096, .f32⟩ : BufTy).Contents (Elt F)),
    unary main_cst main_v222 ((extractStridedSlice S1 ![1] · slices_S8_S1_1) : (⟨S8, .f32⟩ : BufTy).Contents (Elt F) → (⟨S1, .f32⟩ : BufTy).Contents (Elt F)),
    reshape main_v222 main_v223 rfl shapeCasts_S1_S_,
    unary main_v208 main_call34_v0 ((extractStridedSlice S2048x4094 ![0, 2] · slices_S2048x4096_S2048x4094_0_2) : (⟨S2048x4096, .f32⟩ : BufTy).Contents (Elt F) → (⟨S2048x4094, .f32⟩ : BufTy).Contents (Elt F)),
    unary main_v208 main_call34_v1 ((extractStridedSlice S2048x2 ![0, 0] · slices_S2048x4096_S2048x2_0_0) : (⟨S2048x4096, .f32⟩ : BufTy).Contents (Elt F) → (⟨S2048x2, .f32⟩ : BufTy).Contents (Elt F)),
    binary main_call34_v0 main_call34_v1 main_v224 ((Cert.Iswt.cat2 4094 2 concatenates_S2048x4094_S2048x2_S2048x4096_d1) : (⟨S2048x4094, .f32⟩ : BufTy).Contents (Elt F) → (⟨S2048x2, .f32⟩ : BufTy).Contents (Elt F) → (⟨S2048x4096, .f32⟩ : BufTy).Contents (Elt F)),
    unary main_v223 main_v225 (broadcastInDim S2048x4096 ![] bcast_S_S2048x4096 : (⟨S_, .f32⟩ : BufTy).Contents (Elt F) → (⟨S2048x4096, .f32⟩ : BufTy).Contents (Elt F)),
    binary main_v225 main_v224 main_v226 (mulf : (⟨S2048x4096, .f32⟩ : BufTy).Contents (Elt F) → (⟨S2048x4096, .f32⟩ : BufTy).Contents (Elt F) → (⟨S2048x4096, .f32⟩ : BufTy).Contents (Elt F)),
    binary main_v221 main_v226 main_v227 (addf : (⟨S2048x4096, .f32⟩ : BufTy).Contents (Elt F) → (⟨S2048x4096, .f32⟩ : BufTy).Contents (Elt F) → (⟨S2048x4096, .f32⟩ : BufTy).Contents (Elt F)),
    unary main_v10 main_v228 ((extractStridedSlice S1 ![1] · slices_S8_S1_1) : (⟨S8, .f32⟩ : BufTy).Contents (Elt F) → (⟨S1, .f32⟩ : BufTy).Contents (Elt F)),
    reshape main_v228 main_v229 rfl shapeCasts_S1_S_,
    unary main_v8 main_call35_v0 ((extractStridedSlice S2048x4094 ![0, 2] · slices_S2048x4096_S2048x4094_0_2) : (⟨S2048x4096, .f32⟩ : BufTy).Contents (Elt F) → (⟨S2048x4094, .f32⟩ : BufTy).Contents (Elt F)),
    unary main_v8 main_call35_v1 ((extractStridedSlice S2048x2 ![0, 0] · slices_S2048x4096_S2048x2_0_0) : (⟨S2048x4096, .f32⟩ : BufTy).Contents (Elt F) → (⟨S2048x2, .f32⟩ : BufTy).Contents (Elt F)),
    binary main_call35_v0 main_call35_v1 main_v230 ((Cert.Iswt.cat2 4094 2 concatenates_S2048x4094_S2048x2_S2048x4096_d1) : (⟨S2048x4094, .f32⟩ : BufTy).Contents (Elt F) → (⟨S2048x2, .f32⟩ : BufTy).Contents (Elt F) → (⟨S2048x4096, .f32⟩ : BufTy).Contents (Elt F)),
    unary main_v229 main_v231 (broadcastInDim S2048x4096 ![] bcast_S_S2048x4096 : (⟨S_, .f32⟩ : BufTy).Contents (Elt F) → (⟨S2048x4096, .f32⟩ : BufTy).Contents (Elt F)),
    binary main_v231 main_v230 main_v232 (mulf : (⟨S2048x4096, .f32⟩ : BufTy).Contents (Elt F) → (⟨S2048x4096, .f32⟩ : BufTy).Contents (Elt F) → (⟨S2048x4096, .f32⟩ : BufTy).Contents (Elt F))
  ]

/-- @main's operations 313 … 392 of 413: the printed window main_part4. -/
abbrev opsW4 : List (HloOp τ sig (Elt F)) :=
  [
    binary main_v227 main_v232 main_v233 (addf : (⟨S2048x4096, .f32⟩ : BufTy).Contents (Elt F) → (⟨S2048x4096, .f32⟩ : BufTy).Contents (Elt F) → (⟨S2048x4096, .f32⟩ : BufTy).Contents (Elt F)),
    unary main_cst main_v234 ((extractStridedSlice S1 ![2] · slices_S8_S1_2) : (⟨S8, .f32⟩ : BufTy).Contents (Elt F) → (⟨S1, .f32⟩ : BufTy).Contents (Elt F)),
    reshape main_v234 main_v235 rfl shapeCasts_S1_S_,
    unary main_v208 main_call36_v0 ((extractStridedSlice S2048x4095 ![0, 1] · slices_S2048x4096_S2048x4095_0_1) : (⟨S2048x4096, .f32⟩ : BufTy).Contents (Elt F) → (⟨S2048x4095, .f32⟩ : BufTy).Contents (Elt F)),
    unary main_v208 main_call36_v1 ((extractStridedSlice S2048x1 ![0, 0] · slices_S2048x4096_S2048x1_0_0) : (⟨S2048x4096, .f32⟩ : BufTy).Contents (Elt F) → (⟨S2048x1, .f32⟩ : BufTy).Contents (Elt F)),
    binary main_call36_v0 main_call36_v1 main_v236 ((Cert.Iswt.cat2 4095 1 concatenates_S2048x4095_S2048x1_S2048x4096_d1) : (⟨S2048x4095, .f32⟩ : BufTy).Contents (Elt F) → (⟨S2048x1, .f32⟩ : BufTy).Contents (Elt F) → (⟨S2048x4096, .f32⟩ : BufTy).Contents (Elt F)),
    unary main_v235 main_v237 (broadcastInDim S2048x4096 ![] bcast_S_S2048x4096 : (⟨S_, .f32⟩ : BufTy).Contents (Elt F) → (⟨S2048x4096, .f32⟩ : BufTy).Contents (Elt F)),
    binary main_v237 main_v236 main_v238 (mulf : (⟨S2048x4096, .f32⟩ : BufTy).Contents (Elt F) → (⟨S2048x4096, .f32⟩ : BufTy).Contents (Elt F) → (⟨S2048x4096, .f32⟩ : BufTy).Contents (Elt F)),
    binary main_v233 main_v238 main_v239 (addf : (⟨S2048x4096, .f32⟩ : BufTy).Contents (Elt F) → (⟨S2048x4096, .f32⟩ : BufTy).Contents (Elt F) → (⟨S2048x4096, .f32⟩ : BufTy).Contents (Elt F)),
    unary main_v10 main_v240 ((extractStridedSlice S1 ![2] · slices_S8_S1_2) : (⟨S8, .f32⟩ : BufTy).Contents (Elt F) → (⟨S1, .f32⟩ : BufTy).Contents (Elt F)),
    reshape main_v240 main_v241 rfl shapeCasts_S1_S_,
    unary main_v8 main_call37_v0 ((extractStridedSlice S2048x4095 ![0, 1] · slices_S2048x4096_S2048x4095_0_1) : (⟨S2048x4096, .f32⟩ : BufTy).Contents (Elt F) → (⟨S2048x4095, .f32⟩ : BufTy).Contents (Elt F)),
    unary main_v8 main_call37_v1 ((extractStridedSlice S2048x1 ![0, 0] · slices_S2048x4096_S2048x1_0_0) : (⟨S2048x4096, .f32⟩ : BufTy).Contents (Elt F) → (⟨S2048x1, .f32⟩ : BufTy).Contents (Elt F)),
    binary main_call37_v0 main_call37_v1 main_v242 ((Cert.Iswt.cat2 4095 1 concatenates_S2048x4095_S2048x1_S2048x4096_d1) : (⟨S2048x4095, .f32⟩ : BufTy).Contents (Elt F) → (⟨S2048x1, .f32⟩ : BufTy).Contents (Elt F) → (⟨S2048x4096, .f32⟩ : BufTy).Contents (Elt F)),
    unary main_v241 main_v243 (broadcastInDim S2048x4096 ![] bcast_S_S2048x4096 : (⟨S_, .f32⟩ : BufTy).Contents (Elt F) → (⟨S2048x4096, .f32⟩ : BufTy).Contents (Elt F)),
    binary main_v243 main_v242 main_v244 (mulf : (⟨S2048x4096, .f32⟩ : BufTy).Contents (Elt F) → (⟨S2048x4096, .f32⟩ : BufTy).Contents (Elt F) → (⟨S2048x4096, .f32⟩ : BufTy).Contents (Elt F)),
    binary main_v239 main_v244 main_v245 (addf : (⟨S2048x4096, .f32⟩ : BufTy).Contents (Elt F) → (⟨S2048x4096, .f32⟩ : BufTy).Contents (Elt F) → (⟨S2048x4096, .f32⟩ : BufTy).Contents (Elt F)),
    unary main_cst main_v246 ((extractStridedSlice S1 ![3] · slices_S8_S1_3) : (⟨S8, .f32⟩ : BufTy).Contents (Elt F) → (⟨S1, .f32⟩ : BufTy).Contents (Elt F)),
    reshape main_v246 main_v247 rfl shapeCasts_S1_S_,
    unary main_v208 main_call38_v0 ((extractStridedSlice S2048x4096 ![0, 0] · slices_S2048x4096_S2048x4096_0_0) : (⟨S2048x4096, .f32⟩ : BufTy).Contents (Elt F) → (⟨S2048x4096, .f32⟩ : BufTy).Contents (Elt F)),
    unary main_v208 main_call38_v1 ((extractStridedSlice S2048x0 ![0, 0] · slices_S2048x4096_S2048x0_0_0) : (⟨S2048x4096, .f32⟩ : BufTy).Contents (Elt F) → (⟨S2048x0, .f32⟩ : BufTy).Contents (Elt F)),
    binary main_call38_v0 main_call38_v1 main_v248 ((Cert.Iswt.cat2 4096 0 concatenates_S2048x4096_S2048x0_S2048x4096_d1) : (⟨S2048x4096, .f32⟩ : BufTy).Contents (Elt F) → (⟨S2048x0, .f32⟩ : BufTy).Contents (Elt F) → (⟨S2048x4096, .f32⟩ : BufTy).Contents (Elt F)),
    unary main_v247 main_v249 (broadcastInDim S2048x4096 ![] bcast_S_S2048x4096 : (⟨S_, .f32⟩ : BufTy).Contents (Elt F) → (⟨S2048x4096, .f32⟩ : BufTy).Contents (Elt F)),
    binary main_v249 main_v248 main_v250 (mulf : (⟨S2048x4096, .f32⟩ : BufTy).Contents (Elt F) → (⟨S2048x4096, .f32⟩ : BufTy).Contents (Elt F) → (⟨S2048x4096, .f32⟩ : BufTy).Contents (Elt F)),
    binary main_v245 main_v250 main_v251 (addf : (⟨S2048x4096, .f32⟩ : BufTy).Contents (Elt F) → (⟨S2048x4096, .f32⟩ : BufTy).Contents (Elt F) → (⟨S2048x4096, .f32⟩ : BufTy).Contents (Elt F)),
    unary main_v10 main_v252 ((extractStridedSlice S1 ![3] · slices_S8_S1_3) : (⟨S8, .f32⟩ : BufTy).Contents (Elt F) → (⟨S1, .f32⟩ : BufTy).Contents (Elt F)),
    reshape main_v252 main_v253 rfl shapeCasts_S1_S_,
    unary main_v8 main_call39_v0 ((extractStridedSlice S2048x4096 ![0, 0] · slices_S2048x4096_S2048x4096_0_0) : (⟨S2048x4096, .f32⟩ : BufTy).Contents (Elt F) → (⟨S2048x4096, .f32⟩ : BufTy).Contents (Elt F)),
    unary main_v8 main_call39_v1 ((extractStridedSlice S2048x0 ![0, 0] · slices_S2048x4096_S2048x0_0_0) : (⟨S2048x4096, .f32⟩ : BufTy).Contents (Elt F) → (⟨S2048x0, .f32⟩ : BufTy).Contents (Elt F)),
    binary main_call39_v0 main_call39_v1 main_v254 ((Cert.Iswt.cat2 4096 0 concatenates_S2048x4096_S2048x0_S2048x4096_d1) : (⟨S2048x4096, .f32⟩ : BufTy).Contents (Elt F) → (⟨S2048x0, .f32⟩ : BufTy).Contents (Elt F) → (⟨S2048x4096, .f32⟩ : BufTy).Contents (Elt F)),
    unary main_v253 main_v255 (broadcastInDim S2048x4096 ![] bcast_S_S2048x4096 : (⟨S_, .f32⟩ : BufTy).Contents (Elt F) → (⟨S2048x4096, .f32⟩ : BufTy).Contents (Elt F)),
    binary main_v255 main_v254 main_v256 (mulf : (⟨S2048x4096, .f32⟩ : BufTy).Contents (Elt F) → (⟨S2048x4096, .f32⟩ : BufTy).Contents (Elt F) → (⟨S2048x4096, .f32⟩ : BufTy).Contents (Elt F)),
    binary main_v251 main_v256 main_v257 (addf : (⟨S2048x4096, .f32⟩ : BufTy).Contents (Elt F) → (⟨S2048x4096, .f32⟩ : BufTy).Contents (Elt F) → (⟨S2048x4096, .f32⟩ : BufTy).Contents (Elt F)),
    unary main_cst main_v258 ((extractStridedSlice S1 ![4] · slices_S8_S1_4) : (⟨S8, .f32⟩ : BufTy).Contents (Elt F) → (⟨S1, .f32⟩ : BufTy).Contents (Elt F)),
    reshape main_v258 main_v259 rfl shapeCasts_S1_S_,
    unary main_v208 main_call40_v0 ((extractStridedSlice S2048x1 ![0, 4095] · slices_S2048x4096_S2048x1_0_4095) : (⟨S2048x4096, .f32⟩ : BufTy).Contents (Elt F) → (⟨S2048x1, .f32⟩ : BufTy).Contents (Elt F)),
    unary main_v208 main_call40_v1 ((extractStridedSlice S2048x4095 ![0, 0] · slices_S2048x4096_S2048x4095_0_0) : (⟨S2048x4096, .f32⟩ : BufTy).Contents (Elt F) → (⟨S2048x4095, .f32⟩ : BufTy).Contents (Elt F)),
    binary main_call40_v0 main_call40_v1 main_v260 ((Cert.Iswt.cat2 1 4095 concatenates_S2048x1_S2048x4095_S2048x4096_d1) : (⟨S2048x1, .f32⟩ : BufTy).Contents (Elt F) → (⟨S2048x4095, .f32⟩ : BufTy).Contents (Elt F) → (⟨S2048x4096, .f32⟩ : BufTy).Contents (Elt F)),
    unary main_v259 main_v261 (broadcastInDim S2048x4096 ![] bcast_S_S2048x4096 : (⟨S_, .f32⟩ : BufTy).Contents (Elt F) → (⟨S2048x4096, .f32⟩ : BufTy).Contents (Elt F)),
    binary main_v261 main_v260 main_v262 (mulf : (⟨S2048x4096, .f32⟩ : BufTy).Contents (Elt F) → (⟨S2048x4096, .f32⟩ : BufTy).Contents (Elt F) → (⟨S2048x4096, .f32⟩ : BufTy).Contents (Elt F)),
    binary main_v257 main_v262 main_v263 (addf : (⟨S2048x4096, .f32⟩ : BufTy).Contents (Elt F) → (⟨S2048x4096, .f32⟩ : BufTy).Contents (Elt F) → (⟨S2048x4096, .f32⟩ : BufTy).Contents (Elt F)),
    unary main_v10 main_v264 ((extractStridedSlice S1 ![4] · slices_S8_S1_4) : (⟨S8, .f32⟩ : BufTy).Contents (Elt F) → (⟨S1, .f32⟩ : BufTy).Contents (Elt F)),
    reshape main_v264 main_v265 rfl shapeCasts_S1_S_,
    unary main_v8 main_call41_v0 ((extractStridedSlice S2048x1 ![0, 4095] · slices_S2048x4096_S2048x1_0_4095) : (⟨S2048x4096, .f32⟩ : BufTy).Contents (Elt F) → (⟨S2048x1, .f32⟩ : BufTy).Contents (Elt F)),
    unary main_v8 main_call41_v1 ((extractStridedSlice S2048x4095 ![0, 0] · slices_S2048x4096_S2048x4095_0_0) : (⟨S2048x4096, .f32⟩ : BufTy).Contents (Elt F) → (⟨S2048x4095, .f32⟩ : BufTy).Contents (Elt F)),
    binary main_call41_v0 main_call41_v1 main_v266 ((Cert.Iswt.cat2 1 4095 concatenates_S2048x1_S2048x4095_S2048x4096_d1) : (⟨S2048x1, .f32⟩ : BufTy).Contents (Elt F) → (⟨S2048x4095, .f32⟩ : BufTy).Contents (Elt F) → (⟨S2048x4096, .f32⟩ : BufTy).Contents (Elt F)),
    unary main_v265 main_v267 (broadcastInDim S2048x4096 ![] bcast_S_S2048x4096 : (⟨S_, .f32⟩ : BufTy).Contents (Elt F) → (⟨S2048x4096, .f32⟩ : BufTy).Contents (Elt F)),
    binary main_v267 main_v266 main_v268 (mulf : (⟨S2048x4096, .f32⟩ : BufTy).Contents (Elt F) → (⟨S2048x4096, .f32⟩ : BufTy).Contents (Elt F) → (⟨S2048x4096, .f32⟩ : BufTy).Contents (Elt F)),
    binary main_v263 main_v268 main_v269 (addf : (⟨S2048x4096, .f32⟩ : BufTy).Contents (Elt F) → (⟨S2048x4096, .f32⟩ : BufTy).Contents (Elt F) → (⟨S2048x4096, .f32⟩ : BufTy).Contents (Elt F)),
    unary main_cst main_v270 ((extractStridedSlice S1 ![5] · slices_S8_S1_5) : (⟨S8, .f32⟩ : BufTy).Contents (Elt F) → (⟨S1, .f32⟩ : BufTy).Contents (Elt F)),
    reshape main_v270 main_v271 rfl shapeCasts_S1_S_,
    unary main_v208 main_call42_v0 ((extractStridedSlice S2048x2 ![0, 4094] · slices_S2048x4096_S2048x2_0_4094) : (⟨S2048x4096, .f32⟩ : BufTy).Contents (Elt F) → (⟨S2048x2, .f32⟩ : BufTy).Contents (Elt F)),
    unary main_v208 main_call42_v1 ((extractStridedSlice S2048x4094 ![0, 0] · slices_S2048x4096_S2048x4094_0_0) : (⟨S2048x4096, .f32⟩ : BufTy).Contents (Elt F) → (⟨S2048x4094, .f32⟩ : BufTy).Contents (Elt F)),
    binary main_call42_v0 main_call42_v1 main_v272 ((Cert.Iswt.cat2 2 4094 concatenates_S2048x2_S2048x4094_S2048x4096_d1) : (⟨S2048x2, .f32⟩ : BufTy).Contents (Elt F) → (⟨S2048x4094, .f32⟩ : BufTy).Contents (Elt F) → (⟨S2048x4096, .f32⟩ : BufTy).Contents (Elt F)),
    unary main_v271 main_v273 (broadcastInDim S2048x4096 ![] bcast_S_S2048x4096 : (⟨S_, .f32⟩ : BufTy).Contents (Elt F) → (⟨S2048x4096, .f32⟩ : BufTy).Contents (Elt F)),
    binary main_v273 main_v272 main_v274 (mulf : (⟨S2048x4096, .f32⟩ : BufTy).Contents (Elt F) → (⟨S2048x4096, .f32⟩ : BufTy).Contents (Elt F) → (⟨S2048x4096, .f32⟩ : BufTy).Contents (Elt F)),
    binary main_v269 main_v274 main_v275 (addf : (⟨S2048x4096, .f32⟩ : BufTy).Contents (Elt F) → (⟨S2048x4096, .f32⟩ : BufTy).Contents (Elt F) → (⟨S2048x4096, .f32⟩ : BufTy).Contents (Elt F)),
    unary main_v10 main_v276 ((extractStridedSlice S1 ![5] · slices_S8_S1_5) : (⟨S8, .f32⟩ : BufTy).Contents (Elt F) → (⟨S1, .f32⟩ : BufTy).Contents (Elt F)),
    reshape main_v276 main_v277 rfl shapeCasts_S1_S_,
    unary main_v8 main_call43_v0 ((extractStridedSlice S2048x2 ![0, 4094] · slices_S2048x4096_S2048x2_0_4094) : (⟨S2048x4096, .f32⟩ : BufTy).Contents (Elt F) → (⟨S2048x2, .f32⟩ : BufTy).Contents (Elt F)),
    unary main_v8 main_call43_v1 ((extractStridedSlice S2048x4094 ![0, 0] · slices_S2048x4096_S2048x4094_0_0) : (⟨S2048x4096, .f32⟩ : BufTy).Contents (Elt F) → (⟨S2048x4094, .f32⟩ : BufTy).Contents (Elt F)),
    binary main_call43_v0 main_call43_v1 main_v278 ((Cert.Iswt.cat2 2 4094 concatenates_S2048x2_S2048x4094_S2048x4096_d1) : (⟨S2048x2, .f32⟩ : BufTy).Contents (Elt F) → (⟨S2048x4094, .f32⟩ : BufTy).Contents (Elt F) → (⟨S2048x4096, .f32⟩ : BufTy).Contents (Elt F)),
    unary main_v277 main_v279 (broadcastInDim S2048x4096 ![] bcast_S_S2048x4096 : (⟨S_, .f32⟩ : BufTy).Contents (Elt F) → (⟨S2048x4096, .f32⟩ : BufTy).Contents (Elt F)),
    binary main_v279 main_v278 main_v280 (mulf : (⟨S2048x4096, .f32⟩ : BufTy).Contents (Elt F) → (⟨S2048x4096, .f32⟩ : BufTy).Contents (Elt F) → (⟨S2048x4096, .f32⟩ : BufTy).Contents (Elt F)),
    binary main_v275 main_v280 main_v281 (addf : (⟨S2048x4096, .f32⟩ : BufTy).Contents (Elt F) → (⟨S2048x4096, .f32⟩ : BufTy).Contents (Elt F) → (⟨S2048x4096, .f32⟩ : BufTy).Contents (Elt F)),
    unary main_cst main_v282 ((extractStridedSlice S1 ![6] · slices_S8_S1_6) : (⟨S8, .f32⟩ : BufTy).Contents (Elt F) → (⟨S1, .f32⟩ : BufTy).Contents (Elt F)),
    reshape main_v282 main_v283 rfl shapeCasts_S1_S_,
    unary main_v208 main_call44_v0 ((extractStridedSlice S2048x3 ![0, 4093] · slices_S2048x4096_S2048x3_0_4093) : (⟨S2048x4096, .f32⟩ : BufTy).Contents (Elt F) → (⟨S2048x3, .f32⟩ : BufTy).Contents (Elt F)),
    unary main_v208 main_call44_v1 ((extractStridedSlice S2048x4093 ![0, 0] · slices_S2048x4096_S2048x4093_0_0) : (⟨S2048x4096, .f32⟩ : BufTy).Contents (Elt F) → (⟨S2048x4093, .f32⟩ : BufTy).Contents (Elt F)),
    binary main_call44_v0 main_call44_v1 main_v284 ((Cert.Iswt.cat2 3 4093 concatenates_S2048x3_S2048x4093_S2048x4096_d1) : (⟨S2048x3, .f32⟩ : BufTy).Contents (Elt F) → (⟨S2048x4093, .f32⟩ : BufTy).Contents (Elt F) → (⟨S2048x4096, .f32⟩ : BufTy).Contents (Elt F)),
    unary main_v283 main_v285 (broadcastInDim S2048x4096 ![] bcast_S_S2048x4096 : (⟨S_, .f32⟩ : BufTy).Contents (Elt F) → (⟨S2048x4096, .f32⟩ : BufTy).Contents (Elt F)),
    binary main_v285 main_v284 main_v286 (mulf : (⟨S2048x4096, .f32⟩ : BufTy).Contents (Elt F) → (⟨S2048x4096, .f32⟩ : BufTy).Contents (Elt F) → (⟨S2048x4096, .f32⟩ : BufTy).Contents (Elt F)),
    binary main_v281 main_v286 main_v287 (addf : (⟨S2048x4096, .f32⟩ : BufTy).Contents (Elt F) → (⟨S2048x4096, .f32⟩ : BufTy).Contents (Elt F) → (⟨S2048x4096, .f32⟩ : BufTy).Contents (Elt F)),
    unary main_v10 main_v288 ((extractStridedSlice S1 ![6] · slices_S8_S1_6) : (⟨S8, .f32⟩ : BufTy).Contents (Elt F) → (⟨S1, .f32⟩ : BufTy).Contents (Elt F)),
    reshape main_v288 main_v289 rfl shapeCasts_S1_S_,
    unary main_v8 main_call45_v0 ((extractStridedSlice S2048x3 ![0, 4093] · slices_S2048x4096_S2048x3_0_4093) : (⟨S2048x4096, .f32⟩ : BufTy).Contents (Elt F) → (⟨S2048x3, .f32⟩ : BufTy).Contents (Elt F)),
    unary main_v8 main_call45_v1 ((extractStridedSlice S2048x4093 ![0, 0] · slices_S2048x4096_S2048x4093_0_0) : (⟨S2048x4096, .f32⟩ : BufTy).Contents (Elt F) → (⟨S2048x4093, .f32⟩ : BufTy).Contents (Elt F)),
    binary main_call45_v0 main_call45_v1 main_v290 ((Cert.Iswt.cat2 3 4093 concatenates_S2048x3_S2048x4093_S2048x4096_d1) : (⟨S2048x3, .f32⟩ : BufTy).Contents (Elt F) → (⟨S2048x4093, .f32⟩ : BufTy).Contents (Elt F) → (⟨S2048x4096, .f32⟩ : BufTy).Contents (Elt F)),
    unary main_v289 main_v291 (broadcastInDim S2048x4096 ![] bcast_S_S2048x4096 : (⟨S_, .f32⟩ : BufTy).Contents (Elt F) → (⟨S2048x4096, .f32⟩ : BufTy).Contents (Elt F)),
    binary main_v291 main_v290 main_v292 (mulf : (⟨S2048x4096, .f32⟩ : BufTy).Contents (Elt F) → (⟨S2048x4096, .f32⟩ : BufTy).Contents (Elt F) → (⟨S2048x4096, .f32⟩ : BufTy).Contents (Elt F))
  ]

/-- @main's operations 393 … 413 of 413: the printed window main_part5. -/
abbrev opsW5 : List (HloOp τ sig (Elt F)) :=
  [
    binary main_v287 main_v292 main_v293 (addf : (⟨S2048x4096, .f32⟩ : BufTy).Contents (Elt F) → (⟨S2048x4096, .f32⟩ : BufTy).Contents (Elt F) → (⟨S2048x4096, .f32⟩ : BufTy).Contents (Elt F)),
    unary main_cst main_v294 ((extractStridedSlice S1 ![7] · slices_S8_S1_7) : (⟨S8, .f32⟩ : BufTy).Contents (Elt F) → (⟨S1, .f32⟩ : BufTy).Contents (Elt F)),
    reshape main_v294 main_v295 rfl shapeCasts_S1_S_,
    unary main_v208 main_call46_v0 ((extractStridedSlice S2048x4 ![0, 4092] · slices_S2048x4096_S2048x4_0_4092) : (⟨S2048x4096, .f32⟩ : BufTy).Contents (Elt F) → (⟨S2048x4, .f32⟩ : BufTy).Contents (Elt F)),
    unary main_v208 main_call46_v1 ((extractStridedSlice S2048x4092 ![0, 0] · slices_S2048x4096_S2048x4092_0_0) : (⟨S2048x4096, .f32⟩ : BufTy).Contents (Elt F) → (⟨S2048x4092, .f32⟩ : BufTy).Contents (Elt F)),
    binary main_call46_v0 main_call46_v1 main_v296 ((Cert.Iswt.cat2 4 4092 concatenates_S2048x4_S2048x4092_S2048x4096_d1) : (⟨S2048x4, .f32⟩ : BufTy).Contents (Elt F) → (⟨S2048x4092, .f32⟩ : BufTy).Contents (Elt F) → (⟨S2048x4096, .f32⟩ : BufTy).Contents (Elt F)),
    unary main_v295 main_v297 (broadcastInDim S2048x4096 ![] bcast_S_S2048x4096 : (⟨S_, .f32⟩ : BufTy).Contents (Elt F) → (⟨S2048x4096, .f32⟩ : BufTy).Contents (Elt F)),
    binary main_v297 main_v296 main_v298 (mulf : (⟨S2048x4096, .f32⟩ : BufTy).Contents (Elt F) → (⟨S2048x4096, .f32⟩ : BufTy).Contents (Elt F) → (⟨S2048x4096, .f32⟩ : BufTy).Contents (Elt F)),
    binary main_v293 main_v298 main_v299 (addf : (⟨S2048x4096, .f32⟩ : BufTy).Contents (Elt F) → (⟨S2048x4096, .f32⟩ : BufTy).Contents (Elt F) → (⟨S2048x4096, .f32⟩ : BufTy).Contents (Elt F)),
    unary main_v10 main_v300 ((extractStridedSlice S1 ![7] · slices_S8_S1_7) : (⟨S8, .f32⟩ : BufTy).Contents (Elt F) → (⟨S1, .f32⟩ : BufTy).Contents (Elt F)),
    reshape main_v300 main_v301 rfl shapeCasts_S1_S_,
    unary main_v8 main_call47_v0 ((extractStridedSlice S2048x4 ![0, 4092] · slices_S2048x4096_S2048x4_0_4092) : (⟨S2048x4096, .f32⟩ : BufTy).Contents (Elt F) → (⟨S2048x4, .f32⟩ : BufTy).Contents (Elt F)),
    unary main_v8 main_call47_v1 ((extractStridedSlice S2048x4092 ![0, 0] · slices_S2048x4096_S2048x4092_0_0) : (⟨S2048x4096, .f32⟩ : BufTy).Contents (Elt F) → (⟨S2048x4092, .f32⟩ : BufTy).Contents (Elt F)),
    binary main_call47_v0 main_call47_v1 main_v302 ((Cert.Iswt.cat2 4 4092 concatenates_S2048x4_S2048x4092_S2048x4096_d1) : (⟨S2048x4, .f32⟩ : BufTy).Contents (Elt F) → (⟨S2048x4092, .f32⟩ : BufTy).Contents (Elt F) → (⟨S2048x4096, .f32⟩ : BufTy).Contents (Elt F)),
    unary main_v301 main_v303 (broadcastInDim S2048x4096 ![] bcast_S_S2048x4096 : (⟨S_, .f32⟩ : BufTy).Contents (Elt F) → (⟨S2048x4096, .f32⟩ : BufTy).Contents (Elt F)),
    binary main_v303 main_v302 main_v304 (mulf : (⟨S2048x4096, .f32⟩ : BufTy).Contents (Elt F) → (⟨S2048x4096, .f32⟩ : BufTy).Contents (Elt F) → (⟨S2048x4096, .f32⟩ : BufTy).Contents (Elt F)),
    binary main_v299 main_v304 main_v305 (addf : (⟨S2048x4096, .f32⟩ : BufTy).Contents (Elt F) → (⟨S2048x4096, .f32⟩ : BufTy).Contents (Elt F) → (⟨S2048x4096, .f32⟩ : BufTy).Contents (Elt F)),
    nullary main_cst_6 (constant S_ .f32 0x3F000000#32),
    unary main_cst_6 main_v306 (broadcastInDim S2048x4096 ![] bcast_S_S2048x4096 : (⟨S_, .f32⟩ : BufTy).Contents (Elt F) → (⟨S2048x4096, .f32⟩ : BufTy).Contents (Elt F)),
    binary main_v306 main_v305 main_v307 (mulf : (⟨S2048x4096, .f32⟩ : BufTy).Contents (Elt F) → (⟨S2048x4096, .f32⟩ : BufTy).Contents (Elt F) → (⟨S2048x4096, .f32⟩ : BufTy).Contents (Elt F)),
    reshape main_v307 main_v308 rfl shapeCasts_S2048x4096_S32x64x4096
  ]

end Cert.ReferenceIdeal.RefOps

end
-- ==== Proof.RefRun.lean ====
/-
  The reference program runs to the fold of its operations: @main is the straight line of the operations listed
  window by window (every call's callee unfolded at the call's own buffers), every operation touches TensorCore
  buffers only and allocates nothing, so every weakly fair execution terminates with each buffer at the
  operations' fold over the launch contents.
-/
import proofs.«418173_j65420941852885_3_alg».proof.Proof.RefOps

noncomputable section

namespace Cert.ReferenceIdeal.RefRun

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

/-- @main's 413 operations, in order. -/
abbrev ops : List (HloOp τ sig (Elt F)) := opsW0 ++ (opsW1 ++ (opsW2 ++ (opsW3 ++ (opsW4 ++ opsW5))))

set_option maxRecDepth 8192 in
set_option maxHeartbeats 4000000 in
theorem main_part0_eq (c : Dev nD) : main_part0 (F := F) c = seq opsW0 := rfl
set_option maxRecDepth 8192 in
set_option maxHeartbeats 4000000 in
theorem main_part1_eq (c : Dev nD) : main_part1 (F := F) c = seq opsW1 := rfl
set_option maxRecDepth 8192 in
set_option maxHeartbeats 4000000 in
theorem main_part2_eq (c : Dev nD) : main_part2 (F := F) c = seq opsW2 := rfl
set_option maxRecDepth 8192 in
set_option maxHeartbeats 4000000 in
theorem main_part3_eq (c : Dev nD) : main_part3 (F := F) c = seq opsW3 := rfl
set_option maxRecDepth 8192 in
set_option maxHeartbeats 4000000 in
theorem main_part4_eq (c : Dev nD) : main_part4 (F := F) c = seq opsW4 := rfl
set_option maxRecDepth 8192 in
set_option maxHeartbeats 4000000 in
theorem main_part5_eq (c : Dev nD) : main_part5 (F := F) c = seq opsW5 := rfl

theorem main_eq (c : Dev nD) : main (F := F) c = seq ops := by
  simp only [ops, seq_append, ← main_part0_eq c, ← main_part1_eq c, ← main_part2_eq c, ← main_part3_eq c, ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsW0_sub : (opsW0 : List (HloOp τ sig (Elt F))).Forall fun op => op.bufs ⊆ tcRefs τ sig := by
  simp only [List.Forall, nullary_bufs_sub, unary_bufs_sub, binary_bufs_sub, reshape_bufs_sub, and_self]
set_option maxRecDepth 8192 in
theorem opsW0_fresh : (opsW0 : List (HloOp τ sig (Elt F))).Forall fun op => op.fresh = ∅ := by
  simp only [List.Forall]; repeat' constructor
set_option maxRecDepth 8192 in
theorem opsW1_sub : (opsW1 : List (HloOp τ sig (Elt F))).Forall fun op => op.bufs ⊆ tcRefs τ sig := by
  simp only [List.Forall, nullary_bufs_sub, unary_bufs_sub, binary_bufs_sub, reshape_bufs_sub, and_self]
set_option maxRecDepth 8192 in
theorem opsW1_fresh : (opsW1 : List (HloOp τ sig (Elt F))).Forall fun op => op.fresh = ∅ := by
  simp only [List.Forall]; repeat' constructor
set_option maxRecDepth 8192 in
theorem opsW2_sub : (opsW2 : List (HloOp τ sig (Elt F))).Forall fun op => op.bufs ⊆ tcRefs τ sig := by
  simp only [List.Forall, nullary_bufs_sub, unary_bufs_sub, binary_bufs_sub, reshape_bufs_sub, and_self]
set_option maxRecDepth 8192 in
theorem opsW2_fresh : (opsW2 : List (HloOp τ sig (Elt F))).Forall fun op => op.fresh = ∅ := by
  simp only [List.Forall]; repeat' constructor
set_option maxRecDepth 8192 in
theorem opsW3_sub : (opsW3 : List (HloOp τ sig (Elt F))).Forall fun op => op.bufs ⊆ tcRefs τ sig := by
  simp only [List.Forall, nullary_bufs_sub, unary_bufs_sub, binary_bufs_sub, reshape_bufs_sub, and_self]
set_option maxRecDepth 8192 in
theorem opsW3_fresh : (opsW3 : List (HloOp τ sig (Elt F))).Forall fun op => op.fresh = ∅ := by
  simp only [List.Forall]; repeat' constructor
set_option maxRecDepth 8192 in
theorem opsW4_sub : (opsW4 : List (HloOp τ sig (Elt F))).Forall fun op => op.bufs ⊆ tcRefs τ sig := by
  simp only [List.Forall, nullary_bufs_sub, unary_bufs_sub, binary_bufs_sub, reshape_bufs_sub, and_self]
set_option maxRecDepth 8192 in
theorem opsW4_fresh : (opsW4 : List (HloOp τ sig (Elt F))).Forall fun op => op.fresh = ∅ := by
  simp only [List.Forall]; repeat' constructor
set_option maxRecDepth 8192 in
theorem opsW5_sub : (opsW5 : List (HloOp τ sig (Elt F))).Forall fun op => op.bufs ⊆ tcRefs τ sig := by
  simp only [List.Forall, nullary_bufs_sub, unary_bufs_sub, binary_bufs_sub, reshape_bufs_sub, and_self]
set_option maxRecDepth 8192 in
theorem opsW5_fresh : (opsW5 : List (HloOp τ sig (Elt F))).Forall fun op => op.fresh = ∅ := by
  simp only [List.Forall]; repeat' constructor

theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp opsW0_sub op h, List.forall_iff_forall_mem.mp opsW1_sub op h,
      List.forall_iff_forall_mem.mp opsW2_sub op h, List.forall_iff_forall_mem.mp opsW3_sub op h,
      List.forall_iff_forall_mem.mp opsW4_sub op h, List.forall_iff_forall_mem.mp opsW5_sub op h]

theorem ops_fresh : ∀ op ∈ (ops : List (HloOp τ sig (Elt F))), op.fresh = ∅ := fun op h => by
  simp only [ops, List.mem_append] at h
  rcases h with h | h | h | h | h | h
  exacts [List.forall_iff_forall_mem.mp opsW0_fresh op h, List.forall_iff_forall_mem.mp opsW1_fresh op h,
    List.forall_iff_forall_mem.mp opsW2_fresh op h, List.forall_iff_forall_mem.mp opsW3_fresh op h,
    List.forall_iff_forall_mem.mp opsW4_fresh op h, List.forall_iff_forall_mem.mp opsW5_fresh op h]

/-- On every device, for any float values, from any memory with zero counters: every weakly fair execution of
    @main terminates, and each TensorCore buffer ends at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

/-- Running two lines one after the other is running their concatenation. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

end Cert.ReferenceIdeal.RefRun

end
-- ==== Proof.RefSegs.lean ====
/- The reference program's @main as literal lists of its host operations, each call's callee written out at the call's
   own buffers: cut where a level of the transform ends. A table; nothing is proved here. -/
import proofs.«418173_j65420941852885_3_alg».proof.Proof.Gen.ReferenceIdeal
import proofs.«418173_j65420941852885_3_alg».proof.Proof.RefLemmas
import Idealize.ShloMosaic.Lib.StableHlo.Run

-- one list at a time: elaborated side by side the lists hold several gigabytes
set_option Elab.async false

noncomputable section

namespace Cert.ReferenceIdeal.RefSegs

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 13 of 413. -/
abbrev seg0 : List (HloOp τ sig (Elt F)) :=
  [
    nullary main_cst (fun i => FloatOps.ofBits .f32 (lit0 (S8.rowMajor i))),
    nullary main_cst_0 (fun i => FloatOps.ofBits .f32 (lit1 (S8.rowMajor i))),
    reshape main_arg0 main_v0 rfl shapeCasts_S32x256x4096_S2048x4x4096,
    unary main_v0 main_v1 ((extractStridedSlice S2048x1x4096 ![0, 0, 0] · slices_S2048x4x4096_S2048x1x4096_0_0_0) : (⟨S2048x4x4096, .f32⟩ : BufTy).Contents (Elt F) → (⟨S2048x1x4096, .f32⟩ : BufTy).Contents (Elt F)),
    reshape main_v1 main_v2 rfl shapeCasts_S2048x1x4096_S2048x4096,
    unary main_v0 main_v3 ((extractStridedSlice S2048x1x4096 ![0, 1, 0] · slices_S2048x4x4096_S2048x1x4096_0_1_0) : (⟨S2048x4x4096, .f32⟩ : BufTy).Contents (Elt F) → (⟨S2048x1x4096, .f32⟩ : BufTy).Contents (Elt F)),
    reshape main_v3 main_v4 rfl shapeCasts_S2048x1x4096_S2048x4096,
    unary main_v0 main_v5 ((extractStridedSlice S2048x1x4096 ![0, 2, 0] · slices_S2048x4x4096_S2048x1x4096_0_2_0) : (⟨S2048x4x4096, .f32⟩ : BufTy).Contents (Elt F) → (⟨S2048x1x4096, .f32⟩ : BufTy).Contents (Elt F)),
    reshape main_v5 main_v6 rfl shapeCasts_S2048x1x4096_S2048x4096,
    unary main_v0 main_v7 ((extractStridedSlice S2048x1x4096 ![0, 3, 0] · slices_S2048x4x4096_S2048x1x4096_0_3_0) : (⟨S2048x4x4096, .f32⟩ : BufTy).Contents (Elt F) → (⟨S2048x1x4096, .f32⟩ : BufTy).Contents (Elt F)),
    reshape main_v7 main_v8 rfl shapeCasts_S2048x1x4096_S2048x4096,
    unary main_cst main_v9 (Host.reverse [0] : (⟨S8, .f32⟩ : BufTy).Contents (Elt F) → (⟨S8, .f32⟩ : BufTy).Contents (Elt F)),
    binary main_v9 main_cst_0 main_v10 (mulf : (⟨S8, .f32⟩ : BufTy).Contents (Elt F) → (⟨S8, .f32⟩ : BufTy).Contents (Elt F) → (⟨S8, .f32⟩ : BufTy).Contents (Elt F))
  ]

/-- @main's operations 14 … 79 of 413. -/
abbrev seg1 : List (HloOp τ sig (Elt F)) :=
  [
    nullary main_cst_1 (constant S_ .f32 0x00000000#32),
    unary main_cst_1 main_v11 (broadcastInDim S2048x4096 ![] bcast_S_S2048x4096 : (⟨S_, .f32⟩ : BufTy).Contents (Elt F) → (⟨S2048x4096, .f32⟩ : BufTy).Contents (Elt F)),
    unary main_cst main_v12 ((extractStridedSlice S1 ![0] · slices_S8_S1_0) : (⟨S8, .f32⟩ : BufTy).Contents (Elt F) → (⟨S1, .f32⟩ : BufTy).Contents (Elt F)),
    reshape main_v12 main_v13 rfl shapeCasts_S1_S_,
    unary main_v2 main_call0_v0 ((extractStridedSlice S2048x4084 ![0, 12] · slices_S2048x4096_S2048x4084_0_12) : (⟨S2048x4096, .f32⟩ : BufTy).Contents (Elt F) → (⟨S2048x4084, .f32⟩ : BufTy).Contents (Elt F)),
    unary main_v2 main_call0_v1 ((extractStridedSlice S2048x12 ![0, 0] · slices_S2048x4096_S2048x12_0_0) : (⟨S2048x4096, .f32⟩ : BufTy).Contents (Elt F) → (⟨S2048x12, .f32⟩ : BufTy).Contents (Elt F)),
    binary main_call0_v0 main_call0_v1 main_v14 ((Cert.Iswt.cat2 4084 12 concatenates_S2048x4084_S2048x12_S2048x4096_d1) : (⟨S2048x4084, .f32⟩ : BufTy).Contents (Elt F) → (⟨S2048x12, .f32⟩ : BufTy).Contents (Elt F) → (⟨S2048x4096, .f32⟩ : BufTy).Contents (Elt F)),
    unary main_v13 main_v15 (broadcastInDim S2048x4096 ![] bcast_S_S2048x4096 : (⟨S_, .f32⟩ : BufTy).Contents (Elt F) → (⟨S2048x4096, .f32⟩ : BufTy).Contents (Elt F)),
    binary main_v15 main_v14 main_v16 (mulf : (⟨S2048x4096, .f32⟩ : BufTy).Contents (Elt F) → (⟨S2048x4096, .f32⟩ : BufTy).Contents (Elt F) → (⟨S2048x4096, .f32⟩ : BufTy).Contents (Elt F)),
    binary main_v11 main_v16 main_v17 (addf : (⟨S2048x4096, .f32⟩ : BufTy).Contents (Elt F) → (⟨S2048x4096, .f32⟩ : BufTy).Contents (Elt F) → (⟨S2048x4096, .f32⟩ : BufTy).Contents (Elt F)),
    unary main_v10 main_v18 ((extractStridedSlice S1 ![0] · slices_S8_S1_0) : (⟨S8, .f32⟩ : BufTy).Contents (Elt F) → (⟨S1, .f32⟩ : BufTy).Contents (Elt F)),
    reshape main_v18 main_v19 rfl shapeCasts_S1_S_,
    unary main_v4 main_call1_v0 ((extractStridedSlice S2048x4084 ![0, 12] · slices_S2048x4096_S2048x4084_0_12) : (⟨S2048x4096, .f32⟩ : BufTy).Contents (Elt F) → (⟨S2048x4084, .f32⟩ : BufTy).Contents (Elt F)),
    unary main_v4 main_call1_v1 ((extractStridedSlice S2048x12 ![0, 0] · slices_S2048x4096_S2048x12_0_0) : (⟨S2048x4096, .f32⟩ : BufTy).Contents (Elt F) → (⟨S2048x12, .f32⟩ : BufTy).Contents (Elt F)),
    binary main_call1_v0 main_call1_v1 main_v20 ((Cert.Iswt.cat2 4084 12 concatenates_S2048x4084_S2048x12_S2048x4096_d1) : (⟨S2048x4084, .f32⟩ : BufTy).Contents (Elt F) → (⟨S2048x12, .f32⟩ : BufTy).Contents (Elt F) → (⟨S2048x4096, .f32⟩ : BufTy).Contents (Elt F)),
    unary main_v19 main_v21 (broadcastInDim S2048x4096 ![] bcast_S_S2048x4096 : (⟨S_, .f32⟩ : BufTy).Contents (Elt F) → (⟨S2048x4096, .f32⟩ : BufTy).Contents (Elt F)),
    binary main_v21 main_v20 main_v22 (mulf : (⟨S2048x4096, .f32⟩ : BufTy).Contents (Elt F) → (⟨S2048x4096, .f32⟩ : BufTy).Contents (Elt F) → (⟨S2048x4096, .f32⟩ : BufTy).Contents (Elt F)),
    binary main_v17 main_v22 main_v23 (addf : (⟨S2048x4096, .f32⟩ : BufTy).Contents (Elt F) → (⟨S2048x4096, .f32⟩ : BufTy).Contents (Elt F) → (⟨S2048x4096, .f32⟩ : BufTy).Contents (Elt F)),
    unary main_cst main_v24 ((extractStridedSlice S1 ![1] · slices_S8_S1_1) : (⟨S8, .f32⟩ : BufTy).Contents (Elt F) → (⟨S1, .f32⟩ : BufTy).Contents (Elt F)),
    reshape main_v24 main_v25 rfl shapeCasts_S1_S_,
    unary main_v2 main_call2_v0 ((extractStridedSlice S2048x4088 ![0, 8] · slices_S2048x4096_S2048x4088_0_8) : (⟨S2048x4096, .f32⟩ : BufTy).Contents (Elt F) → (⟨S2048x4088, .f32⟩ : BufTy).Contents (Elt F)),
    unary main_v2 main_call2_v1 ((extractStridedSlice S2048x8 ![0, 0] · slices_S2048x4096_S2048x8_0_0) : (⟨S2048x4096, .f32⟩ : BufTy).Contents (Elt F) → (⟨S2048x8, .f32⟩ : BufTy).Contents (Elt F)),
    binary main_call2_v0 main_call2_v1 main_v26 ((Cert.Iswt.cat2 4088 8 concatenates_S2048x4088_S2048x8_S2048x4096_d1) : (⟨S2048x4088, .f32⟩ : BufTy).Contents (Elt F) → (⟨S2048x8, .f32⟩ : BufTy).Contents (Elt F) → (⟨S2048x4096, .f32⟩ : BufTy).Contents (Elt F)),
    unary main_v25 main_v27 (broadcastInDim S2048x4096 ![] bcast_S_S2048x4096 : (⟨S_, .f32⟩ : BufTy).Contents (Elt F) → (⟨S2048x4096, .f32⟩ : BufTy).Contents (Elt F)),
    binary main_v27 main_v26 main_v28 (mulf : (⟨S2048x4096, .f32⟩ : BufTy).Contents (Elt F) → (⟨S2048x4096, .f32⟩ : BufTy).Contents (Elt F) → (⟨S2048x4096, .f32⟩ : BufTy).Contents (Elt F)),
    binary main_v23 main_v28 main_v29 (addf : (⟨S2048x4096, .f32⟩ : BufTy).Contents (Elt F) → (⟨S2048x4096, .f32⟩ : BufTy).Contents (Elt F) → (⟨S2048x4096, .f32⟩ : BufTy).Contents (Elt F)),
    unary main_v10 main_v30 ((extractStridedSlice S1 ![1] · slices_S8_S1_1) : (⟨S8, .f32⟩ : BufTy).Contents (Elt F) → (⟨S1, .f32⟩ : BufTy).Contents (Elt F)),
    reshape main_v30 main_v31 rfl shapeCasts_S1_S_,
    unary main_v4 main_call3_v0 ((extractStridedSlice S2048x4088 ![0, 8] · slices_S2048x4096_S2048x4088_0_8) : (⟨S2048x4096, .f32⟩ : BufTy).Contents (Elt F) → (⟨S2048x4088, .f32⟩ : BufTy).Contents (Elt F)),
    unary main_v4 main_call3_v1 ((extractStridedSlice S2048x8 ![0, 0] · slices_S2048x4096_S2048x8_0_0) : (⟨S2048x4096, .f32⟩ : BufTy).Contents (Elt F) → (⟨S2048x8, .f32⟩ : BufTy).Contents (Elt F)),
    binary main_call3_v0 main_call3_v1 main_v32 ((Cert.Iswt.cat2 4088 8 concatenates_S2048x4088_S2048x8_S2048x4096_d1) : (⟨S2048x4088, .f32⟩ : BufTy).Contents (Elt F) → (⟨S2048x8, .f32⟩ : BufTy).Contents (Elt F) → (⟨S2048x4096, .f32⟩ : BufTy).Contents (Elt F)),
    unary main_v31 main_v33 (broadcastInDim S2048x4096 ![] bcast_S_S2048x4096 : (⟨S_, .f32⟩ : BufTy).Contents (Elt F) → (⟨S2048x4096, .f32⟩ : BufTy).Contents (Elt F)),
    binary main_v33 main_v32 main_v34 (mulf : (⟨S2048x4096, .f32⟩ : BufTy).Contents (Elt F) → (⟨S2048x4096, .f32⟩ : BufTy).Contents (Elt F) → (⟨S2048x4096, .f32⟩ : BufTy).Contents (Elt F)),
    binary main_v29 main_v34 main_v35 (addf : (⟨S2048x4096, .f32⟩ : BufTy).Contents (Elt F) → (⟨S2048x4096, .f32⟩ : BufTy).Contents (Elt F) → (⟨S2048x4096, .f32⟩ : BufTy).Contents (Elt F)),
    unary main_cst main_v36 ((extractStridedSlice S1 ![2] · slices_S8_S1_2) : (⟨S8, .f32⟩ : BufTy).Contents (Elt F) → (⟨S1, .f32⟩ : BufTy).Contents (Elt F)),
    reshape main_v36 main_v37 rfl shapeCasts_S1_S_,
    unary main_v2 main_call4_v0 ((extractStridedSlice S2048x4092 ![0, 4] · slices_S2048x4096_S2048x4092_0_4) : (⟨S2048x4096, .f32⟩ : BufTy).Contents (Elt F) → (⟨S2048x4092, .f32⟩ : BufTy).Contents (Elt F)),
    unary main_v2 main_call4_v1 ((extractStridedSlice S2048x4 ![0, 0] · slices_S2048x4096_S2048x4_0_0) : (⟨S2048x4096, .f32⟩ : BufTy).Contents (Elt F) → (⟨S2048x4, .f32⟩ : BufTy).Contents (Elt F)),
    binary main_call4_v0 main_call4_v1 main_v38 ((Cert.Iswt.cat2 4092 4 concatenates_S2048x4092_S2048x4_S2048x4096_d1) : (⟨S2048x4092, .f32⟩ : BufTy).Contents (Elt F) → (⟨S2048x4, .f32⟩ : BufTy).Contents (Elt F) → (⟨S2048x4096, .f32⟩ : BufTy).Contents (Elt F)),
    unary main_v37 main_v39 (broadcastInDim S2048x4096 ![] bcast_S_S2048x4096 : (⟨S_, .f32⟩ : BufTy).Contents (Elt F) → (⟨S2048x4096, .f32⟩ : BufTy).Contents (Elt F)),
    binary main_v39 main_v38 main_v40 (mulf : (⟨S2048x4096, .f32⟩ : BufTy).Contents (Elt F) → (⟨S2048x4096, .f32⟩ : BufTy).Contents (Elt F) → (⟨S2048x4096, .f32⟩ : BufTy).Contents (Elt F)),
    binary main_v35 main_v40 main_v41 (addf : (⟨S2048x4096, .f32⟩ : BufTy).Contents (Elt F) → (⟨S2048x4096, .f32⟩ : BufTy).Contents (Elt F) → (⟨S2048x4096, .f32⟩ : BufTy).Contents (Elt F)),
    unary main_v10 main_v42 ((extractStridedSlice S1 ![2] · slices_S8_S1_2) : (⟨S8, .f32⟩ : BufTy).Contents (Elt F) → (⟨S1, .f32⟩ : BufTy).Contents (Elt F)),
    reshape main_v42 main_v43 rfl shapeCasts_S1_S_,
    unary main_v4 main_call5_v0 ((extractStridedSlice S2048x4092 ![0, 4] · slices_S2048x4096_S2048x4092_0_4) : (⟨S2048x4096, .f32⟩ : BufTy).Contents (Elt F) → (⟨S2048x4092, .f32⟩ : BufTy).Contents (Elt F)),
    unary main_v4 main_call5_v1 ((extractStridedSlice S2048x4 ![0, 0] · slices_S2048x4096_S2048x4_0_0) : (⟨S2048x4096, .f32⟩ : BufTy).Contents (Elt F) → (⟨S2048x4, .f32⟩ : BufTy).Contents (Elt F)),
    binary main_call5_v0 main_call5_v1 main_v44 ((Cert.Iswt.cat2 4092 4 concatenates_S2048x4092_S2048x4_S2048x4096_d1) : (⟨S2048x4092, .f32⟩ : BufTy).Contents (Elt F) → (⟨S2048x4, .f32⟩ : BufTy).Contents (Elt F) → (⟨S2048x4096, .f32⟩ : BufTy).Contents (Elt F)),
    unary main_v43 main_v45 (broadcastInDim S2048x4096 ![] bcast_S_S2048x4096 : (⟨S_, .f32⟩ : BufTy).Contents (Elt F) → (⟨S2048x4096, .f32⟩ : BufTy).Contents (Elt F)),
    binary main_v45 main_v44 main_v46 (mulf : (⟨S2048x4096, .f32⟩ : BufTy).Contents (Elt F) → (⟨S2048x4096, .f32⟩ : BufTy).Contents (Elt F) → (⟨S2048x4096, .f32⟩ : BufTy).Contents (Elt F)),
    binary main_v41 main_v46 main_v47 (addf : (⟨S2048x4096, .f32⟩ : BufTy).Contents (Elt F) → (⟨S2048x4096, .f32⟩ : BufTy).Contents (Elt F) → (⟨S2048x4096, .f32⟩ : BufTy).Contents (Elt F)),
    unary main_cst main_v48 ((extractStridedSlice S1 ![3] · slices_S8_S1_3) : (⟨S8, .f32⟩ : BufTy).Contents (Elt F) → (⟨S1, .f32⟩ : BufTy).Contents (Elt F)),
    reshape main_v48 main_v49 rfl shapeCasts_S1_S_,
    unary main_v2 main_call6_v0 ((extractStridedSlice S2048x4096 ![0, 0] · slices_S2048x4096_S2048x4096_0_0) : (⟨S2048x4096, .f32⟩ : BufTy).Contents (Elt F) → (⟨S2048x4096, .f32⟩ : BufTy).Contents (Elt F)),
    unary main_v2 main_call6_v1 ((extractStridedSlice S2048x0 ![0, 0] · slices_S2048x4096_S2048x0_0_0) : (⟨S2048x4096, .f32⟩ : BufTy).Contents (Elt F) → (⟨S2048x0, .f32⟩ : BufTy).Contents (Elt F)),
    binary main_call6_v0 main_call6_v1 main_v50 ((Cert.Iswt.cat2 4096 0 concatenates_S2048x4096_S2048x0_S2048x4096_d1) : (⟨S2048x4096, .f32⟩ : BufTy).Contents (Elt F) → (⟨S2048x0, .f32⟩ : BufTy).Contents (Elt F) → (⟨S2048x4096, .f32⟩ : BufTy).Contents (Elt F)),
    unary main_v49 main_v51 (broadcastInDim S2048x4096 ![] bcast_S_S2048x4096 : (⟨S_, .f32⟩ : BufTy).Contents (Elt F) → (⟨S2048x4096, .f32⟩ : BufTy).Contents (Elt F)),
    binary main_v51 main_v50 main_v52 (mulf : (⟨S2048x4096, .f32⟩ : BufTy).Contents (Elt F) → (⟨S2048x4096, .f32⟩ : BufTy).Contents (Elt F) → (⟨S2048x4096, .f32⟩ : BufTy).Contents (Elt F)),
    binary main_v47 main_v52 main_v53 (addf : (⟨S2048x4096, .f32⟩ : BufTy).Contents (Elt F) → (⟨S2048x4096, .f32⟩ : BufTy).Contents (Elt F) → (⟨S2048x4096, .f32⟩ : BufTy).Contents (Elt F)),
    unary main_v10 main_v54 ((extractStridedSlice S1 ![3] · slices_S8_S1_3) : (⟨S8, .f32⟩ : BufTy).Contents (Elt F) → (⟨S1, .f32⟩ : BufTy).Contents (Elt F)),
    reshape main_v54 main_v55 rfl shapeCasts_S1_S_,
    unary main_v4 main_call7_v0 ((extractStridedSlice S2048x4096 ![0, 0] · slices_S2048x4096_S2048x4096_0_0) : (⟨S2048x4096, .f32⟩ : BufTy).Contents (Elt F) → (⟨S2048x4096, .f32⟩ : BufTy).Contents (Elt F)),
    unary main_v4 main_call7_v1 ((extractStridedSlice S2048x0 ![0, 0] · slices_S2048x4096_S2048x0_0_0) : (⟨S2048x4096, .f32⟩ : BufTy).Contents (Elt F) → (⟨S2048x0, .f32⟩ : BufTy).Contents (Elt F)),
    binary main_call7_v0 main_call7_v1 main_v56 ((Cert.Iswt.cat2 4096 0 concatenates_S2048x4096_S2048x0_S2048x4096_d1) : (⟨S2048x4096, .f32⟩ : BufTy).Contents (Elt F) → (⟨S2048x0, .f32⟩ : BufTy).Contents (Elt F) → (⟨S2048x4096, .f32⟩ : BufTy).Contents (Elt F)),
    unary main_v55 main_v57 (broadcastInDim S2048x4096 ![] bcast_S_S2048x4096 : (⟨S_, .f32⟩ : BufTy).Contents (Elt F) → (⟨S2048x4096, .f32⟩ : BufTy).Contents (Elt F)),
    binary main_v57 main_v56 main_v58 (mulf : (⟨S2048x4096, .f32⟩ : BufTy).Contents (Elt F) → (⟨S2048x4096, .f32⟩ : BufTy).Contents (Elt F) → (⟨S2048x4096, .f32⟩ : BufTy).Contents (Elt F)),
    binary main_v53 main_v58 main_v59 (addf : (⟨S2048x4096, .f32⟩ : BufTy).Contents (Elt F) → (⟨S2048x4096, .f32⟩ : BufTy).Contents (Elt F) → (⟨S2048x4096, .f32⟩ : BufTy).Contents (Elt F))
  ]

/-- @main's operations 80 … 146 of 413. -/
abbrev seg2 : List (HloOp τ sig (Elt F)) :=
  [
    unary main_cst main_v60 ((extractStridedSlice S1 ![4] · slices_S8_S1_4) : (⟨S8, .f32⟩ : BufTy).Contents (Elt F) → (⟨S1, .f32⟩ : BufTy).Contents (Elt F)),
    reshape main_v60 main_v61 rfl shapeCasts_S1_S_,
    unary main_v2 main_call8_v0 ((extractStridedSlice S2048x4 ![0, 4092] · slices_S2048x4096_S2048x4_0_4092) : (⟨S2048x4096, .f32⟩ : BufTy).Contents (Elt F) → (⟨S2048x4, .f32⟩ : BufTy).Contents (Elt F)),
    unary main_v2 main_call8_v1 ((extractStridedSlice S2048x4092 ![0, 0] · slices_S2048x4096_S2048x4092_0_0) : (⟨S2048x4096, .f32⟩ : BufTy).Contents (Elt F) → (⟨S2048x4092, .f32⟩ : BufTy).Contents (Elt F)),
    binary main_call8_v0 main_call8_v1 main_v62 ((Cert.Iswt.cat2 4 4092 concatenates_S2048x4_S2048x4092_S2048x4096_d1) : (⟨S2048x4, .f32⟩ : BufTy).Contents (Elt F) → (⟨S2048x4092, .f32⟩ : BufTy).Contents (Elt F) → (⟨S2048x4096, .f32⟩ : BufTy).Contents (Elt F)),
    unary main_v61 main_v63 (broadcastInDim S2048x4096 ![] bcast_S_S2048x4096 : (⟨S_, .f32⟩ : BufTy).Contents (Elt F) → (⟨S2048x4096, .f32⟩ : BufTy).Contents (Elt F)),
    binary main_v63 main_v62 main_v64 (mulf : (⟨S2048x4096, .f32⟩ : BufTy).Contents (Elt F) → (⟨S2048x4096, .f32⟩ : BufTy).Contents (Elt F) → (⟨S2048x4096, .f32⟩ : BufTy).Contents (Elt F)),
    binary main_v59 main_v64 main_v65 (addf : (⟨S2048x4096, .f32⟩ : BufTy).Contents (Elt F) → (⟨S2048x4096, .f32⟩ : BufTy).Contents (Elt F) → (⟨S2048x4096, .f32⟩ : BufTy).Contents (Elt F)),
    unary main_v10 main_v66 ((extractStridedSlice S1 ![4] · slices_S8_S1_4) : (⟨S8, .f32⟩ : BufTy).Contents (Elt F) → (⟨S1, .f32⟩ : BufTy).Contents (Elt F)),
    reshape main_v66 main_v67 rfl shapeCasts_S1_S_,
    unary main_v4 main_call9_v0 ((extractStridedSlice S2048x4 ![0, 4092] · slices_S2048x4096_S2048x4_0_4092) : (⟨S2048x4096, .f32⟩ : BufTy).Contents (Elt F) → (⟨S2048x4, .f32⟩ : BufTy).Contents (Elt F)),
    unary main_v4 main_call9_v1 ((extractStridedSlice S2048x4092 ![0, 0] · slices_S2048x4096_S2048x4092_0_0) : (⟨S2048x4096, .f32⟩ : BufTy).Contents (Elt F) → (⟨S2048x4092, .f32⟩ : BufTy).Contents (Elt F)),
    binary main_call9_v0 main_call9_v1 main_v68 ((Cert.Iswt.cat2 4 4092 concatenates_S2048x4_S2048x4092_S2048x4096_d1) : (⟨S2048x4, .f32⟩ : BufTy).Contents (Elt F) → (⟨S2048x4092, .f32⟩ : BufTy).Contents (Elt F) → (⟨S2048x4096, .f32⟩ : BufTy).Contents (Elt F)),
    unary main_v67 main_v69 (broadcastInDim S2048x4096 ![] bcast_S_S2048x4096 : (⟨S_, .f32⟩ : BufTy).Contents (Elt F) → (⟨S2048x4096, .f32⟩ : BufTy).Contents (Elt F)),
    binary main_v69 main_v68 main_v70 (mulf : (⟨S2048x4096, .f32⟩ : BufTy).Contents (Elt F) → (⟨S2048x4096, .f32⟩ : BufTy).Contents (Elt F) → (⟨S2048x4096, .f32⟩ : BufTy).Contents (Elt F)),
    binary main_v65 main_v70 main_v71 (addf : (⟨S2048x4096, .f32⟩ : BufTy).Contents (Elt F) → (⟨S2048x4096, .f32⟩ : BufTy).Contents (Elt F) → (⟨S2048x4096, .f32⟩ : BufTy).Contents (Elt F)),
    unary main_cst main_v72 ((extractStridedSlice S1 ![5] · slices_S8_S1_5) : (⟨S8, .f32⟩ : BufTy).Contents (Elt F) → (⟨S1, .f32⟩ : BufTy).Contents (Elt F)),
    reshape main_v72 main_v73 rfl shapeCasts_S1_S_,
    unary main_v2 main_call10_v0 ((extractStridedSlice S2048x8 ![0, 4088] · slices_S2048x4096_S2048x8_0_4088) : (⟨S2048x4096, .f32⟩ : BufTy).Contents (Elt F) → (⟨S2048x8, .f32⟩ : BufTy).Contents (Elt F)),
    unary main_v2 main_call10_v1 ((extractStridedSlice S2048x4088 ![0, 0] · slices_S2048x4096_S2048x4088_0_0) : (⟨S2048x4096, .f32⟩ : BufTy).Contents (Elt F) → (⟨S2048x4088, .f32⟩ : BufTy).Contents (Elt F)),
    binary main_call10_v0 main_call10_v1 main_v74 ((Cert.Iswt.cat2 8 4088 concatenates_S2048x8_S2048x4088_S2048x4096_d1) : (⟨S2048x8, .f32⟩ : BufTy).Contents (Elt F) → (⟨S2048x4088, .f32⟩ : BufTy).Contents (Elt F) → (⟨S2048x4096, .f32⟩ : BufTy).Contents (Elt F)),
    unary main_v73 main_v75 (broadcastInDim S2048x4096 ![] bcast_S_S2048x4096 : (⟨S_, .f32⟩ : BufTy).Contents (Elt F) → (⟨S2048x4096, .f32⟩ : BufTy).Contents (Elt F)),
    binary main_v75 main_v74 main_v76 (mulf : (⟨S2048x4096, .f32⟩ : BufTy).Contents (Elt F) → (⟨S2048x4096, .f32⟩ : BufTy).Contents (Elt F) → (⟨S2048x4096, .f32⟩ : BufTy).Contents (Elt F)),
    binary main_v71 main_v76 main_v77 (addf : (⟨S2048x4096, .f32⟩ : BufTy).Contents (Elt F) → (⟨S2048x4096, .f32⟩ : BufTy).Contents (Elt F) → (⟨S2048x4096, .f32⟩ : BufTy).Contents (Elt F)),
    unary main_v10 main_v78 ((extractStridedSlice S1 ![5] · slices_S8_S1_5) : (⟨S8, .f32⟩ : BufTy).Contents (Elt F) → (⟨S1, .f32⟩ : BufTy).Contents (Elt F)),
    reshape main_v78 main_v79 rfl shapeCasts_S1_S_,
    unary main_v4 main_call11_v0 ((extractStridedSlice S2048x8 ![0, 4088] · slices_S2048x4096_S2048x8_0_4088) : (⟨S2048x4096, .f32⟩ : BufTy).Contents (Elt F) → (⟨S2048x8, .f32⟩ : BufTy).Contents (Elt F)),
    unary main_v4 main_call11_v1 ((extractStridedSlice S2048x4088 ![0, 0] · slices_S2048x4096_S2048x4088_0_0) : (⟨S2048x4096, .f32⟩ : BufTy).Contents (Elt F) → (⟨S2048x4088, .f32⟩ : BufTy).Contents (Elt F)),
    binary main_call11_v0 main_call11_v1 main_v80 ((Cert.Iswt.cat2 8 4088 concatenates_S2048x8_S2048x4088_S2048x4096_d1) : (⟨S2048x8, .f32⟩ : BufTy).Contents (Elt F) → (⟨S2048x4088, .f32⟩ : BufTy).Contents (Elt F) → (⟨S2048x4096, .f32⟩ : BufTy).Contents (Elt F)),
    unary main_v79 main_v81 (broadcastInDim S2048x4096 ![] bcast_S_S2048x4096 : (⟨S_, .f32⟩ : BufTy).Contents (Elt F) → (⟨S2048x4096, .f32⟩ : BufTy).Contents (Elt F)),
    binary main_v81 main_v80 main_v82 (mulf : (⟨S2048x4096, .f32⟩ : BufTy).Contents (Elt F) → (⟨S2048x4096, .f32⟩ : BufTy).Contents (Elt F) → (⟨S2048x4096, .f32⟩ : BufTy).Contents (Elt F)),
    binary main_v77 main_v82 main_v83 (addf : (⟨S2048x4096, .f32⟩ : BufTy).Contents (Elt F) → (⟨S2048x4096, .f32⟩ : BufTy).Contents (Elt F) → (⟨S2048x4096, .f32⟩ : BufTy).Contents (Elt F)),
    unary main_cst main_v84 ((extractStridedSlice S1 ![6] · slices_S8_S1_6) : (⟨S8, .f32⟩ : BufTy).Contents (Elt F) → (⟨S1, .f32⟩ : BufTy).Contents (Elt F)),
    reshape main_v84 main_v85 rfl shapeCasts_S1_S_,
    unary main_v2 main_call12_v0 ((extractStridedSlice S2048x12 ![0, 4084] · slices_S2048x4096_S2048x12_0_4084) : (⟨S2048x4096, .f32⟩ : BufTy).Contents (Elt F) → (⟨S2048x12, .f32⟩ : BufTy).Contents (Elt F)),
    unary main_v2 main_call12_v1 ((extractStridedSlice S2048x4084 ![0, 0] · slices_S2048x4096_S2048x4084_0_0) : (⟨S2048x4096, .f32⟩ : BufTy).Contents (Elt F) → (⟨S2048x4084, .f32⟩ : BufTy).Contents (Elt F)),
    binary main_call12_v0 main_call12_v1 main_v86 ((Cert.Iswt.cat2 12 4084 concatenates_S2048x12_S2048x4084_S2048x4096_d1) : (⟨S2048x12, .f32⟩ : BufTy).Contents (Elt F) → (⟨S2048x4084, .f32⟩ : BufTy).Contents (Elt F) → (⟨S2048x4096, .f32⟩ : BufTy).Contents (Elt F)),
    unary main_v85 main_v87 (broadcastInDim S2048x4096 ![] bcast_S_S2048x4096 : (⟨S_, .f32⟩ : BufTy).Contents (Elt F) → (⟨S2048x4096, .f32⟩ : BufTy).Contents (Elt F)),
    binary main_v87 main_v86 main_v88 (mulf : (⟨S2048x4096, .f32⟩ : BufTy).Contents (Elt F) → (⟨S2048x4096, .f32⟩ : BufTy).Contents (Elt F) → (⟨S2048x4096, .f32⟩ : BufTy).Contents (Elt F)),
    binary main_v83 main_v88 main_v89 (addf : (⟨S2048x4096, .f32⟩ : BufTy).Contents (Elt F) → (⟨S2048x4096, .f32⟩ : BufTy).Contents (Elt F) → (⟨S2048x4096, .f32⟩ : BufTy).Contents (Elt F)),
    unary main_v10 main_v90 ((extractStridedSlice S1 ![6] · slices_S8_S1_6) : (⟨S8, .f32⟩ : BufTy).Contents (Elt F) → (⟨S1, .f32⟩ : BufTy).Contents (Elt F)),
    reshape main_v90 main_v91 rfl shapeCasts_S1_S_,
    unary main_v4 main_call13_v0 ((extractStridedSlice S2048x12 ![0, 4084] · slices_S2048x4096_S2048x12_0_4084) : (⟨S2048x4096, .f32⟩ : BufTy).Contents (Elt F) → (⟨S2048x12, .f32⟩ : BufTy).Contents (Elt F)),
    unary main_v4 main_call13_v1 ((extractStridedSlice S2048x4084 ![0, 0] · slices_S2048x4096_S2048x4084_0_0) : (⟨S2048x4096, .f32⟩ : BufTy).Contents (Elt F) → (⟨S2048x4084, .f32⟩ : BufTy).Contents (Elt F)),
    binary main_call13_v0 main_call13_v1 main_v92 ((Cert.Iswt.cat2 12 4084 concatenates_S2048x12_S2048x4084_S2048x4096_d1) : (⟨S2048x12, .f32⟩ : BufTy).Contents (Elt F) → (⟨S2048x4084, .f32⟩ : BufTy).Contents (Elt F) → (⟨S2048x4096, .f32⟩ : BufTy).Contents (Elt F)),
    unary main_v91 main_v93 (broadcastInDim S2048x4096 ![] bcast_S_S2048x4096 : (⟨S_, .f32⟩ : BufTy).Contents (Elt F) → (⟨S2048x4096, .f32⟩ : BufTy).Contents (Elt F)),
    binary main_v93 main_v92 main_v94 (mulf : (⟨S2048x4096, .f32⟩ : BufTy).Contents (Elt F) → (⟨S2048x4096, .f32⟩ : BufTy).Contents (Elt F) → (⟨S2048x4096, .f32⟩ : BufTy).Contents (Elt F)),
    binary main_v89 main_v94 main_v95 (addf : (⟨S2048x4096, .f32⟩ : BufTy).Contents (Elt F) → (⟨S2048x4096, .f32⟩ : BufTy).Contents (Elt F) → (⟨S2048x4096, .f32⟩ : BufTy).Contents (Elt F)),
    unary main_cst main_v96 ((extractStridedSlice S1 ![7] · slices_S8_S1_7) : (⟨S8, .f32⟩ : BufTy).Contents (Elt F) → (⟨S1, .f32⟩ : BufTy).Contents (Elt F)),
    reshape main_v96 main_v97 rfl shapeCasts_S1_S_,
    unary main_v2 main_call14_v0 ((extractStridedSlice S2048x16 ![0, 4080] · slices_S2048x4096_S2048x16_0_4080) : (⟨S2048x4096, .f32⟩ : BufTy).Contents (Elt F) → (⟨S2048x16, .f32⟩ : BufTy).Contents (Elt F)),
    unary main_v2 main_call14_v1 ((extractStridedSlice S2048x4080 ![0, 0] · slices_S2048x4096_S2048x4080_0_0) : (⟨S2048x4096, .f32⟩ : BufTy).Contents (Elt F) → (⟨S2048x4080, .f32⟩ : BufTy).Contents (Elt F)),
    binary main_call14_v0 main_call14_v1 main_v98 ((Cert.Iswt.cat2 16 4080 concatenates_S2048x16_S2048x4080_S2048x4096_d1) : (⟨S2048x16, .f32⟩ : BufTy).Contents (Elt F) → (⟨S2048x4080, .f32⟩ : BufTy).Contents (Elt F) → (⟨S2048x4096, .f32⟩ : BufTy).Contents (Elt F)),
    unary main_v97 main_v99 (broadcastInDim S2048x4096 ![] bcast_S_S2048x4096 : (⟨S_, .f32⟩ : BufTy).Contents (Elt F) → (⟨S2048x4096, .f32⟩ : BufTy).Contents (Elt F)),
    binary main_v99 main_v98 main_v100 (mulf : (⟨S2048x4096, .f32⟩ : BufTy).Contents (Elt F) → (⟨S2048x4096, .f32⟩ : BufTy).Contents (Elt F) → (⟨S2048x4096, .f32⟩ : BufTy).Contents (Elt F)),
    binary main_v95 main_v100 main_v101 (addf : (⟨S2048x4096, .f32⟩ : BufTy).Contents (Elt F) → (⟨S2048x4096, .f32⟩ : BufTy).Contents (Elt F) → (⟨S2048x4096, .f32⟩ : BufTy).Contents (Elt F)),
    unary main_v10 main_v102 ((extractStridedSlice S1 ![7] · slices_S8_S1_7) : (⟨S8, .f32⟩ : BufTy).Contents (Elt F) → (⟨S1, .f32⟩ : BufTy).Contents (Elt F)),
    reshape main_v102 main_v103 rfl shapeCasts_S1_S_,
    unary main_v4 main_call15_v0 ((extractStridedSlice S2048x16 ![0, 4080] · slices_S2048x4096_S2048x16_0_4080) : (⟨S2048x4096, .f32⟩ : BufTy).Contents (Elt F) → (⟨S2048x16, .f32⟩ : BufTy).Contents (Elt F)),
    unary main_v4 main_call15_v1 ((extractStridedSlice S2048x4080 ![0, 0] · slices_S2048x4096_S2048x4080_0_0) : (⟨S2048x4096, .f32⟩ : BufTy).Contents (Elt F) → (⟨S2048x4080, .f32⟩ : BufTy).Contents (Elt F)),
    binary main_call15_v0 main_call15_v1 main_v104 ((Cert.Iswt.cat2 16 4080 concatenates_S2048x16_S2048x4080_S2048x4096_d1) : (⟨S2048x16, .f32⟩ : BufTy).Contents (Elt F) → (⟨S2048x4080, .f32⟩ : BufTy).Contents (Elt F) → (⟨S2048x4096, .f32⟩ : BufTy).Contents (Elt F)),
    unary main_v103 main_v105 (broadcastInDim S2048x4096 ![] bcast_S_S2048x4096 : (⟨S_, .f32⟩ : BufTy).Contents (Elt F) → (⟨S2048x4096, .f32⟩ : BufTy).Contents (Elt F)),
    binary main_v105 main_v104 main_v106 (mulf : (⟨S2048x4096, .f32⟩ : BufTy).Contents (Elt F) → (⟨S2048x4096, .f32⟩ : BufTy).Contents (Elt F) → (⟨S2048x4096, .f32⟩ : BufTy).Contents (Elt F)),
    binary main_v101 main_v106 main_v107 (addf : (⟨S2048x4096, .f32⟩ : BufTy).Contents (Elt F) → (⟨S2048x4096, .f32⟩ : BufTy).Contents (Elt F) → (⟨S2048x4096, .f32⟩ : BufTy).Contents (Elt F)),
    nullary main_cst_2 (constant S_ .f32 0x3F000000#32),
    unary main_cst_2 main_v108 (broadcastInDim S2048x4096 ![] bcast_S_S2048x4096 : (⟨S_, .f32⟩ : BufTy).Contents (Elt F) → (⟨S2048x4096, .f32⟩ : BufTy).Contents (Elt F)),
    binary main_v108 main_v107 main_v109 (mulf : (⟨S2048x4096, .f32⟩ : BufTy).Contents (Elt F) → (⟨S2048x4096, .f32⟩ : BufTy).Contents (Elt F) → (⟨S2048x4096, .f32⟩ : BufTy).Contents (Elt F))
  ]

/-- @main's operations 147 … 212 of 413. -/
abbrev seg3 : List (HloOp τ sig (Elt F)) :=
  [
    nullary main_cst_3 (constant S_ .f32 0x00000000#32),
    unary main_cst_3 main_v110 (broadcastInDim S2048x4096 ![] bcast_S_S2048x4096 : (⟨S_, .f32⟩ : BufTy).Contents (Elt F) → (⟨S2048x4096, .f32⟩ : BufTy).Contents (Elt F)),
    unary main_cst main_v111 ((extractStridedSlice S1 ![0] · slices_S8_S1_0) : (⟨S8, .f32⟩ : BufTy).Contents (Elt F) → (⟨S1, .f32⟩ : BufTy).Contents (Elt F)),
    reshape main_v111 main_v112 rfl shapeCasts_S1_S_,
    unary main_v109 main_call16_v0 ((extractStridedSlice S2048x4090 ![0, 6] · slices_S2048x4096_S2048x4090_0_6) : (⟨S2048x4096, .f32⟩ : BufTy).Contents (Elt F) → (⟨S2048x4090, .f32⟩ : BufTy).Contents (Elt F)),
    unary main_v109 main_call16_v1 ((extractStridedSlice S2048x6 ![0, 0] · slices_S2048x4096_S2048x6_0_0) : (⟨S2048x4096, .f32⟩ : BufTy).Contents (Elt F) → (⟨S2048x6, .f32⟩ : BufTy).Contents (Elt F)),
    binary main_call16_v0 main_call16_v1 main_v113 ((Cert.Iswt.cat2 4090 6 concatenates_S2048x4090_S2048x6_S2048x4096_d1) : (⟨S2048x4090, .f32⟩ : BufTy).Contents (Elt F) → (⟨S2048x6, .f32⟩ : BufTy).Contents (Elt F) → (⟨S2048x4096, .f32⟩ : BufTy).Contents (Elt F)),
    unary main_v112 main_v114 (broadcastInDim S2048x4096 ![] bcast_S_S2048x4096 : (⟨S_, .f32⟩ : BufTy).Contents (Elt F) → (⟨S2048x4096, .f32⟩ : BufTy).Contents (Elt F)),
    binary main_v114 main_v113 main_v115 (mulf : (⟨S2048x4096, .f32⟩ : BufTy).Contents (Elt F) → (⟨S2048x4096, .f32⟩ : BufTy).Contents (Elt F) → (⟨S2048x4096, .f32⟩ : BufTy).Contents (Elt F)),
    binary main_v110 main_v115 main_v116 (addf : (⟨S2048x4096, .f32⟩ : BufTy).Contents (Elt F) → (⟨S2048x4096, .f32⟩ : BufTy).Contents (Elt F) → (⟨S2048x4096, .f32⟩ : BufTy).Contents (Elt F)),
    unary main_v10 main_v117 ((extractStridedSlice S1 ![0] · slices_S8_S1_0) : (⟨S8, .f32⟩ : BufTy).Contents (Elt F) → (⟨S1, .f32⟩ : BufTy).Contents (Elt F)),
    reshape main_v117 main_v118 rfl shapeCasts_S1_S_,
    unary main_v6 main_call17_v0 ((extractStridedSlice S2048x4090 ![0, 6] · slices_S2048x4096_S2048x4090_0_6) : (⟨S2048x4096, .f32⟩ : BufTy).Contents (Elt F) → (⟨S2048x4090, .f32⟩ : BufTy).Contents (Elt F)),
    unary main_v6 main_call17_v1 ((extractStridedSlice S2048x6 ![0, 0] · slices_S2048x4096_S2048x6_0_0) : (⟨S2048x4096, .f32⟩ : BufTy).Contents (Elt F) → (⟨S2048x6, .f32⟩ : BufTy).Contents (Elt F)),
    binary main_call17_v0 main_call17_v1 main_v119 ((Cert.Iswt.cat2 4090 6 concatenates_S2048x4090_S2048x6_S2048x4096_d1) : (⟨S2048x4090, .f32⟩ : BufTy).Contents (Elt F) → (⟨S2048x6, .f32⟩ : BufTy).Contents (Elt F) → (⟨S2048x4096, .f32⟩ : BufTy).Contents (Elt F)),
    unary main_v118 main_v120 (broadcastInDim S2048x4096 ![] bcast_S_S2048x4096 : (⟨S_, .f32⟩ : BufTy).Contents (Elt F) → (⟨S2048x4096, .f32⟩ : BufTy).Contents (Elt F)),
    binary main_v120 main_v119 main_v121 (mulf : (⟨S2048x4096, .f32⟩ : BufTy).Contents (Elt F) → (⟨S2048x4096, .f32⟩ : BufTy).Contents (Elt F) → (⟨S2048x4096, .f32⟩ : BufTy).Contents (Elt F)),
    binary main_v116 main_v121 main_v122 (addf : (⟨S2048x4096, .f32⟩ : BufTy).Contents (Elt F) → (⟨S2048x4096, .f32⟩ : BufTy).Contents (Elt F) → (⟨S2048x4096, .f32⟩ : BufTy).Contents (Elt F)),
    unary main_cst main_v123 ((extractStridedSlice S1 ![1] · slices_S8_S1_1) : (⟨S8, .f32⟩ : BufTy).Contents (Elt F) → (⟨S1, .f32⟩ : BufTy).Contents (Elt F)),
    reshape main_v123 main_v124 rfl shapeCasts_S1_S_,
    unary main_v109 main_call18_v0 ((extractStridedSlice S2048x4092 ![0, 4] · slices_S2048x4096_S2048x4092_0_4) : (⟨S2048x4096, .f32⟩ : BufTy).Contents (Elt F) → (⟨S2048x4092, .f32⟩ : BufTy).Contents (Elt F)),
    unary main_v109 main_call18_v1 ((extractStridedSlice S2048x4 ![0, 0] · slices_S2048x4096_S2048x4_0_0) : (⟨S2048x4096, .f32⟩ : BufTy).Contents (Elt F) → (⟨S2048x4, .f32⟩ : BufTy).Contents (Elt F)),
    binary main_call18_v0 main_call18_v1 main_v125 ((Cert.Iswt.cat2 4092 4 concatenates_S2048x4092_S2048x4_S2048x4096_d1) : (⟨S2048x4092, .f32⟩ : BufTy).Contents (Elt F) → (⟨S2048x4, .f32⟩ : BufTy).Contents (Elt F) → (⟨S2048x4096, .f32⟩ : BufTy).Contents (Elt F)),
    unary main_v124 main_v126 (broadcastInDim S2048x4096 ![] bcast_S_S2048x4096 : (⟨S_, .f32⟩ : BufTy).Contents (Elt F) → (⟨S2048x4096, .f32⟩ : BufTy).Contents (Elt F)),
    binary main_v126 main_v125 main_v127 (mulf : (⟨S2048x4096, .f32⟩ : BufTy).Contents (Elt F) → (⟨S2048x4096, .f32⟩ : BufTy).Contents (Elt F) → (⟨S2048x4096, .f32⟩ : BufTy).Contents (Elt F)),
    binary main_v122 main_v127 main_v128 (addf : (⟨S2048x4096, .f32⟩ : BufTy).Contents (Elt F) → (⟨S2048x4096, .f32⟩ : BufTy).Contents (Elt F) → (⟨S2048x4096, .f32⟩ : BufTy).Contents (Elt F)),
    unary main_v10 main_v129 ((extractStridedSlice S1 ![1] · slices_S8_S1_1) : (⟨S8, .f32⟩ : BufTy).Contents (Elt F) → (⟨S1, .f32⟩ : BufTy).Contents (Elt F)),
    reshape main_v129 main_v130 rfl shapeCasts_S1_S_,
    unary main_v6 main_call19_v0 ((extractStridedSlice S2048x4092 ![0, 4] · slices_S2048x4096_S2048x4092_0_4) : (⟨S2048x4096, .f32⟩ : BufTy).Contents (Elt F) → (⟨S2048x4092, .f32⟩ : BufTy).Contents (Elt F)),
    unary main_v6 main_call19_v1 ((extractStridedSlice S2048x4 ![0, 0] · slices_S2048x4096_S2048x4_0_0) : (⟨S2048x4096, .f32⟩ : BufTy).Contents (Elt F) → (⟨S2048x4, .f32⟩ : BufTy).Contents (Elt F)),
    binary main_call19_v0 main_call19_v1 main_v131 ((Cert.Iswt.cat2 4092 4 concatenates_S2048x4092_S2048x4_S2048x4096_d1) : (⟨S2048x4092, .f32⟩ : BufTy).Contents (Elt F) → (⟨S2048x4, .f32⟩ : BufTy).Contents (Elt F) → (⟨S2048x4096, .f32⟩ : BufTy).Contents (Elt F)),
    unary main_v130 main_v132 (broadcastInDim S2048x4096 ![] bcast_S_S2048x4096 : (⟨S_, .f32⟩ : BufTy).Contents (Elt F) → (⟨S2048x4096, .f32⟩ : BufTy).Contents (Elt F)),
    binary main_v132 main_v131 main_v133 (mulf : (⟨S2048x4096, .f32⟩ : BufTy).Contents (Elt F) → (⟨S2048x4096, .f32⟩ : BufTy).Contents (Elt F) → (⟨S2048x4096, .f32⟩ : BufTy).Contents (Elt F)),
    binary main_v128 main_v133 main_v134 (addf : (⟨S2048x4096, .f32⟩ : BufTy).Contents (Elt F) → (⟨S2048x4096, .f32⟩ : BufTy).Contents (Elt F) → (⟨S2048x4096, .f32⟩ : BufTy).Contents (Elt F)),
    unary main_cst main_v135 ((extractStridedSlice S1 ![2] · slices_S8_S1_2) : (⟨S8, .f32⟩ : BufTy).Contents (Elt F) → (⟨S1, .f32⟩ : BufTy).Contents (Elt F)),
    reshape main_v135 main_v136 rfl shapeCasts_S1_S_,
    unary main_v109 main_call20_v0 ((extractStridedSlice S2048x4094 ![0, 2] · slices_S2048x4096_S2048x4094_0_2) : (⟨S2048x4096, .f32⟩ : BufTy).Contents (Elt F) → (⟨S2048x4094, .f32⟩ : BufTy).Contents (Elt F)),
    unary main_v109 main_call20_v1 ((extractStridedSlice S2048x2 ![0, 0] · slices_S2048x4096_S2048x2_0_0) : (⟨S2048x4096, .f32⟩ : BufTy).Contents (Elt F) → (⟨S2048x2, .f32⟩ : BufTy).Contents (Elt F)),
    binary main_call20_v0 main_call20_v1 main_v137 ((Cert.Iswt.cat2 4094 2 concatenates_S2048x4094_S2048x2_S2048x4096_d1) : (⟨S2048x4094, .f32⟩ : BufTy).Contents (Elt F) → (⟨S2048x2, .f32⟩ : BufTy).Contents (Elt F) → (⟨S2048x4096, .f32⟩ : BufTy).Contents (Elt F)),
    unary main_v136 main_v138 (broadcastInDim S2048x4096 ![] bcast_S_S2048x4096 : (⟨S_, .f32⟩ : BufTy).Contents (Elt F) → (⟨S2048x4096, .f32⟩ : BufTy).Contents (Elt F)),
    binary main_v138 main_v137 main_v139 (mulf : (⟨S2048x4096, .f32⟩ : BufTy).Contents (Elt F) → (⟨S2048x4096, .f32⟩ : BufTy).Contents (Elt F) → (⟨S2048x4096, .f32⟩ : BufTy).Contents (Elt F)),
    binary main_v134 main_v139 main_v140 (addf : (⟨S2048x4096, .f32⟩ : BufTy).Contents (Elt F) → (⟨S2048x4096, .f32⟩ : BufTy).Contents (Elt F) → (⟨S2048x4096, .f32⟩ : BufTy).Contents (Elt F)),
    unary main_v10 main_v141 ((extractStridedSlice S1 ![2] · slices_S8_S1_2) : (⟨S8, .f32⟩ : BufTy).Contents (Elt F) → (⟨S1, .f32⟩ : BufTy).Contents (Elt F)),
    reshape main_v141 main_v142 rfl shapeCasts_S1_S_,
    unary main_v6 main_call21_v0 ((extractStridedSlice S2048x4094 ![0, 2] · slices_S2048x4096_S2048x4094_0_2) : (⟨S2048x4096, .f32⟩ : BufTy).Contents (Elt F) → (⟨S2048x4094, .f32⟩ : BufTy).Contents (Elt F)),
    unary main_v6 main_call21_v1 ((extractStridedSlice S2048x2 ![0, 0] · slices_S2048x4096_S2048x2_0_0) : (⟨S2048x4096, .f32⟩ : BufTy).Contents (Elt F) → (⟨S2048x2, .f32⟩ : BufTy).Contents (Elt F)),
    binary main_call21_v0 main_call21_v1 main_v143 ((Cert.Iswt.cat2 4094 2 concatenates_S2048x4094_S2048x2_S2048x4096_d1) : (⟨S2048x4094, .f32⟩ : BufTy).Contents (Elt F) → (⟨S2048x2, .f32⟩ : BufTy).Contents (Elt F) → (⟨S2048x4096, .f32⟩ : BufTy).Contents (Elt F)),
    unary main_v142 main_v144 (broadcastInDim S2048x4096 ![] bcast_S_S2048x4096 : (⟨S_, .f32⟩ : BufTy).Contents (Elt F) → (⟨S2048x4096, .f32⟩ : BufTy).Contents (Elt F)),
    binary main_v144 main_v143 main_v145 (mulf : (⟨S2048x4096, .f32⟩ : BufTy).Contents (Elt F) → (⟨S2048x4096, .f32⟩ : BufTy).Contents (Elt F) → (⟨S2048x4096, .f32⟩ : BufTy).Contents (Elt F)),
    binary main_v140 main_v145 main_v146 (addf : (⟨S2048x4096, .f32⟩ : BufTy).Contents (Elt F) → (⟨S2048x4096, .f32⟩ : BufTy).Contents (Elt F) → (⟨S2048x4096, .f32⟩ : BufTy).Contents (Elt F)),
    unary main_cst main_v147 ((extractStridedSlice S1 ![3] · slices_S8_S1_3) : (⟨S8, .f32⟩ : BufTy).Contents (Elt F) → (⟨S1, .f32⟩ : BufTy).Contents (Elt F)),
    reshape main_v147 main_v148 rfl shapeCasts_S1_S_,
    unary main_v109 main_call22_v0 ((extractStridedSlice S2048x4096 ![0, 0] · slices_S2048x4096_S2048x4096_0_0) : (⟨S2048x4096, .f32⟩ : BufTy).Contents (Elt F) → (⟨S2048x4096, .f32⟩ : BufTy).Contents (Elt F)),
    unary main_v109 main_call22_v1 ((extractStridedSlice S2048x0 ![0, 0] · slices_S2048x4096_S2048x0_0_0) : (⟨S2048x4096, .f32⟩ : BufTy).Contents (Elt F) → (⟨S2048x0, .f32⟩ : BufTy).Contents (Elt F)),
    binary main_call22_v0 main_call22_v1 main_v149 ((Cert.Iswt.cat2 4096 0 concatenates_S2048x4096_S2048x0_S2048x4096_d1) : (⟨S2048x4096, .f32⟩ : BufTy).Contents (Elt F) → (⟨S2048x0, .f32⟩ : BufTy).Contents (Elt F) → (⟨S2048x4096, .f32⟩ : BufTy).Contents (Elt F)),
    unary main_v148 main_v150 (broadcastInDim S2048x4096 ![] bcast_S_S2048x4096 : (⟨S_, .f32⟩ : BufTy).Contents (Elt F) → (⟨S2048x4096, .f32⟩ : BufTy).Contents (Elt F)),
    binary main_v150 main_v149 main_v151 (mulf : (⟨S2048x4096, .f32⟩ : BufTy).Contents (Elt F) → (⟨S2048x4096, .f32⟩ : BufTy).Contents (Elt F) → (⟨S2048x4096, .f32⟩ : BufTy).Contents (Elt F)),
    binary main_v146 main_v151 main_v152 (addf : (⟨S2048x4096, .f32⟩ : BufTy).Contents (Elt F) → (⟨S2048x4096, .f32⟩ : BufTy).Contents (Elt F) → (⟨S2048x4096, .f32⟩ : BufTy).Contents (Elt F)),
    unary main_v10 main_v153 ((extractStridedSlice S1 ![3] · slices_S8_S1_3) : (⟨S8, .f32⟩ : BufTy).Contents (Elt F) → (⟨S1, .f32⟩ : BufTy).Contents (Elt F)),
    reshape main_v153 main_v154 rfl shapeCasts_S1_S_,
    unary main_v6 main_call23_v0 ((extractStridedSlice S2048x4096 ![0, 0] · slices_S2048x4096_S2048x4096_0_0) : (⟨S2048x4096, .f32⟩ : BufTy).Contents (Elt F) → (⟨S2048x4096, .f32⟩ : BufTy).Contents (Elt F)),
    unary main_v6 main_call23_v1 ((extractStridedSlice S2048x0 ![0, 0] · slices_S2048x4096_S2048x0_0_0) : (⟨S2048x4096, .f32⟩ : BufTy).Contents (Elt F) → (⟨S2048x0, .f32⟩ : BufTy).Contents (Elt F)),
    binary main_call23_v0 main_call23_v1 main_v155 ((Cert.Iswt.cat2 4096 0 concatenates_S2048x4096_S2048x0_S2048x4096_d1) : (⟨S2048x4096, .f32⟩ : BufTy).Contents (Elt F) → (⟨S2048x0, .f32⟩ : BufTy).Contents (Elt F) → (⟨S2048x4096, .f32⟩ : BufTy).Contents (Elt F)),
    unary main_v154 main_v156 (broadcastInDim S2048x4096 ![] bcast_S_S2048x4096 : (⟨S_, .f32⟩ : BufTy).Contents (Elt F) → (⟨S2048x4096, .f32⟩ : BufTy).Contents (Elt F)),
    binary main_v156 main_v155 main_v157 (mulf : (⟨S2048x4096, .f32⟩ : BufTy).Contents (Elt F) → (⟨S2048x4096, .f32⟩ : BufTy).Contents (Elt F) → (⟨S2048x4096, .f32⟩ : BufTy).Contents (Elt F)),
    binary main_v152 main_v157 main_v158 (addf : (⟨S2048x4096, .f32⟩ : BufTy).Contents (Elt F) → (⟨S2048x4096, .f32⟩ : BufTy).Contents (Elt F) → (⟨S2048x4096, .f32⟩ : BufTy).Contents (Elt F))
  ]

/-- @main's operations 213 … 279 of 413. -/
abbrev seg4 : List (HloOp τ sig (Elt F)) :=
  [
    unary main_cst main_v159 ((extractStridedSlice S1 ![4] · slices_S8_S1_4) : (⟨S8, .f32⟩ : BufTy).Contents (Elt F) → (⟨S1, .f32⟩ : BufTy).Contents (Elt F)),
    reshape main_v159 main_v160 rfl shapeCasts_S1_S_,
    unary main_v109 main_call24_v0 ((extractStridedSlice S2048x2 ![0, 4094] · slices_S2048x4096_S2048x2_0_4094) : (⟨S2048x4096, .f32⟩ : BufTy).Contents (Elt F) → (⟨S2048x2, .f32⟩ : BufTy).Contents (Elt F)),
    unary main_v109 main_call24_v1 ((extractStridedSlice S2048x4094 ![0, 0] · slices_S2048x4096_S2048x4094_0_0) : (⟨S2048x4096, .f32⟩ : BufTy).Contents (Elt F) → (⟨S2048x4094, .f32⟩ : BufTy).Contents (Elt F)),
    binary main_call24_v0 main_call24_v1 main_v161 ((Cert.Iswt.cat2 2 4094 concatenates_S2048x2_S2048x4094_S2048x4096_d1) : (⟨S2048x2, .f32⟩ : BufTy).Contents (Elt F) → (⟨S2048x4094, .f32⟩ : BufTy).Contents (Elt F) → (⟨S2048x4096, .f32⟩ : BufTy).Contents (Elt F)),
    unary main_v160 main_v162 (broadcastInDim S2048x4096 ![] bcast_S_S2048x4096 : (⟨S_, .f32⟩ : BufTy).Contents (Elt F) → (⟨S2048x4096, .f32⟩ : BufTy).Contents (Elt F)),
    binary main_v162 main_v161 main_v163 (mulf : (⟨S2048x4096, .f32⟩ : BufTy).Contents (Elt F) → (⟨S2048x4096, .f32⟩ : BufTy).Contents (Elt F) → (⟨S2048x4096, .f32⟩ : BufTy).Contents (Elt F)),
    binary main_v158 main_v163 main_v164 (addf : (⟨S2048x4096, .f32⟩ : BufTy).Contents (Elt F) → (⟨S2048x4096, .f32⟩ : BufTy).Contents (Elt F) → (⟨S2048x4096, .f32⟩ : BufTy).Contents (Elt F)),
    unary main_v10 main_v165 ((extractStridedSlice S1 ![4] · slices_S8_S1_4) : (⟨S8, .f32⟩ : BufTy).Contents (Elt F) → (⟨S1, .f32⟩ : BufTy).Contents (Elt F)),
    reshape main_v165 main_v166 rfl shapeCasts_S1_S_,
    unary main_v6 main_call25_v0 ((extractStridedSlice S2048x2 ![0, 4094] · slices_S2048x4096_S2048x2_0_4094) : (⟨S2048x4096, .f32⟩ : BufTy).Contents (Elt F) → (⟨S2048x2, .f32⟩ : BufTy).Contents (Elt F)),
    unary main_v6 main_call25_v1 ((extractStridedSlice S2048x4094 ![0, 0] · slices_S2048x4096_S2048x4094_0_0) : (⟨S2048x4096, .f32⟩ : BufTy).Contents (Elt F) → (⟨S2048x4094, .f32⟩ : BufTy).Contents (Elt F)),
    binary main_call25_v0 main_call25_v1 main_v167 ((Cert.Iswt.cat2 2 4094 concatenates_S2048x2_S2048x4094_S2048x4096_d1) : (⟨S2048x2, .f32⟩ : BufTy).Contents (Elt F) → (⟨S2048x4094, .f32⟩ : BufTy).Contents (Elt F) → (⟨S2048x4096, .f32⟩ : BufTy).Contents (Elt F)),
    unary main_v166 main_v168 (broadcastInDim S2048x4096 ![] bcast_S_S2048x4096 : (⟨S_, .f32⟩ : BufTy).Contents (Elt F) → (⟨S2048x4096, .f32⟩ : BufTy).Contents (Elt F)),
    binary main_v168 main_v167 main_v169 (mulf : (⟨S2048x4096, .f32⟩ : BufTy).Contents (Elt F) → (⟨S2048x4096, .f32⟩ : BufTy).Contents (Elt F) → (⟨S2048x4096, .f32⟩ : BufTy).Contents (Elt F)),
    binary main_v164 main_v169 main_v170 (addf : (⟨S2048x4096, .f32⟩ : BufTy).Contents (Elt F) → (⟨S2048x4096, .f32⟩ : BufTy).Contents (Elt F) → (⟨S2048x4096, .f32⟩ : BufTy).Contents (Elt F)),
    unary main_cst main_v171 ((extractStridedSlice S1 ![5] · slices_S8_S1_5) : (⟨S8, .f32⟩ : BufTy).Contents (Elt F) → (⟨S1, .f32⟩ : BufTy).Contents (Elt F)),
    reshape main_v171 main_v172 rfl shapeCasts_S1_S_,
    unary main_v109 main_call26_v0 ((extractStridedSlice S2048x4 ![0, 4092] · slices_S2048x4096_S2048x4_0_4092) : (⟨S2048x4096, .f32⟩ : BufTy).Contents (Elt F) → (⟨S2048x4, .f32⟩ : BufTy).Contents (Elt F)),
    unary main_v109 main_call26_v1 ((extractStridedSlice S2048x4092 ![0, 0] · slices_S2048x4096_S2048x4092_0_0) : (⟨S2048x4096, .f32⟩ : BufTy).Contents (Elt F) → (⟨S2048x4092, .f32⟩ : BufTy).Contents (Elt F)),
    binary main_call26_v0 main_call26_v1 main_v173 ((Cert.Iswt.cat2 4 4092 concatenates_S2048x4_S2048x4092_S2048x4096_d1) : (⟨S2048x4, .f32⟩ : BufTy).Contents (Elt F) → (⟨S2048x4092, .f32⟩ : BufTy).Contents (Elt F) → (⟨S2048x4096, .f32⟩ : BufTy).Contents (Elt F)),
    unary main_v172 main_v174 (broadcastInDim S2048x4096 ![] bcast_S_S2048x4096 : (⟨S_, .f32⟩ : BufTy).Contents (Elt F) → (⟨S2048x4096, .f32⟩ : BufTy).Contents (Elt F)),
    binary main_v174 main_v173 main_v175 (mulf : (⟨S2048x4096, .f32⟩ : BufTy).Contents (Elt F) → (⟨S2048x4096, .f32⟩ : BufTy).Contents (Elt F) → (⟨S2048x4096, .f32⟩ : BufTy).Contents (Elt F)),
    binary main_v170 main_v175 main_v176 (addf : (⟨S2048x4096, .f32⟩ : BufTy).Contents (Elt F) → (⟨S2048x4096, .f32⟩ : BufTy).Contents (Elt F) → (⟨S2048x4096, .f32⟩ : BufTy).Contents (Elt F)),
    unary main_v10 main_v177 ((extractStridedSlice S1 ![5] · slices_S8_S1_5) : (⟨S8, .f32⟩ : BufTy).Contents (Elt F) → (⟨S1, .f32⟩ : BufTy).Contents (Elt F)),
    reshape main_v177 main_v178 rfl shapeCasts_S1_S_,
    unary main_v6 main_call27_v0 ((extractStridedSlice S2048x4 ![0, 4092] · slices_S2048x4096_S2048x4_0_4092) : (⟨S2048x4096, .f32⟩ : BufTy).Contents (Elt F) → (⟨S2048x4, .f32⟩ : BufTy).Contents (Elt F)),
    unary main_v6 main_call27_v1 ((extractStridedSlice S2048x4092 ![0, 0] · slices_S2048x4096_S2048x4092_0_0) : (⟨S2048x4096, .f32⟩ : BufTy).Contents (Elt F) → (⟨S2048x4092, .f32⟩ : BufTy).Contents (Elt F)),
    binary main_call27_v0 main_call27_v1 main_v179 ((Cert.Iswt.cat2 4 4092 concatenates_S2048x4_S2048x4092_S2048x4096_d1) : (⟨S2048x4, .f32⟩ : BufTy).Contents (Elt F) → (⟨S2048x4092, .f32⟩ : BufTy).Contents (Elt F) → (⟨S2048x4096, .f32⟩ : BufTy).Contents (Elt F)),
    unary main_v178 main_v180 (broadcastInDim S2048x4096 ![] bcast_S_S2048x4096 : (⟨S_, .f32⟩ : BufTy).Contents (Elt F) → (⟨S2048x4096, .f32⟩ : BufTy).Contents (Elt F)),
    binary main_v180 main_v179 main_v181 (mulf : (⟨S2048x4096, .f32⟩ : BufTy).Contents (Elt F) → (⟨S2048x4096, .f32⟩ : BufTy).Contents (Elt F) → (⟨S2048x4096, .f32⟩ : BufTy).Contents (Elt F)),
    binary main_v176 main_v181 main_v182 (addf : (⟨S2048x4096, .f32⟩ : BufTy).Contents (Elt F) → (⟨S2048x4096, .f32⟩ : BufTy).Contents (Elt F) → (⟨S2048x4096, .f32⟩ : BufTy).Contents (Elt F)),
    unary main_cst main_v183 ((extractStridedSlice S1 ![6] · slices_S8_S1_6) : (⟨S8, .f32⟩ : BufTy).Contents (Elt F) → (⟨S1, .f32⟩ : BufTy).Contents (Elt F)),
    reshape main_v183 main_v184 rfl shapeCasts_S1_S_,
    unary main_v109 main_call28_v0 ((extractStridedSlice S2048x6 ![0, 4090] · slices_S2048x4096_S2048x6_0_4090) : (⟨S2048x4096, .f32⟩ : BufTy).Contents (Elt F) → (⟨S2048x6, .f32⟩ : BufTy).Contents (Elt F)),
    unary main_v109 main_call28_v1 ((extractStridedSlice S2048x4090 ![0, 0] · slices_S2048x4096_S2048x4090_0_0) : (⟨S2048x4096, .f32⟩ : BufTy).Contents (Elt F) → (⟨S2048x4090, .f32⟩ : BufTy).Contents (Elt F)),
    binary main_call28_v0 main_call28_v1 main_v185 ((Cert.Iswt.cat2 6 4090 concatenates_S2048x6_S2048x4090_S2048x4096_d1) : (⟨S2048x6, .f32⟩ : BufTy).Contents (Elt F) → (⟨S2048x4090, .f32⟩ : BufTy).Contents (Elt F) → (⟨S2048x4096, .f32⟩ : BufTy).Contents (Elt F)),
    unary main_v184 main_v186 (broadcastInDim S2048x4096 ![] bcast_S_S2048x4096 : (⟨S_, .f32⟩ : BufTy).Contents (Elt F) → (⟨S2048x4096, .f32⟩ : BufTy).Contents (Elt F)),
    binary main_v186 main_v185 main_v187 (mulf : (⟨S2048x4096, .f32⟩ : BufTy).Contents (Elt F) → (⟨S2048x4096, .f32⟩ : BufTy).Contents (Elt F) → (⟨S2048x4096, .f32⟩ : BufTy).Contents (Elt F)),
    binary main_v182 main_v187 main_v188 (addf : (⟨S2048x4096, .f32⟩ : BufTy).Contents (Elt F) → (⟨S2048x4096, .f32⟩ : BufTy).Contents (Elt F) → (⟨S2048x4096, .f32⟩ : BufTy).Contents (Elt F)),
    unary main_v10 main_v189 ((extractStridedSlice S1 ![6] · slices_S8_S1_6) : (⟨S8, .f32⟩ : BufTy).Contents (Elt F) → (⟨S1, .f32⟩ : BufTy).Contents (Elt F)),
    reshape main_v189 main_v190 rfl shapeCasts_S1_S_,
    unary main_v6 main_call29_v0 ((extractStridedSlice S2048x6 ![0, 4090] · slices_S2048x4096_S2048x6_0_4090) : (⟨S2048x4096, .f32⟩ : BufTy).Contents (Elt F) → (⟨S2048x6, .f32⟩ : BufTy).Contents (Elt F)),
    unary main_v6 main_call29_v1 ((extractStridedSlice S2048x4090 ![0, 0] · slices_S2048x4096_S2048x4090_0_0) : (⟨S2048x4096, .f32⟩ : BufTy).Contents (Elt F) → (⟨S2048x4090, .f32⟩ : BufTy).Contents (Elt F)),
    binary main_call29_v0 main_call29_v1 main_v191 ((Cert.Iswt.cat2 6 4090 concatenates_S2048x6_S2048x4090_S2048x4096_d1) : (⟨S2048x6, .f32⟩ : BufTy).Contents (Elt F) → (⟨S2048x4090, .f32⟩ : BufTy).Contents (Elt F) → (⟨S2048x4096, .f32⟩ : BufTy).Contents (Elt F)),
    unary main_v190 main_v192 (broadcastInDim S2048x4096 ![] bcast_S_S2048x4096 : (⟨S_, .f32⟩ : BufTy).Contents (Elt F) → (⟨S2048x4096, .f32⟩ : BufTy).Contents (Elt F)),
    binary main_v192 main_v191 main_v193 (mulf : (⟨S2048x4096, .f32⟩ : BufTy).Contents (Elt F) → (⟨S2048x4096, .f32⟩ : BufTy).Contents (Elt F) → (⟨S2048x4096, .f32⟩ : BufTy).Contents (Elt F)),
    binary main_v188 main_v193 main_v194 (addf : (⟨S2048x4096, .f32⟩ : BufTy).Contents (Elt F) → (⟨S2048x4096, .f32⟩ : BufTy).Contents (Elt F) → (⟨S2048x4096, .f32⟩ : BufTy).Contents (Elt F)),
    unary main_cst main_v195 ((extractStridedSlice S1 ![7] · slices_S8_S1_7) : (⟨S8, .f32⟩ : BufTy).Contents (Elt F) → (⟨S1, .f32⟩ : BufTy).Contents (Elt F)),
    reshape main_v195 main_v196 rfl shapeCasts_S1_S_,
    unary main_v109 main_call30_v0 ((extractStridedSlice S2048x8 ![0, 4088] · slices_S2048x4096_S2048x8_0_4088) : (⟨S2048x4096, .f32⟩ : BufTy).Contents (Elt F) → (⟨S2048x8, .f32⟩ : BufTy).Contents (Elt F)),
    unary main_v109 main_call30_v1 ((extractStridedSlice S2048x4088 ![0, 0] · slices_S2048x4096_S2048x4088_0_0) : (⟨S2048x4096, .f32⟩ : BufTy).Contents (Elt F) → (⟨S2048x4088, .f32⟩ : BufTy).Contents (Elt F)),
    binary main_call30_v0 main_call30_v1 main_v197 ((Cert.Iswt.cat2 8 4088 concatenates_S2048x8_S2048x4088_S2048x4096_d1) : (⟨S2048x8, .f32⟩ : BufTy).Contents (Elt F) → (⟨S2048x4088, .f32⟩ : BufTy).Contents (Elt F) → (⟨S2048x4096, .f32⟩ : BufTy).Contents (Elt F)),
    unary main_v196 main_v198 (broadcastInDim S2048x4096 ![] bcast_S_S2048x4096 : (⟨S_, .f32⟩ : BufTy).Contents (Elt F) → (⟨S2048x4096, .f32⟩ : BufTy).Contents (Elt F)),
    binary main_v198 main_v197 main_v199 (mulf : (⟨S2048x4096, .f32⟩ : BufTy).Contents (Elt F) → (⟨S2048x4096, .f32⟩ : BufTy).Contents (Elt F) → (⟨S2048x4096, .f32⟩ : BufTy).Contents (Elt F)),
    binary main_v194 main_v199 main_v200 (addf : (⟨S2048x4096, .f32⟩ : BufTy).Contents (Elt F) → (⟨S2048x4096, .f32⟩ : BufTy).Contents (Elt F) → (⟨S2048x4096, .f32⟩ : BufTy).Contents (Elt F)),
    unary main_v10 main_v201 ((extractStridedSlice S1 ![7] · slices_S8_S1_7) : (⟨S8, .f32⟩ : BufTy).Contents (Elt F) → (⟨S1, .f32⟩ : BufTy).Contents (Elt F)),
    reshape main_v201 main_v202 rfl shapeCasts_S1_S_,
    unary main_v6 main_call31_v0 ((extractStridedSlice S2048x8 ![0, 4088] · slices_S2048x4096_S2048x8_0_4088) : (⟨S2048x4096, .f32⟩ : BufTy).Contents (Elt F) → (⟨S2048x8, .f32⟩ : BufTy).Contents (Elt F)),
    unary main_v6 main_call31_v1 ((extractStridedSlice S2048x4088 ![0, 0] · slices_S2048x4096_S2048x4088_0_0) : (⟨S2048x4096, .f32⟩ : BufTy).Contents (Elt F) → (⟨S2048x4088, .f32⟩ : BufTy).Contents (Elt F)),
    binary main_call31_v0 main_call31_v1 main_v203 ((Cert.Iswt.cat2 8 4088 concatenates_S2048x8_S2048x4088_S2048x4096_d1) : (⟨S2048x8, .f32⟩ : BufTy).Contents (Elt F) → (⟨S2048x4088, .f32⟩ : BufTy).Contents (Elt F) → (⟨S2048x4096, .f32⟩ : BufTy).Contents (Elt F)),
    unary main_v202 main_v204 (broadcastInDim S2048x4096 ![] bcast_S_S2048x4096 : (⟨S_, .f32⟩ : BufTy).Contents (Elt F) → (⟨S2048x4096, .f32⟩ : BufTy).Contents (Elt F)),
    binary main_v204 main_v203 main_v205 (mulf : (⟨S2048x4096, .f32⟩ : BufTy).Contents (Elt F) → (⟨S2048x4096, .f32⟩ : BufTy).Contents (Elt F) → (⟨S2048x4096, .f32⟩ : BufTy).Contents (Elt F)),
    binary main_v200 main_v205 main_v206 (addf : (⟨S2048x4096, .f32⟩ : BufTy).Contents (Elt F) → (⟨S2048x4096, .f32⟩ : BufTy).Contents (Elt F) → (⟨S2048x4096, .f32⟩ : BufTy).Contents (Elt F)),
    nullary main_cst_4 (constant S_ .f32 0x3F000000#32),
    unary main_cst_4 main_v207 (broadcastInDim S2048x4096 ![] bcast_S_S2048x4096 : (⟨S_, .f32⟩ : BufTy).Contents (Elt F) → (⟨S2048x4096, .f32⟩ : BufTy).Contents (Elt F)),
    binary main_v207 main_v206 main_v208 (mulf : (⟨S2048x4096, .f32⟩ : BufTy).Contents (Elt F) → (⟨S2048x4096, .f32⟩ : BufTy).Contents (Elt F) → (⟨S2048x4096, .f32⟩ : BufTy).Contents (Elt F))
  ]

/-- @main's operations 280 … 345 of 413. -/
abbrev seg5 : List (HloOp τ sig (Elt F)) :=
  [
    nullary main_cst_5 (constant S_ .f32 0x00000000#32),
    unary main_cst_5 main_v209 (broadcastInDim S2048x4096 ![] bcast_S_S2048x4096 : (⟨S_, .f32⟩ : BufTy).Contents (Elt F) → (⟨S2048x4096, .f32⟩ : BufTy).Contents (Elt F)),
    unary main_cst main_v210 ((extractStridedSlice S1 ![0] · slices_S8_S1_0) : (⟨S8, .f32⟩ : BufTy).Contents (Elt F) → (⟨S1, .f32⟩ : BufTy).Contents (Elt F)),
    reshape main_v210 main_v211 rfl shapeCasts_S1_S_,
    unary main_v208 main_call32_v0 ((extractStridedSlice S2048x4093 ![0, 3] · slices_S2048x4096_S2048x4093_0_3) : (⟨S2048x4096, .f32⟩ : BufTy).Contents (Elt F) → (⟨S2048x4093, .f32⟩ : BufTy).Contents (Elt F)),
    unary main_v208 main_call32_v1 ((extractStridedSlice S2048x3 ![0, 0] · slices_S2048x4096_S2048x3_0_0) : (⟨S2048x4096, .f32⟩ : BufTy).Contents (Elt F) → (⟨S2048x3, .f32⟩ : BufTy).Contents (Elt F)),
    binary main_call32_v0 main_call32_v1 main_v212 ((Cert.Iswt.cat2 4093 3 concatenates_S2048x4093_S2048x3_S2048x4096_d1) : (⟨S2048x4093, .f32⟩ : BufTy).Contents (Elt F) → (⟨S2048x3, .f32⟩ : BufTy).Contents (Elt F) → (⟨S2048x4096, .f32⟩ : BufTy).Contents (Elt F)),
    unary main_v211 main_v213 (broadcastInDim S2048x4096 ![] bcast_S_S2048x4096 : (⟨S_, .f32⟩ : BufTy).Contents (Elt F) → (⟨S2048x4096, .f32⟩ : BufTy).Contents (Elt F)),
    binary main_v213 main_v212 main_v214 (mulf : (⟨S2048x4096, .f32⟩ : BufTy).Contents (Elt F) → (⟨S2048x4096, .f32⟩ : BufTy).Contents (Elt F) → (⟨S2048x4096, .f32⟩ : BufTy).Contents (Elt F)),
    binary main_v209 main_v214 main_v215 (addf : (⟨S2048x4096, .f32⟩ : BufTy).Contents (Elt F) → (⟨S2048x4096, .f32⟩ : BufTy).Contents (Elt F) → (⟨S2048x4096, .f32⟩ : BufTy).Contents (Elt F)),
    unary main_v10 main_v216 ((extractStridedSlice S1 ![0] · slices_S8_S1_0) : (⟨S8, .f32⟩ : BufTy).Contents (Elt F) → (⟨S1, .f32⟩ : BufTy).Contents (Elt F)),
    reshape main_v216 main_v217 rfl shapeCasts_S1_S_,
    unary main_v8 main_call33_v0 ((extractStridedSlice S2048x4093 ![0, 3] · slices_S2048x4096_S2048x4093_0_3) : (⟨S2048x4096, .f32⟩ : BufTy).Contents (Elt F) → (⟨S2048x4093, .f32⟩ : BufTy).Contents (Elt F)),
    unary main_v8 main_call33_v1 ((extractStridedSlice S2048x3 ![0, 0] · slices_S2048x4096_S2048x3_0_0) : (⟨S2048x4096, .f32⟩ : BufTy).Contents (Elt F) → (⟨S2048x3, .f32⟩ : BufTy).Contents (Elt F)),
    binary main_call33_v0 main_call33_v1 main_v218 ((Cert.Iswt.cat2 4093 3 concatenates_S2048x4093_S2048x3_S2048x4096_d1) : (⟨S2048x4093, .f32⟩ : BufTy).Contents (Elt F) → (⟨S2048x3, .f32⟩ : BufTy).Contents (Elt F) → (⟨S2048x4096, .f32⟩ : BufTy).Contents (Elt F)),
    unary main_v217 main_v219 (broadcastInDim S2048x4096 ![] bcast_S_S2048x4096 : (⟨S_, .f32⟩ : BufTy).Contents (Elt F) → (⟨S2048x4096, .f32⟩ : BufTy).Contents (Elt F)),
    binary main_v219 main_v218 main_v220 (mulf : (⟨S2048x4096, .f32⟩ : BufTy).Contents (Elt F) → (⟨S2048x4096, .f32⟩ : BufTy).Contents (Elt F) → (⟨S2048x4096, .f32⟩ : BufTy).Contents (Elt F)),
    binary main_v215 main_v220 main_v221 (addf : (⟨S2048x4096, .f32⟩ : BufTy).Contents (Elt F) → (⟨S2048x4096, .f32⟩ : BufTy).Contents (Elt F) → (⟨S2048x4096, .f32⟩ : BufTy).Contents (Elt F)),
    unary main_cst main_v222 ((extractStridedSlice S1 ![1] · slices_S8_S1_1) : (⟨S8, .f32⟩ : BufTy).Contents (Elt F) → (⟨S1, .f32⟩ : BufTy).Contents (Elt F)),
    reshape main_v222 main_v223 rfl shapeCasts_S1_S_,
    unary main_v208 main_call34_v0 ((extractStridedSlice S2048x4094 ![0, 2] · slices_S2048x4096_S2048x4094_0_2) : (⟨S2048x4096, .f32⟩ : BufTy).Contents (Elt F) → (⟨S2048x4094, .f32⟩ : BufTy).Contents (Elt F)),
    unary main_v208 main_call34_v1 ((extractStridedSlice S2048x2 ![0, 0] · slices_S2048x4096_S2048x2_0_0) : (⟨S2048x4096, .f32⟩ : BufTy).Contents (Elt F) → (⟨S2048x2, .f32⟩ : BufTy).Contents (Elt F)),
    binary main_call34_v0 main_call34_v1 main_v224 ((Cert.Iswt.cat2 4094 2 concatenates_S2048x4094_S2048x2_S2048x4096_d1) : (⟨S2048x4094, .f32⟩ : BufTy).Contents (Elt F) → (⟨S2048x2, .f32⟩ : BufTy).Contents (Elt F) → (⟨S2048x4096, .f32⟩ : BufTy).Contents (Elt F)),
    unary main_v223 main_v225 (broadcastInDim S2048x4096 ![] bcast_S_S2048x4096 : (⟨S_, .f32⟩ : BufTy).Contents (Elt F) → (⟨S2048x4096, .f32⟩ : BufTy).Contents (Elt F)),
    binary main_v225 main_v224 main_v226 (mulf : (⟨S2048x4096, .f32⟩ : BufTy).Contents (Elt F) → (⟨S2048x4096, .f32⟩ : BufTy).Contents (Elt F) → (⟨S2048x4096, .f32⟩ : BufTy).Contents (Elt F)),
    binary main_v221 main_v226 main_v227 (addf : (⟨S2048x4096, .f32⟩ : BufTy).Contents (Elt F) → (⟨S2048x4096, .f32⟩ : BufTy).Contents (Elt F) → (⟨S2048x4096, .f32⟩ : BufTy).Contents (Elt F)),
    unary main_v10 main_v228 ((extractStridedSlice S1 ![1] · slices_S8_S1_1) : (⟨S8, .f32⟩ : BufTy).Contents (Elt F) → (⟨S1, .f32⟩ : BufTy).Contents (Elt F)),
    reshape main_v228 main_v229 rfl shapeCasts_S1_S_,
    unary main_v8 main_call35_v0 ((extractStridedSlice S2048x4094 ![0, 2] · slices_S2048x4096_S2048x4094_0_2) : (⟨S2048x4096, .f32⟩ : BufTy).Contents (Elt F) → (⟨S2048x4094, .f32⟩ : BufTy).Contents (Elt F)),
    unary main_v8 main_call35_v1 ((extractStridedSlice S2048x2 ![0, 0] · slices_S2048x4096_S2048x2_0_0) : (⟨S2048x4096, .f32⟩ : BufTy).Contents (Elt F) → (⟨S2048x2, .f32⟩ : BufTy).Contents (Elt F)),
    binary main_call35_v0 main_call35_v1 main_v230 ((Cert.Iswt.cat2 4094 2 concatenates_S2048x4094_S2048x2_S2048x4096_d1) : (⟨S2048x4094, .f32⟩ : BufTy).Contents (Elt F) → (⟨S2048x2, .f32⟩ : BufTy).Contents (Elt F) → (⟨S2048x4096, .f32⟩ : BufTy).Contents (Elt F)),
    unary main_v229 main_v231 (broadcastInDim S2048x4096 ![] bcast_S_S2048x4096 : (⟨S_, .f32⟩ : BufTy).Contents (Elt F) → (⟨S2048x4096, .f32⟩ : BufTy).Contents (Elt F)),
    binary main_v231 main_v230 main_v232 (mulf : (⟨S2048x4096, .f32⟩ : BufTy).Contents (Elt F) → (⟨S2048x4096, .f32⟩ : BufTy).Contents (Elt F) → (⟨S2048x4096, .f32⟩ : BufTy).Contents (Elt F)),
    binary main_v227 main_v232 main_v233 (addf : (⟨S2048x4096, .f32⟩ : BufTy).Contents (Elt F) → (⟨S2048x4096, .f32⟩ : BufTy).Contents (Elt F) → (⟨S2048x4096, .f32⟩ : BufTy).Contents (Elt F)),
    unary main_cst main_v234 ((extractStridedSlice S1 ![2] · slices_S8_S1_2) : (⟨S8, .f32⟩ : BufTy).Contents (Elt F) → (⟨S1, .f32⟩ : BufTy).Contents (Elt F)),
    reshape main_v234 main_v235 rfl shapeCasts_S1_S_,
    unary main_v208 main_call36_v0 ((extractStridedSlice S2048x4095 ![0, 1] · slices_S2048x4096_S2048x4095_0_1) : (⟨S2048x4096, .f32⟩ : BufTy).Contents (Elt F) → (⟨S2048x4095, .f32⟩ : BufTy).Contents (Elt F)),
    unary main_v208 main_call36_v1 ((extractStridedSlice S2048x1 ![0, 0] · slices_S2048x4096_S2048x1_0_0) : (⟨S2048x4096, .f32⟩ : BufTy).Contents (Elt F) → (⟨S2048x1, .f32⟩ : BufTy).Contents (Elt F)),
    binary main_call36_v0 main_call36_v1 main_v236 ((Cert.Iswt.cat2 4095 1 concatenates_S2048x4095_S2048x1_S2048x4096_d1) : (⟨S2048x4095, .f32⟩ : BufTy).Contents (Elt F) → (⟨S2048x1, .f32⟩ : BufTy).Contents (Elt F) → (⟨S2048x4096, .f32⟩ : BufTy).Contents (Elt F)),
    unary main_v235 main_v237 (broadcastInDim S2048x4096 ![] bcast_S_S2048x4096 : (⟨S_, .f32⟩ : BufTy).Contents (Elt F) → (⟨S2048x4096, .f32⟩ : BufTy).Contents (Elt F)),
    binary main_v237 main_v236 main_v238 (mulf : (⟨S2048x4096, .f32⟩ : BufTy).Contents (Elt F) → (⟨S2048x4096, .f32⟩ : BufTy).Contents (Elt F) → (⟨S2048x4096, .f32⟩ : BufTy).Contents (Elt F)),
    binary main_v233 main_v238 main_v239 (addf : (⟨S2048x4096, .f32⟩ : BufTy).Contents (Elt F) → (⟨S2048x4096, .f32⟩ : BufTy).Contents (Elt F) → (⟨S2048x4096, .f32⟩ : BufTy).Contents (Elt F)),
    unary main_v10 main_v240 ((extractStridedSlice S1 ![2] · slices_S8_S1_2) : (⟨S8, .f32⟩ : BufTy).Contents (Elt F) → (⟨S1, .f32⟩ : BufTy).Contents (Elt F)),
    reshape main_v240 main_v241 rfl shapeCasts_S1_S_,
    unary main_v8 main_call37_v0 ((extractStridedSlice S2048x4095 ![0, 1] · slices_S2048x4096_S2048x4095_0_1) : (⟨S2048x4096, .f32⟩ : BufTy).Contents (Elt F) → (⟨S2048x4095, .f32⟩ : BufTy).Contents (Elt F)),
    unary main_v8 main_call37_v1 ((extractStridedSlice S2048x1 ![0, 0] · slices_S2048x4096_S2048x1_0_0) : (⟨S2048x4096, .f32⟩ : BufTy).Contents (Elt F) → (⟨S2048x1, .f32⟩ : BufTy).Contents (Elt F)),
    binary main_call37_v0 main_call37_v1 main_v242 ((Cert.Iswt.cat2 4095 1 concatenates_S2048x4095_S2048x1_S2048x4096_d1) : (⟨S2048x4095, .f32⟩ : BufTy).Contents (Elt F) → (⟨S2048x1, .f32⟩ : BufTy).Contents (Elt F) → (⟨S2048x4096, .f32⟩ : BufTy).Contents (Elt F)),
    unary main_v241 main_v243 (broadcastInDim S2048x4096 ![] bcast_S_S2048x4096 : (⟨S_, .f32⟩ : BufTy).Contents (Elt F) → (⟨S2048x4096, .f32⟩ : BufTy).Contents (Elt F)),
    binary main_v243 main_v242 main_v244 (mulf : (⟨S2048x4096, .f32⟩ : BufTy).Contents (Elt F) → (⟨S2048x4096, .f32⟩ : BufTy).Contents (Elt F) → (⟨S2048x4096, .f32⟩ : BufTy).Contents (Elt F)),
    binary main_v239 main_v244 main_v245 (addf : (⟨S2048x4096, .f32⟩ : BufTy).Contents (Elt F) → (⟨S2048x4096, .f32⟩ : BufTy).Contents (Elt F) → (⟨S2048x4096, .f32⟩ : BufTy).Contents (Elt F)),
    unary main_cst main_v246 ((extractStridedSlice S1 ![3] · slices_S8_S1_3) : (⟨S8, .f32⟩ : BufTy).Contents (Elt F) → (⟨S1, .f32⟩ : BufTy).Contents (Elt F)),
    reshape main_v246 main_v247 rfl shapeCasts_S1_S_,
    unary main_v208 main_call38_v0 ((extractStridedSlice S2048x4096 ![0, 0] · slices_S2048x4096_S2048x4096_0_0) : (⟨S2048x4096, .f32⟩ : BufTy).Contents (Elt F) → (⟨S2048x4096, .f32⟩ : BufTy).Contents (Elt F)),
    unary main_v208 main_call38_v1 ((extractStridedSlice S2048x0 ![0, 0] · slices_S2048x4096_S2048x0_0_0) : (⟨S2048x4096, .f32⟩ : BufTy).Contents (Elt F) → (⟨S2048x0, .f32⟩ : BufTy).Contents (Elt F)),
    binary main_call38_v0 main_call38_v1 main_v248 ((Cert.Iswt.cat2 4096 0 concatenates_S2048x4096_S2048x0_S2048x4096_d1) : (⟨S2048x4096, .f32⟩ : BufTy).Contents (Elt F) → (⟨S2048x0, .f32⟩ : BufTy).Contents (Elt F) → (⟨S2048x4096, .f32⟩ : BufTy).Contents (Elt F)),
    unary main_v247 main_v249 (broadcastInDim S2048x4096 ![] bcast_S_S2048x4096 : (⟨S_, .f32⟩ : BufTy).Contents (Elt F) → (⟨S2048x4096, .f32⟩ : BufTy).Contents (Elt F)),
    binary main_v249 main_v248 main_v250 (mulf : (⟨S2048x4096, .f32⟩ : BufTy).Contents (Elt F) → (⟨S2048x4096, .f32⟩ : BufTy).Contents (Elt F) → (⟨S2048x4096, .f32⟩ : BufTy).Contents (Elt F)),
    binary main_v245 main_v250 main_v251 (addf : (⟨S2048x4096, .f32⟩ : BufTy).Contents (Elt F) → (⟨S2048x4096, .f32⟩ : BufTy).Contents (Elt F) → (⟨S2048x4096, .f32⟩ : BufTy).Contents (Elt F)),
    unary main_v10 main_v252 ((extractStridedSlice S1 ![3] · slices_S8_S1_3) : (⟨S8, .f32⟩ : BufTy).Contents (Elt F) → (⟨S1, .f32⟩ : BufTy).Contents (Elt F)),
    reshape main_v252 main_v253 rfl shapeCasts_S1_S_,
    unary main_v8 main_call39_v0 ((extractStridedSlice S2048x4096 ![0, 0] · slices_S2048x4096_S2048x4096_0_0) : (⟨S2048x4096, .f32⟩ : BufTy).Contents (Elt F) → (⟨S2048x4096, .f32⟩ : BufTy).Contents (Elt F)),
    unary main_v8 main_call39_v1 ((extractStridedSlice S2048x0 ![0, 0] · slices_S2048x4096_S2048x0_0_0) : (⟨S2048x4096, .f32⟩ : BufTy).Contents (Elt F) → (⟨S2048x0, .f32⟩ : BufTy).Contents (Elt F)),
    binary main_call39_v0 main_call39_v1 main_v254 ((Cert.Iswt.cat2 4096 0 concatenates_S2048x4096_S2048x0_S2048x4096_d1) : (⟨S2048x4096, .f32⟩ : BufTy).Contents (Elt F) → (⟨S2048x0, .f32⟩ : BufTy).Contents (Elt F) → (⟨S2048x4096, .f32⟩ : BufTy).Contents (Elt F)),
    unary main_v253 main_v255 (broadcastInDim S2048x4096 ![] bcast_S_S2048x4096 : (⟨S_, .f32⟩ : BufTy).Contents (Elt F) → (⟨S2048x4096, .f32⟩ : BufTy).Contents (Elt F)),
    binary main_v255 main_v254 main_v256 (mulf : (⟨S2048x4096, .f32⟩ : BufTy).Contents (Elt F) → (⟨S2048x4096, .f32⟩ : BufTy).Contents (Elt F) → (⟨S2048x4096, .f32⟩ : BufTy).Contents (Elt F)),
    binary main_v251 main_v256 main_v257 (addf : (⟨S2048x4096, .f32⟩ : BufTy).Contents (Elt F) → (⟨S2048x4096, .f32⟩ : BufTy).Contents (Elt F) → (⟨S2048x4096, .f32⟩ : BufTy).Contents (Elt F))
  ]

/-- @main's operations 346 … 412 of 413. -/
abbrev seg6 : List (HloOp τ sig (Elt F)) :=
  [
    unary main_cst main_v258 ((extractStridedSlice S1 ![4] · slices_S8_S1_4) : (⟨S8, .f32⟩ : BufTy).Contents (Elt F) → (⟨S1, .f32⟩ : BufTy).Contents (Elt F)),
    reshape main_v258 main_v259 rfl shapeCasts_S1_S_,
    unary main_v208 main_call40_v0 ((extractStridedSlice S2048x1 ![0, 4095] · slices_S2048x4096_S2048x1_0_4095) : (⟨S2048x4096, .f32⟩ : BufTy).Contents (Elt F) → (⟨S2048x1, .f32⟩ : BufTy).Contents (Elt F)),
    unary main_v208 main_call40_v1 ((extractStridedSlice S2048x4095 ![0, 0] · slices_S2048x4096_S2048x4095_0_0) : (⟨S2048x4096, .f32⟩ : BufTy).Contents (Elt F) → (⟨S2048x4095, .f32⟩ : BufTy).Contents (Elt F)),
    binary main_call40_v0 main_call40_v1 main_v260 ((Cert.Iswt.cat2 1 4095 concatenates_S2048x1_S2048x4095_S2048x4096_d1) : (⟨S2048x1, .f32⟩ : BufTy).Contents (Elt F) → (⟨S2048x4095, .f32⟩ : BufTy).Contents (Elt F) → (⟨S2048x4096, .f32⟩ : BufTy).Contents (Elt F)),
    unary main_v259 main_v261 (broadcastInDim S2048x4096 ![] bcast_S_S2048x4096 : (⟨S_, .f32⟩ : BufTy).Contents (Elt F) → (⟨S2048x4096, .f32⟩ : BufTy).Contents (Elt F)),
    binary main_v261 main_v260 main_v262 (mulf : (⟨S2048x4096, .f32⟩ : BufTy).Contents (Elt F) → (⟨S2048x4096, .f32⟩ : BufTy).Contents (Elt F) → (⟨S2048x4096, .f32⟩ : BufTy).Contents (Elt F)),
    binary main_v257 main_v262 main_v263 (addf : (⟨S2048x4096, .f32⟩ : BufTy).Contents (Elt F) → (⟨S2048x4096, .f32⟩ : BufTy).Contents (Elt F) → (⟨S2048x4096, .f32⟩ : BufTy).Contents (Elt F)),
    unary main_v10 main_v264 ((extractStridedSlice S1 ![4] · slices_S8_S1_4) : (⟨S8, .f32⟩ : BufTy).Contents (Elt F) → (⟨S1, .f32⟩ : BufTy).Contents (Elt F)),
    reshape main_v264 main_v265 rfl shapeCasts_S1_S_,
    unary main_v8 main_call41_v0 ((extractStridedSlice S2048x1 ![0, 4095] · slices_S2048x4096_S2048x1_0_4095) : (⟨S2048x4096, .f32⟩ : BufTy).Contents (Elt F) → (⟨S2048x1, .f32⟩ : BufTy).Contents (Elt F)),
    unary main_v8 main_call41_v1 ((extractStridedSlice S2048x4095 ![0, 0] · slices_S2048x4096_S2048x4095_0_0) : (⟨S2048x4096, .f32⟩ : BufTy).Contents (Elt F) → (⟨S2048x4095, .f32⟩ : BufTy).Contents (Elt F)),
    binary main_call41_v0 main_call41_v1 main_v266 ((Cert.Iswt.cat2 1 4095 concatenates_S2048x1_S2048x4095_S2048x4096_d1) : (⟨S2048x1, .f32⟩ : BufTy).Contents (Elt F) → (⟨S2048x4095, .f32⟩ : BufTy).Contents (Elt F) → (⟨S2048x4096, .f32⟩ : BufTy).Contents (Elt F)),
    unary main_v265 main_v267 (broadcastInDim S2048x4096 ![] bcast_S_S2048x4096 : (⟨S_, .f32⟩ : BufTy).Contents (Elt F) → (⟨S2048x4096, .f32⟩ : BufTy).Contents (Elt F)),
    binary main_v267 main_v266 main_v268 (mulf : (⟨S2048x4096, .f32⟩ : BufTy).Contents (Elt F) → (⟨S2048x4096, .f32⟩ : BufTy).Contents (Elt F) → (⟨S2048x4096, .f32⟩ : BufTy).Contents (Elt F)),
    binary main_v263 main_v268 main_v269 (addf : (⟨S2048x4096, .f32⟩ : BufTy).Contents (Elt F) → (⟨S2048x4096, .f32⟩ : BufTy).Contents (Elt F) → (⟨S2048x4096, .f32⟩ : BufTy).Contents (Elt F)),
    unary main_cst main_v270 ((extractStridedSlice S1 ![5] · slices_S8_S1_5) : (⟨S8, .f32⟩ : BufTy).Contents (Elt F) → (⟨S1, .f32⟩ : BufTy).Contents (Elt F)),
    reshape main_v270 main_v271 rfl shapeCasts_S1_S_,
    unary main_v208 main_call42_v0 ((extractStridedSlice S2048x2 ![0, 4094] · slices_S2048x4096_S2048x2_0_4094) : (⟨S2048x4096, .f32⟩ : BufTy).Contents (Elt F) → (⟨S2048x2, .f32⟩ : BufTy).Contents (Elt F)),
    unary main_v208 main_call42_v1 ((extractStridedSlice S2048x4094 ![0, 0] · slices_S2048x4096_S2048x4094_0_0) : (⟨S2048x4096, .f32⟩ : BufTy).Contents (Elt F) → (⟨S2048x4094, .f32⟩ : BufTy).Contents (Elt F)),
    binary main_call42_v0 main_call42_v1 main_v272 ((Cert.Iswt.cat2 2 4094 concatenates_S2048x2_S2048x4094_S2048x4096_d1) : (⟨S2048x2, .f32⟩ : BufTy).Contents (Elt F) → (⟨S2048x4094, .f32⟩ : BufTy).Contents (Elt F) → (⟨S2048x4096, .f32⟩ : BufTy).Contents (Elt F)),
    unary main_v271 main_v273 (broadcastInDim S2048x4096 ![] bcast_S_S2048x4096 : (⟨S_, .f32⟩ : BufTy).Contents (Elt F) → (⟨S2048x4096, .f32⟩ : BufTy).Contents (Elt F)),
    binary main_v273 main_v272 main_v274 (mulf : (⟨S2048x4096, .f32⟩ : BufTy).Contents (Elt F) → (⟨S2048x4096, .f32⟩ : BufTy).Contents (Elt F) → (⟨S2048x4096, .f32⟩ : BufTy).Contents (Elt F)),
    binary main_v269 main_v274 main_v275 (addf : (⟨S2048x4096, .f32⟩ : BufTy).Contents (Elt F) → (⟨S2048x4096, .f32⟩ : BufTy).Contents (Elt F) → (⟨S2048x4096, .f32⟩ : BufTy).Contents (Elt F)),
    unary main_v10 main_v276 ((extractStridedSlice S1 ![5] · slices_S8_S1_5) : (⟨S8, .f32⟩ : BufTy).Contents (Elt F) → (⟨S1, .f32⟩ : BufTy).Contents (Elt F)),
    reshape main_v276 main_v277 rfl shapeCasts_S1_S_,
    unary main_v8 main_call43_v0 ((extractStridedSlice S2048x2 ![0, 4094] · slices_S2048x4096_S2048x2_0_4094) : (⟨S2048x4096, .f32⟩ : BufTy).Contents (Elt F) → (⟨S2048x2, .f32⟩ : BufTy).Contents (Elt F)),
    unary main_v8 main_call43_v1 ((extractStridedSlice S2048x4094 ![0, 0] · slices_S2048x4096_S2048x4094_0_0) : (⟨S2048x4096, .f32⟩ : BufTy).Contents (Elt F) → (⟨S2048x4094, .f32⟩ : BufTy).Contents (Elt F)),
    binary main_call43_v0 main_call43_v1 main_v278 ((Cert.Iswt.cat2 2 4094 concatenates_S2048x2_S2048x4094_S2048x4096_d1) : (⟨S2048x2, .f32⟩ : BufTy).Contents (Elt F) → (⟨S2048x4094, .f32⟩ : BufTy).Contents (Elt F) → (⟨S2048x4096, .f32⟩ : BufTy).Contents (Elt F)),
    unary main_v277 main_v279 (broadcastInDim S2048x4096 ![] bcast_S_S2048x4096 : (⟨S_, .f32⟩ : BufTy).Contents (Elt F) → (⟨S2048x4096, .f32⟩ : BufTy).Contents (Elt F)),
    binary main_v279 main_v278 main_v280 (mulf : (⟨S2048x4096, .f32⟩ : BufTy).Contents (Elt F) → (⟨S2048x4096, .f32⟩ : BufTy).Contents (Elt F) → (⟨S2048x4096, .f32⟩ : BufTy).Contents (Elt F)),
    binary main_v275 main_v280 main_v281 (addf : (⟨S2048x4096, .f32⟩ : BufTy).Contents (Elt F) → (⟨S2048x4096, .f32⟩ : BufTy).Contents (Elt F) → (⟨S2048x4096, .f32⟩ : BufTy).Contents (Elt F)),
    unary main_cst main_v282 ((extractStridedSlice S1 ![6] · slices_S8_S1_6) : (⟨S8, .f32⟩ : BufTy).Contents (Elt F) → (⟨S1, .f32⟩ : BufTy).Contents (Elt F)),
    reshape main_v282 main_v283 rfl shapeCasts_S1_S_,
    unary main_v208 main_call44_v0 ((extractStridedSlice S2048x3 ![0, 4093] · slices_S2048x4096_S2048x3_0_4093) : (⟨S2048x4096, .f32⟩ : BufTy).Contents (Elt F) → (⟨S2048x3, .f32⟩ : BufTy).Contents (Elt F)),
    unary main_v208 main_call44_v1 ((extractStridedSlice S2048x4093 ![0, 0] · slices_S2048x4096_S2048x4093_0_0) : (⟨S2048x4096, .f32⟩ : BufTy).Contents (Elt F) → (⟨S2048x4093, .f32⟩ : BufTy).Contents (Elt F)),
    binary main_call44_v0 main_call44_v1 main_v284 ((Cert.Iswt.cat2 3 4093 concatenates_S2048x3_S2048x4093_S2048x4096_d1) : (⟨S2048x3, .f32⟩ : BufTy).Contents (Elt F) → (⟨S2048x4093, .f32⟩ : BufTy).Contents (Elt F) → (⟨S2048x4096, .f32⟩ : BufTy).Contents (Elt F)),
    unary main_v283 main_v285 (broadcastInDim S2048x4096 ![] bcast_S_S2048x4096 : (⟨S_, .f32⟩ : BufTy).Contents (Elt F) → (⟨S2048x4096, .f32⟩ : BufTy).Contents (Elt F)),
    binary main_v285 main_v284 main_v286 (mulf : (⟨S2048x4096, .f32⟩ : BufTy).Contents (Elt F) → (⟨S2048x4096, .f32⟩ : BufTy).Contents (Elt F) → (⟨S2048x4096, .f32⟩ : BufTy).Contents (Elt F)),
    binary main_v281 main_v286 main_v287 (addf : (⟨S2048x4096, .f32⟩ : BufTy).Contents (Elt F) → (⟨S2048x4096, .f32⟩ : BufTy).Contents (Elt F) → (⟨S2048x4096, .f32⟩ : BufTy).Contents (Elt F)),
    unary main_v10 main_v288 ((extractStridedSlice S1 ![6] · slices_S8_S1_6) : (⟨S8, .f32⟩ : BufTy).Contents (Elt F) → (⟨S1, .f32⟩ : BufTy).Contents (Elt F)),
    reshape main_v288 main_v289 rfl shapeCasts_S1_S_,
    unary main_v8 main_call45_v0 ((extractStridedSlice S2048x3 ![0, 4093] · slices_S2048x4096_S2048x3_0_4093) : (⟨S2048x4096, .f32⟩ : BufTy).Contents (Elt F) → (⟨S2048x3, .f32⟩ : BufTy).Contents (Elt F)),
    unary main_v8 main_call45_v1 ((extractStridedSlice S2048x4093 ![0, 0] · slices_S2048x4096_S2048x4093_0_0) : (⟨S2048x4096, .f32⟩ : BufTy).Contents (Elt F) → (⟨S2048x4093, .f32⟩ : BufTy).Contents (Elt F)),
    binary main_call45_v0 main_call45_v1 main_v290 ((Cert.Iswt.cat2 3 4093 concatenates_S2048x3_S2048x4093_S2048x4096_d1) : (⟨S2048x3, .f32⟩ : BufTy).Contents (Elt F) → (⟨S2048x4093, .f32⟩ : BufTy).Contents (Elt F) → (⟨S2048x4096, .f32⟩ : BufTy).Contents (Elt F)),
    unary main_v289 main_v291 (broadcastInDim S2048x4096 ![] bcast_S_S2048x4096 : (⟨S_, .f32⟩ : BufTy).Contents (Elt F) → (⟨S2048x4096, .f32⟩ : BufTy).Contents (Elt F)),
    binary main_v291 main_v290 main_v292 (mulf : (⟨S2048x4096, .f32⟩ : BufTy).Contents (Elt F) → (⟨S2048x4096, .f32⟩ : BufTy).Contents (Elt F) → (⟨S2048x4096, .f32⟩ : BufTy).Contents (Elt F)),
    binary main_v287 main_v292 main_v293 (addf : (⟨S2048x4096, .f32⟩ : BufTy).Contents (Elt F) → (⟨S2048x4096, .f32⟩ : BufTy).Contents (Elt F) → (⟨S2048x4096, .f32⟩ : BufTy).Contents (Elt F)),
    unary main_cst main_v294 ((extractStridedSlice S1 ![7] · slices_S8_S1_7) : (⟨S8, .f32⟩ : BufTy).Contents (Elt F) → (⟨S1, .f32⟩ : BufTy).Contents (Elt F)),
    reshape main_v294 main_v295 rfl shapeCasts_S1_S_,
    unary main_v208 main_call46_v0 ((extractStridedSlice S2048x4 ![0, 4092] · slices_S2048x4096_S2048x4_0_4092) : (⟨S2048x4096, .f32⟩ : BufTy).Contents (Elt F) → (⟨S2048x4, .f32⟩ : BufTy).Contents (Elt F)),
    unary main_v208 main_call46_v1 ((extractStridedSlice S2048x4092 ![0, 0] · slices_S2048x4096_S2048x4092_0_0) : (⟨S2048x4096, .f32⟩ : BufTy).Contents (Elt F) → (⟨S2048x4092, .f32⟩ : BufTy).Contents (Elt F)),
    binary main_call46_v0 main_call46_v1 main_v296 ((Cert.Iswt.cat2 4 4092 concatenates_S2048x4_S2048x4092_S2048x4096_d1) : (⟨S2048x4, .f32⟩ : BufTy).Contents (Elt F) → (⟨S2048x4092, .f32⟩ : BufTy).Contents (Elt F) → (⟨S2048x4096, .f32⟩ : BufTy).Contents (Elt F)),
    unary main_v295 main_v297 (broadcastInDim S2048x4096 ![] bcast_S_S2048x4096 : (⟨S_, .f32⟩ : BufTy).Contents (Elt F) → (⟨S2048x4096, .f32⟩ : BufTy).Contents (Elt F)),
    binary main_v297 main_v296 main_v298 (mulf : (⟨S2048x4096, .f32⟩ : BufTy).Contents (Elt F) → (⟨S2048x4096, .f32⟩ : BufTy).Contents (Elt F) → (⟨S2048x4096, .f32⟩ : BufTy).Contents (Elt F)),
    binary main_v293 main_v298 main_v299 (addf : (⟨S2048x4096, .f32⟩ : BufTy).Contents (Elt F) → (⟨S2048x4096, .f32⟩ : BufTy).Contents (Elt F) → (⟨S2048x4096, .f32⟩ : BufTy).Contents (Elt F)),
    unary main_v10 main_v300 ((extractStridedSlice S1 ![7] · slices_S8_S1_7) : (⟨S8, .f32⟩ : BufTy).Contents (Elt F) → (⟨S1, .f32⟩ : BufTy).Contents (Elt F)),
    reshape main_v300 main_v301 rfl shapeCasts_S1_S_,
    unary main_v8 main_call47_v0 ((extractStridedSlice S2048x4 ![0, 4092] · slices_S2048x4096_S2048x4_0_4092) : (⟨S2048x4096, .f32⟩ : BufTy).Contents (Elt F) → (⟨S2048x4, .f32⟩ : BufTy).Contents (Elt F)),
    unary main_v8 main_call47_v1 ((extractStridedSlice S2048x4092 ![0, 0] · slices_S2048x4096_S2048x4092_0_0) : (⟨S2048x4096, .f32⟩ : BufTy).Contents (Elt F) → (⟨S2048x4092, .f32⟩ : BufTy).Contents (Elt F)),
    binary main_call47_v0 main_call47_v1 main_v302 ((Cert.Iswt.cat2 4 4092 concatenates_S2048x4_S2048x4092_S2048x4096_d1) : (⟨S2048x4, .f32⟩ : BufTy).Contents (Elt F) → (⟨S2048x4092, .f32⟩ : BufTy).Contents (Elt F) → (⟨S2048x4096, .f32⟩ : BufTy).Contents (Elt F)),
    unary main_v301 main_v303 (broadcastInDim S2048x4096 ![] bcast_S_S2048x4096 : (⟨S_, .f32⟩ : BufTy).Contents (Elt F) → (⟨S2048x4096, .f32⟩ : BufTy).Contents (Elt F)),
    binary main_v303 main_v302 main_v304 (mulf : (⟨S2048x4096, .f32⟩ : BufTy).Contents (Elt F) → (⟨S2048x4096, .f32⟩ : BufTy).Contents (Elt F) → (⟨S2048x4096, .f32⟩ : BufTy).Contents (Elt F)),
    binary main_v299 main_v304 main_v305 (addf : (⟨S2048x4096, .f32⟩ : BufTy).Contents (Elt F) → (⟨S2048x4096, .f32⟩ : BufTy).Contents (Elt F) → (⟨S2048x4096, .f32⟩ : BufTy).Contents (Elt F)),
    nullary main_cst_6 (constant S_ .f32 0x3F000000#32),
    unary main_cst_6 main_v306 (broadcastInDim S2048x4096 ![] bcast_S_S2048x4096 : (⟨S_, .f32⟩ : BufTy).Contents (Elt F) → (⟨S2048x4096, .f32⟩ : BufTy).Contents (Elt F)),
    binary main_v306 main_v305 main_v307 (mulf : (⟨S2048x4096, .f32⟩ : BufTy).Contents (Elt F) → (⟨S2048x4096, .f32⟩ : BufTy).Contents (Elt F) → (⟨S2048x4096, .f32⟩ : BufTy).Contents (Elt F))
  ]

/-- @main's operations 413 … 413 of 413. -/
abbrev seg7 : List (HloOp τ sig (Elt F)) :=
  [
    reshape main_v307 main_v308 rfl shapeCasts_S2048x4096_S32x64x4096
  ]

end Cert.ReferenceIdeal.RefSegs

end
-- ==== Proof.RefPro.lean ====
/-
  The reference program's first operations read at an index: its two filter tables, and the four rows of every row group.

  The low-pass table is the table of eight words the specification names. The high-pass table is that table reversed and
  multiplied entry by entry by the signs +1, -1, +1, …: entry `k` is the word `7 - k` of the low-pass table, with its sign
  bit changed at the odd entries, which is the specification's high-pass word `k`. Each channel is a slice of the regrouped
  argument at one coordinate of its middle axis, with that axis dropped.
-/
import proofs.«418173_j65420941852885_3_alg».proof.Proof.RefSegs
import proofs.«418173_j65420941852885_3_alg».proof.Proof.RefLemmas
import proofs.«418173_j65420941852885_3_alg».proof.Proof.Spec
import Idealize.ShloMosaic.Lib.StableHlo.Run
import Idealize.ShloMosaic.Lib.Pipeline.Value
import Idealize.ShloMosaic.Lib.ValueIdx

noncomputable section

namespace Cert.ReferenceIdeal.RefPro

open Cert.ReferenceIdeal Cert.ReferenceIdeal.Gen Cert.ReferenceIdeal.RefSegs Idealize.ShloMosaic Idealize.ShloMosaic.TcCoe
  Idealize.SL.Sem Idealize.ShloMosaic.StableHlo Idealize.ShloMosaic.ValueIdx

/-! ## The words -/

/-- The words 1.0 and -1.0. -/
theorem one_eq : Ideal.ofBits .f32 0x3F800000#32 = 1 := by
  simp [Ideal.ofBits, Ideal.ieee, -EReal.coe_mul]; norm_num
theorem negone_eq : Ideal.ofBits .f32 0xBF800000#32 = -1 := by
  simp [Ideal.ofBits, Ideal.ieee, -EReal.coe_mul]; norm_num

/-- Four words with the sign bit changed: the negation. -/
theorem flip1 : - Ideal.ofBits .f32 0x3D06B056#32 = Ideal.ofBits .f32 0xBD06B056#32 := by
  simp [Ideal.ofBits, Ideal.ieee, -EReal.coe_mul]
theorem flip3 : - Ideal.ofBits .f32 0xBE3F860E#32 = Ideal.ofBits .f32 0x3E3F860E#32 := by
  simp [Ideal.ofBits, Ideal.ieee, -EReal.coe_mul]
theorem flip5 : - Ideal.ofBits .f32 0x3F218167#32 = Ideal.ofBits .f32 0xBF218167#32 := by
  simp [Ideal.ofBits, Ideal.ieee, -EReal.coe_mul]
theorem flip7 : - Ideal.ofBits .f32 0x3E6BE829#32 = Ideal.ofBits .f32 0xBE6BE829#32 := by
  simp [Ideal.ofBits, Ideal.ieee, -EReal.coe_mul]

/-- The program's first table is the specification's low-pass words. -/
theorem lo_word (k : Fin 8) : lit0 k = Cert.Iswt.loW k := by
  fin_cases k <;> rfl

/-- Word `7 - k` of the first table times the sign `k` of the second is the specification's high-pass word `k`. -/
theorem hi_word (k : Fin 8) :
    Ideal.ofBits .f32 (lit0 k.rev) * Ideal.ofBits .f32 (lit1 k) = Ideal.ofBits .f32 (Cert.Iswt.hiW k) := by
  fin_cases k
  · show Ideal.ofBits .f32 0xBC2DA0BA#32 * Ideal.ofBits .f32 0x3F800000#32 = Ideal.ofBits .f32 0xBC2DA0BA#32
    rw [one_eq, mul_one]
  · show Ideal.ofBits .f32 0x3D06B056#32 * Ideal.ofBits .f32 0xBF800000#32 = Ideal.ofBits .f32 0xBD06B056#32
    rw [negone_eq, mul_neg, mul_one, flip1]
  · show Ideal.ofBits .f32 0x3CFCA711#32 * Ideal.ofBits .f32 0x3F800000#32 = Ideal.ofBits .f32 0x3CFCA711#32
    rw [one_eq, mul_one]
  · show Ideal.ofBits .f32 0xBE3F860E#32 * Ideal.ofBits .f32 0xBF800000#32 = Ideal.ofBits .f32 0x3E3F860E#32
    rw [negone_eq, mul_neg, mul_one, flip3]
  · show Ideal.ofBits .f32 0xBCE53E38#32 * Ideal.ofBits .f32 0x3F800000#32 = Ideal.ofBits .f32 0xBCE53E38#32
    rw [one_eq, mul_one]
  · show Ideal.ofBits .f32 0x3F218167#32 * Ideal.ofBits .f32 0xBF800000#32 = Ideal.ofBits .f32 0xBF218167#32
    rw [negone_eq, mul_neg, mul_one, flip5]
  · show Ideal.ofBits .f32 0x3F37002F#32 * Ideal.ofBits .f32 0x3F800000#32 = Ideal.ofBits .f32 0x3F37002F#32
    rw [one_eq, mul_one]
  · show Ideal.ofBits .f32 0x3E6BE829#32 * Ideal.ofBits .f32 0xBF800000#32 = Ideal.ofBits .f32 0xBE6BE829#32
    rw [negone_eq, mul_neg, mul_one, flip7]

/-- The position of entry `k` of a table of eight is `k`. -/
theorem rm8 (k : Fin 8) : S8.rowMajor (ix1 k) = k :=
  Fin.ext (by rw [Shape.rowMajor_val_one])

/-! ## A channel of the regrouped argument -/

/-- The slice at coordinate `ch` of the middle axis, that axis dropped, read at `(r, t)`: entry `(r, ch, t)`. -/
theorem chan_apply (X : S2048x4x4096.Idx → EReal) (ch : Fin 4) (hs : S2048x4x4096.Slices ![0, ch.val, 0] S2048x1x4096)
    (r : Fin 2048) (t : Fin 4096) :
    shapeCast S2048x4096 (extractStridedSlice S2048x1x4096 ![0, ch.val, 0] X hs) shapeCasts_S2048x1x4096_S2048x4096 (ix2 r t)
      = X (ix3 r ch t) := by
  refine (shapeCast_apply _ _ (ix2 r t) (ix3 r (0 : Fin 1) t) ?_).trans ?_
  · rw [Shape.rowMajor_val_three, Shape.rowMajor_val_two]
    show (r.val * 1 + 0) * 4096 + t.val = r.val * 4096 + t.val
    omega
  · refine extractStridedSlice_apply _ X hs _ (ix3 r ch t) ?_
    intro a
    match a with
    | ⟨0, _⟩ => show r.val = 0 + r.val; omega
    | ⟨1, _⟩ => show ch.val = ch.val + 0; omega
    | ⟨2, _⟩ => show t.val = 0 + t.val; omega

/-! ## The first operations, read -/

theorem seg0_arg0 (V : Valuation τ sig (Elt Ideal)) : after seg0 V (Proc.devRef .tc main_arg0) = V (Proc.devRef .tc main_arg0) := by
  simp only [seg0]
  after_results

theorem seg0_lo (V : Valuation τ sig (Elt Ideal)) (k : Fin 8) : after seg0 V (Proc.devRef .tc main_cst) (ix1 k) = Cert.Iswt.lo k := by
  simp only [seg0]
  after_results
  show Ideal.ofBits .f32 (lit0 (S8.rowMajor (ix1 k))) = Ideal.ofBits .f32 (Cert.Iswt.loW k)
  rw [rm8, lo_word]

theorem seg0_hi (V : Valuation τ sig (Elt Ideal)) (k : Fin 8) : after seg0 V (Proc.devRef .tc main_v10) (ix1 k) = Cert.Iswt.hi k := by
  simp only [seg0]
  after_results
  rw [mulf_apply, Cert.Iswt.reverse8_apply]
  show Ideal.ofBits .f32 (lit0 (S8.rowMajor (ix1 k.rev))) * Ideal.ofBits .f32 (lit1 (S8.rowMajor (ix1 k))) = Ideal.ofBits .f32 (Cert.Iswt.hiW k)
  rw [rm8, rm8]
  exact hi_word k

theorem seg0_ch0 (V : Valuation τ sig (Elt Ideal)) (r : Fin 2048) (t : Fin 4096) : after seg0 V (Proc.devRef .tc main_v2) (ix2 r t) = shapeCast Cert.Iswt.S2048x4x4096 (V (Proc.devRef .tc main_arg0)) Cert.Iswt.casts_in (ix3 r (0 : Fin 4) t) := by
  simp only [seg0]
  after_results
  exact chan_apply (shapeCast S2048x4x4096 (V (Proc.devRef .tc main_arg0)) shapeCasts_S32x256x4096_S2048x4x4096) (0 : Fin 4) slices_S2048x4x4096_S2048x1x4096_0_0_0 r t

theorem seg0_ch1 (V : Valuation τ sig (Elt Ideal)) (r : Fin 2048) (t : Fin 4096) : after seg0 V (Proc.devRef .tc main_v4) (ix2 r t) = shapeCast Cert.Iswt.S2048x4x4096 (V (Proc.devRef .tc main_arg0)) Cert.Iswt.casts_in (ix3 r (1 : Fin 4) t) := by
  simp only [seg0]
  after_results
  exact chan_apply (shapeCast S2048x4x4096 (V (Proc.devRef .tc main_arg0)) shapeCasts_S32x256x4096_S2048x4x4096) (1 : Fin 4) slices_S2048x4x4096_S2048x1x4096_0_1_0 r t

theorem seg0_ch2 (V : Valuation τ sig (Elt Ideal)) (r : Fin 2048) (t : Fin 4096) : after seg0 V (Proc.devRef .tc main_v6) (ix2 r t) = shapeCast Cert.Iswt.S2048x4x4096 (V (Proc.devRef .tc main_arg0)) Cert.Iswt.casts_in (ix3 r (2 : Fin 4) t) := by
  simp only [seg0]
  after_results
  exact chan_apply (shapeCast S2048x4x4096 (V (Proc.devRef .tc main_arg0)) shapeCasts_S32x256x4096_S2048x4x4096) (2 : Fin 4) slices_S2048x4x4096_S2048x1x4096_0_2_0 r t

theorem seg0_ch3 (V : Valuation τ sig (Elt Ideal)) (r : Fin 2048) (t : Fin 4096) : after seg0 V (Proc.devRef .tc main_v8) (ix2 r t) = shapeCast Cert.Iswt.S2048x4x4096 (V (Proc.devRef .tc main_arg0)) Cert.Iswt.casts_in (ix3 r (3 : Fin 4) t) := by
  simp only [seg0]
  after_results
  exact chan_apply (shapeCast S2048x4x4096 (V (Proc.devRef .tc main_arg0)) shapeCasts_S32x256x4096_S2048x4x4096) (3 : Fin 4) slices_S2048x4x4096_S2048x1x4096_0_3_0 r t

end Cert.ReferenceIdeal.RefPro

end
-- ==== Proof.RefVal.lean ====
/-
  What the reference computes, as one function of its argument.

  The program's operations are read in eight stretches: the constants and the four channel rows; then, per level, the
  zero sum with the first four taps, and the last four taps with the halving; then the closing re-layout. Read at entry
  `t` of row `r` (Proof/RefLemmas.lean reads the whole-array spelling there), a tap is `acc + lo[m] · res[r, t + p] + hi[m] · h[r, t + p]` (positions around the end of the row: the
  program cuts the row at column `p` and joins the two pieces the other way round), so a level is the specification's
  level with each tap added one product after the other, and that is the specification's level because addition of
  extended reals is associative.
-/
import proofs.«418173_j65420941852885_3_alg».proof.Proof.RefRun
import proofs.«418173_j65420941852885_3_alg».proof.Proof.RefSegs
import proofs.«418173_j65420941852885_3_alg».proof.Proof.RefPro

noncomputable section

namespace Cert.ReferenceIdeal.RefVal

open Cert.ReferenceIdeal Cert.ReferenceIdeal.Gen Cert.ReferenceIdeal.RefSegs Cert.ReferenceIdeal.RefRun Cert.ReferenceIdeal.RefPro
open Idealize.ShloMosaic Idealize.ShloMosaic.TcCoe Idealize.SL.Sem Idealize.ShloMosaic.StableHlo Idealize.ShloMosaic.ValueIdx
open Cert.Iswt (firstHalf secondHalf lvlSeq lvl lo hi p4 p2 p1 facts4 facts2 facts1 vFirst vSecond vFirst_apply vSecond_apply)

/-! ## Level one: look-ahead 12, 8, 4, 0 and 4092, 4088, 4084, 4080 -/

set_option maxRecDepth 8192 in
set_option maxHeartbeats 4000000 in
/-- The first four taps of this level: the stretch's operations composed are the level's first half on whole arrays. -/
theorem seg1_vec (V : Valuation τ sig (Elt Ideal)) :
    after seg1 V (no_index (Proc.devRef .tc main_v59))
      = vFirst p4 facts4 (V (Proc.devRef .tc main_cst)) (V (Proc.devRef .tc main_v10)) (V (Proc.devRef .tc main_v2)) (V (Proc.devRef .tc main_v4)) := by
  simp only [seg1]
  after_results_simp
  rfl

/-- Read at one entry of one row. -/
theorem seg1_val (V : Valuation τ sig (Elt Ideal)) (r : Fin 2048) (t : Fin 4096) :
    after seg1 V (no_index (Proc.devRef .tc main_v59)) (ix2 r t)
      = firstHalf (fun k => V (Proc.devRef .tc main_cst) (ix1 k)) (fun k => V (Proc.devRef .tc main_v10) (ix1 k)) p4
          (fun t => V (Proc.devRef .tc main_v2) (ix2 r t)) (fun t => V (Proc.devRef .tc main_v4) (ix2 r t)) t := by
  rw [seg1_vec]
  exact vFirst_apply p4 facts4 _ _ _ _ r t

set_option maxRecDepth 8192 in
set_option maxHeartbeats 4000000 in
/-- The last four taps of this level and the halving: the stretch's operations composed are the level's second half on
    whole arrays. -/
theorem seg2_vec (V : Valuation τ sig (Elt Ideal)) :
    after seg2 V (no_index (Proc.devRef .tc main_v109))
      = vSecond p4 facts4 (V (Proc.devRef .tc main_cst)) (V (Proc.devRef .tc main_v10)) (V (Proc.devRef .tc main_v2)) (V (Proc.devRef .tc main_v4)) (V (Proc.devRef .tc main_v59)) := by
  simp only [seg2]
  after_results_simp
  rfl

/-- Read at one entry of one row. -/
theorem seg2_val (V : Valuation τ sig (Elt Ideal)) (r : Fin 2048) (t : Fin 4096) :
    after seg2 V (no_index (Proc.devRef .tc main_v109)) (ix2 r t)
      = secondHalf (fun k => V (Proc.devRef .tc main_cst) (ix1 k)) (fun k => V (Proc.devRef .tc main_v10) (ix1 k)) p4
          (fun t => V (Proc.devRef .tc main_v2) (ix2 r t)) (fun t => V (Proc.devRef .tc main_v4) (ix2 r t)) (fun t => V (Proc.devRef .tc main_v59) (ix2 r t)) t := by
  rw [seg2_vec]
  exact vSecond_apply p4 facts4 _ _ _ _ _ r t

/-! ## Level two: look-ahead 6, 4, 2, 0 and 4094, 4092, 4090, 4088 -/

set_option maxRecDepth 8192 in
set_option maxHeartbeats 4000000 in
/-- The first four taps of this level: the stretch's operations composed are the level's first half on whole arrays. -/
theorem seg3_vec (V : Valuation τ sig (Elt Ideal)) :
    after seg3 V (no_index (Proc.devRef .tc main_v158))
      = vFirst p2 facts2 (V (Proc.devRef .tc main_cst)) (V (Proc.devRef .tc main_v10)) (V (Proc.devRef .tc main_v109)) (V (Proc.devRef .tc main_v6)) := by
  simp only [seg3]
  after_results_simp
  rfl

/-- Read at one entry of one row. -/
theorem seg3_val (V : Valuation τ sig (Elt Ideal)) (r : Fin 2048) (t : Fin 4096) :
    after seg3 V (no_index (Proc.devRef .tc main_v158)) (ix2 r t)
      = firstHalf (fun k => V (Proc.devRef .tc main_cst) (ix1 k)) (fun k => V (Proc.devRef .tc main_v10) (ix1 k)) p2
          (fun t => V (Proc.devRef .tc main_v109) (ix2 r t)) (fun t => V (Proc.devRef .tc main_v6) (ix2 r t)) t := by
  rw [seg3_vec]
  exact vFirst_apply p2 facts2 _ _ _ _ r t

set_option maxRecDepth 8192 in
set_option maxHeartbeats 4000000 in
/-- The last four taps of this level and the halving: the stretch's operations composed are the level's second half on
    whole arrays. -/
theorem seg4_vec (V : Valuation τ sig (Elt Ideal)) :
    after seg4 V (no_index (Proc.devRef .tc main_v208))
      = vSecond p2 facts2 (V (Proc.devRef .tc main_cst)) (V (Proc.devRef .tc main_v10)) (V (Proc.devRef .tc main_v109)) (V (Proc.devRef .tc main_v6)) (V (Proc.devRef .tc main_v158)) := by
  simp only [seg4]
  after_results_simp
  rfl

/-- Read at one entry of one row. -/
theorem seg4_val (V : Valuation τ sig (Elt Ideal)) (r : Fin 2048) (t : Fin 4096) :
    after seg4 V (no_index (Proc.devRef .tc main_v208)) (ix2 r t)
      = secondHalf (fun k => V (Proc.devRef .tc main_cst) (ix1 k)) (fun k => V (Proc.devRef .tc main_v10) (ix1 k)) p2
          (fun t => V (Proc.devRef .tc main_v109) (ix2 r t)) (fun t => V (Proc.devRef .tc main_v6) (ix2 r t)) (fun t => V (Proc.devRef .tc main_v158) (ix2 r t)) t := by
  rw [seg4_vec]
  exact vSecond_apply p2 facts2 _ _ _ _ _ r t

/-! ## Level three: look-ahead 3, 2, 1, 0 and 4095, 4094, 4093, 4092 -/

set_option maxRecDepth 8192 in
set_option maxHeartbeats 4000000 in
/-- The first four taps of this level: the stretch's operations composed are the level's first half on whole arrays. -/
theorem seg5_vec (V : Valuation τ sig (Elt Ideal)) :
    after seg5 V (no_index (Proc.devRef .tc main_v257))
      = vFirst p1 facts1 (V (Proc.devRef .tc main_cst)) (V (Proc.devRef .tc main_v10)) (V (Proc.devRef .tc main_v208)) (V (Proc.devRef .tc main_v8)) := by
  simp only [seg5]
  after_results_simp
  rfl

/-- Read at one entry of one row. -/
theorem seg5_val (V : Valuation τ sig (Elt Ideal)) (r : Fin 2048) (t : Fin 4096) :
    after seg5 V (no_index (Proc.devRef .tc main_v257)) (ix2 r t)
      = firstHalf (fun k => V (Proc.devRef .tc main_cst) (ix1 k)) (fun k => V (Proc.devRef .tc main_v10) (ix1 k)) p1
          (fun t => V (Proc.devRef .tc main_v208) (ix2 r t)) (fun t => V (Proc.devRef .tc main_v8) (ix2 r t)) t := by
  rw [seg5_vec]
  exact vFirst_apply p1 facts1 _ _ _ _ r t

set_option maxRecDepth 8192 in
set_option maxHeartbeats 4000000 in
/-- The last four taps of this level and the halving: the stretch's operations composed are the level's second half on
    whole arrays. -/
theorem seg6_vec (V : Valuation τ sig (Elt Ideal)) :
    after seg6 V (no_index (Proc.devRef .tc main_v307))
      = vSecond p1 facts1 (V (Proc.devRef .tc main_cst)) (V (Proc.devRef .tc main_v10)) (V (Proc.devRef .tc main_v208)) (V (Proc.devRef .tc main_v8)) (V (Proc.devRef .tc main_v257)) := by
  simp only [seg6]
  after_results_simp
  rfl

/-- Read at one entry of one row. -/
theorem seg6_val (V : Valuation τ sig (Elt Ideal)) (r : Fin 2048) (t : Fin 4096) :
    after seg6 V (no_index (Proc.devRef .tc main_v307)) (ix2 r t)
      = secondHalf (fun k => V (Proc.devRef .tc main_cst) (ix1 k)) (fun k => V (Proc.devRef .tc main_v10) (ix1 k)) p1
          (fun t => V (Proc.devRef .tc main_v208) (ix2 r t)) (fun t => V (Proc.devRef .tc main_v8) (ix2 r t)) (fun t => V (Proc.devRef .tc main_v257) (ix2 r t)) t := by
  rw [seg6_vec]
  exact vSecond_apply p1 facts1 _ _ _ _ _ r t

/-! ## What each stretch leaves alone -/

theorem seg1_cst (V : Valuation τ sig (Elt Ideal)) : after seg1 V (no_index (Proc.devRef .tc main_cst)) = V (Proc.devRef .tc main_cst) := by
  simp only [seg1]; after_results_simp
theorem seg1_v10 (V : Valuation τ sig (Elt Ideal)) : after seg1 V (no_index (Proc.devRef .tc main_v10)) = V (Proc.devRef .tc main_v10) := by
  simp only [seg1]; after_results_simp
theorem seg1_v2 (V : Valuation τ sig (Elt Ideal)) : after seg1 V (no_index (Proc.devRef .tc main_v2)) = V (Proc.devRef .tc main_v2) := by
  simp only [seg1]; after_results_simp
theorem seg1_v4 (V : Valuation τ sig (Elt Ideal)) : after seg1 V (no_index (Proc.devRef .tc main_v4)) = V (Proc.devRef .tc main_v4) := by
  simp only [seg1]; after_results_simp
theorem seg1_v6 (V : Valuation τ sig (Elt Ideal)) : after seg1 V (no_index (Proc.devRef .tc main_v6)) = V (Proc.devRef .tc main_v6) := by
  simp only [seg1]; after_results_simp
theorem seg1_v8 (V : Valuation τ sig (Elt Ideal)) : after seg1 V (no_index (Proc.devRef .tc main_v8)) = V (Proc.devRef .tc main_v8) := by
  simp only [seg1]; after_results_simp
theorem seg1_arg0 (V : Valuation τ sig (Elt Ideal)) : after seg1 V (no_index (Proc.devRef .tc main_arg0)) = V (Proc.devRef .tc main_arg0) := by
  simp only [seg1]; after_results_simp
theorem seg2_cst (V : Valuation τ sig (Elt Ideal)) : after seg2 V (no_index (Proc.devRef .tc main_cst)) = V (Proc.devRef .tc main_cst) := by
  simp only [seg2]; after_results_simp
theorem seg2_v10 (V : Valuation τ sig (Elt Ideal)) : after seg2 V (no_index (Proc.devRef .tc main_v10)) = V (Proc.devRef .tc main_v10) := by
  simp only [seg2]; after_results_simp
theorem seg2_v6 (V : Valuation τ sig (Elt Ideal)) : after seg2 V (no_index (Proc.devRef .tc main_v6)) = V (Proc.devRef .tc main_v6) := by
  simp only [seg2]; after_results_simp
theorem seg2_v8 (V : Valuation τ sig (Elt Ideal)) : after seg2 V (no_index (Proc.devRef .tc main_v8)) = V (Proc.devRef .tc main_v8) := by
  simp only [seg2]; after_results_simp
theorem seg2_arg0 (V : Valuation τ sig (Elt Ideal)) : after seg2 V (no_index (Proc.devRef .tc main_arg0)) = V (Proc.devRef .tc main_arg0) := by
  simp only [seg2]; after_results_simp
theorem seg3_cst (V : Valuation τ sig (Elt Ideal)) : after seg3 V (no_index (Proc.devRef .tc main_cst)) = V (Proc.devRef .tc main_cst) := by
  simp only [seg3]; after_results_simp
theorem seg3_v10 (V : Valuation τ sig (Elt Ideal)) : after seg3 V (no_index (Proc.devRef .tc main_v10)) = V (Proc.devRef .tc main_v10) := by
  simp only [seg3]; after_results_simp
theorem seg3_v109 (V : Valuation τ sig (Elt Ideal)) : after seg3 V (no_index (Proc.devRef .tc main_v109)) = V (Proc.devRef .tc main_v109) := by
  simp only [seg3]; after_results_simp
theorem seg3_v6 (V : Valuation τ sig (Elt Ideal)) : after seg3 V (no_index (Proc.devRef .tc main_v6)) = V (Proc.devRef .tc main_v6) := by
  simp only [seg3]; after_results_simp
theorem seg3_v8 (V : Valuation τ sig (Elt Ideal)) : after seg3 V (no_index (Proc.devRef .tc main_v8)) = V (Proc.devRef .tc main_v8) := by
  simp only [seg3]; after_results_simp
theorem seg3_arg0 (V : Valuation τ sig (Elt Ideal)) : after seg3 V (no_index (Proc.devRef .tc main_arg0)) = V (Proc.devRef .tc main_arg0) := by
  simp only [seg3]; after_results_simp
theorem seg4_cst (V : Valuation τ sig (Elt Ideal)) : after seg4 V (no_index (Proc.devRef .tc main_cst)) = V (Proc.devRef .tc main_cst) := by
  simp only [seg4]; after_results_simp
theorem seg4_v10 (V : Valuation τ sig (Elt Ideal)) : after seg4 V (no_index (Proc.devRef .tc main_v10)) = V (Proc.devRef .tc main_v10) := by
  simp only [seg4]; after_results_simp
theorem seg4_v8 (V : Valuation τ sig (Elt Ideal)) : after seg4 V (no_index (Proc.devRef .tc main_v8)) = V (Proc.devRef .tc main_v8) := by
  simp only [seg4]; after_results_simp
theorem seg4_arg0 (V : Valuation τ sig (Elt Ideal)) : after seg4 V (no_index (Proc.devRef .tc main_arg0)) = V (Proc.devRef .tc main_arg0) := by
  simp only [seg4]; after_results_simp
theorem seg5_cst (V : Valuation τ sig (Elt Ideal)) : after seg5 V (no_index (Proc.devRef .tc main_cst)) = V (Proc.devRef .tc main_cst) := by
  simp only [seg5]; after_results_simp
theorem seg5_v10 (V : Valuation τ sig (Elt Ideal)) : after seg5 V (no_index (Proc.devRef .tc main_v10)) = V (Proc.devRef .tc main_v10) := by
  simp only [seg5]; after_results_simp
theorem seg5_v208 (V : Valuation τ sig (Elt Ideal)) : after seg5 V (no_index (Proc.devRef .tc main_v208)) = V (Proc.devRef .tc main_v208) := by
  simp only [seg5]; after_results_simp
theorem seg5_v8 (V : Valuation τ sig (Elt Ideal)) : after seg5 V (no_index (Proc.devRef .tc main_v8)) = V (Proc.devRef .tc main_v8) := by
  simp only [seg5]; after_results_simp
theorem seg5_arg0 (V : Valuation τ sig (Elt Ideal)) : after seg5 V (no_index (Proc.devRef .tc main_arg0)) = V (Proc.devRef .tc main_arg0) := by
  simp only [seg5]; after_results_simp
theorem seg6_arg0 (V : Valuation τ sig (Elt Ideal)) : after seg6 V (no_index (Proc.devRef .tc main_arg0)) = V (Proc.devRef .tc main_arg0) := by
  simp only [seg6]; after_results_simp
theorem seg7_arg0 (V : Valuation τ sig (Elt Ideal)) : after seg7 V (no_index (Proc.devRef .tc main_arg0)) = V (Proc.devRef .tc main_arg0) := by
  simp only [seg7]; after_results_simp

/-! ## The first stretch's facts, in the form the rewriting below looks buffers up by -/

theorem pro_lo (V : Valuation τ sig (Elt Ideal)) (k : Fin 8) : after seg0 V (no_index (Proc.devRef .tc main_cst)) (ix1 k) = lo k := seg0_lo V k
theorem pro_hi (V : Valuation τ sig (Elt Ideal)) (k : Fin 8) : after seg0 V (no_index (Proc.devRef .tc main_v10)) (ix1 k) = hi k := seg0_hi V k
theorem pro_ch0 (V : Valuation τ sig (Elt Ideal)) (r : Fin 2048) (t : Fin 4096) :
    after seg0 V (no_index (Proc.devRef .tc main_v2)) (ix2 r t) = (shapeCast Cert.Iswt.S2048x4x4096 (V (Proc.devRef .tc main_arg0)) Cert.Iswt.casts_in) (ix3 r (0 : Fin 4) t) := seg0_ch0 V r t
theorem pro_ch1 (V : Valuation τ sig (Elt Ideal)) (r : Fin 2048) (t : Fin 4096) :
    after seg0 V (no_index (Proc.devRef .tc main_v4)) (ix2 r t) = (shapeCast Cert.Iswt.S2048x4x4096 (V (Proc.devRef .tc main_arg0)) Cert.Iswt.casts_in) (ix3 r (1 : Fin 4) t) := seg0_ch1 V r t
theorem pro_ch2 (V : Valuation τ sig (Elt Ideal)) (r : Fin 2048) (t : Fin 4096) :
    after seg0 V (no_index (Proc.devRef .tc main_v6)) (ix2 r t) = (shapeCast Cert.Iswt.S2048x4x4096 (V (Proc.devRef .tc main_arg0)) Cert.Iswt.casts_in) (ix3 r (2 : Fin 4) t) := seg0_ch2 V r t
theorem pro_ch3 (V : Valuation τ sig (Elt Ideal)) (r : Fin 2048) (t : Fin 4096) :
    after seg0 V (no_index (Proc.devRef .tc main_v8)) (ix2 r t) = (shapeCast Cert.Iswt.S2048x4x4096 (V (Proc.devRef .tc main_arg0)) Cert.Iswt.casts_in) (ix3 r (3 : Fin 4) t) := seg0_ch3 V r t
theorem pro_arg0 (V : Valuation τ sig (Elt Ideal)) : after seg0 V (no_index (Proc.devRef .tc main_arg0)) = V (Proc.devRef .tc main_arg0) := seg0_arg0 V

/-- The closing re-layout of the last level's array. -/
theorem seg7_vec (V : Valuation τ sig (Elt Ideal)) :
    after seg7 V (no_index (Proc.devRef .tc main_v308))
      = shapeCast Cert.Iswt.S32x64x4096 (V (Proc.devRef .tc main_v307) : Cert.Iswt.S2048x4096.Idx → EReal) Cert.Iswt.casts_out := by
  simp only [seg7]
  after_results_simp
  rfl

/-! ## The levels joined -/

/-- The contents after the constants, the channel rows and level one; after level two; after level three. -/
def A2 (V : Valuation τ sig (Elt Ideal)) : Valuation τ sig (Elt Ideal) := after seg2 (after seg1 (after seg0 V))
def A4 (V : Valuation τ sig (Elt Ideal)) : Valuation τ sig (Elt Ideal) := after seg4 (after seg3 (A2 V))
def A6 (V : Valuation τ sig (Elt Ideal)) : Valuation τ sig (Elt Ideal) := after seg6 (after seg5 (A4 V))

/-- Channel `ch` of row group `r` of the regrouped argument, as a row. -/
abbrev chan (V : Valuation τ sig (Elt Ideal)) (r : Fin 2048) (ch : Fin 4) : Cert.Iswt.Row :=
  fun t => (shapeCast Cert.Iswt.S2048x4x4096 (V (Proc.devRef .tc main_arg0)) Cert.Iswt.casts_in) (ix3 r ch t)

theorem A2_lo (V : Valuation τ sig (Elt Ideal)) (k : Fin 8) : A2 V (no_index (Proc.devRef .tc main_cst)) (ix1 k) = lo k := by
  unfold A2
  simp only [seg2_cst, seg1_cst, pro_lo]
theorem A2_hi (V : Valuation τ sig (Elt Ideal)) (k : Fin 8) : A2 V (no_index (Proc.devRef .tc main_v10)) (ix1 k) = hi k := by
  unfold A2
  simp only [seg2_v10, seg1_v10, pro_hi]
theorem A2_ch2 (V : Valuation τ sig (Elt Ideal)) (r : Fin 2048) (t : Fin 4096) : A2 V (no_index (Proc.devRef .tc main_v6)) (ix2 r t) = chan V r 2 t := by
  unfold A2
  simp only [seg2_v6, seg1_v6, pro_ch2]
theorem A2_ch3 (V : Valuation τ sig (Elt Ideal)) (r : Fin 2048) (t : Fin 4096) : A2 V (no_index (Proc.devRef .tc main_v8)) (ix2 r t) = chan V r 3 t := by
  unfold A2
  simp only [seg2_v8, seg1_v8, pro_ch3]
theorem A2_arg0 (V : Valuation τ sig (Elt Ideal)) : A2 V (no_index (Proc.devRef .tc main_arg0)) = V (Proc.devRef .tc main_arg0) := by
  unfold A2
  simp only [seg2_arg0, seg1_arg0, pro_arg0]

/-- Level one: the two halves make the level with its taps added one product after the other, which is the level. -/
theorem level1 (V : Valuation τ sig (Elt Ideal)) (r : Fin 2048) (t : Fin 4096) :
    A2 V (no_index (Proc.devRef .tc main_v109)) (ix2 r t) = lvl lo hi p4 (chan V r 0) (chan V r 1) t := by
  unfold A2
  simp only [seg2_val, seg1_val, seg1_cst, seg1_v10, seg1_v2, seg1_v4, pro_lo, pro_hi, pro_ch0, pro_ch1]
  exact (congrFun (Cert.Iswt.secondHalf_firstHalf lo hi p4 (chan V r 0) (chan V r 1)) t).trans
    (congrFun (Cert.Iswt.lvlSeq_eq lo hi p4 (chan V r 0) (chan V r 1)) t)

theorem A4_lo (V : Valuation τ sig (Elt Ideal)) (k : Fin 8) : A4 V (no_index (Proc.devRef .tc main_cst)) (ix1 k) = lo k := by
  unfold A4
  simp only [seg4_cst, seg3_cst, A2_lo]
theorem A4_hi (V : Valuation τ sig (Elt Ideal)) (k : Fin 8) : A4 V (no_index (Proc.devRef .tc main_v10)) (ix1 k) = hi k := by
  unfold A4
  simp only [seg4_v10, seg3_v10, A2_hi]
theorem A4_ch3 (V : Valuation τ sig (Elt Ideal)) (r : Fin 2048) (t : Fin 4096) : A4 V (no_index (Proc.devRef .tc main_v8)) (ix2 r t) = chan V r 3 t := by
  unfold A4
  simp only [seg4_v8, seg3_v8, A2_ch3]
theorem A4_arg0 (V : Valuation τ sig (Elt Ideal)) : A4 V (no_index (Proc.devRef .tc main_arg0)) = V (Proc.devRef .tc main_arg0) := by
  unfold A4
  simp only [seg4_arg0, seg3_arg0, A2_arg0]

/-- Level two, on level one's rows. -/
theorem level2 (V : Valuation τ sig (Elt Ideal)) (r : Fin 2048) (t : Fin 4096) :
    A4 V (no_index (Proc.devRef .tc main_v208)) (ix2 r t) = lvl lo hi p2 (lvl lo hi p4 (chan V r 0) (chan V r 1)) (chan V r 2) t := by
  unfold A4
  simp only [seg4_val, seg3_val, seg3_cst, seg3_v10, seg3_v109, seg3_v6, A2_lo, A2_hi, A2_ch2, level1]
  exact (congrFun (Cert.Iswt.secondHalf_firstHalf lo hi p2 (lvl lo hi p4 (chan V r 0) (chan V r 1)) (chan V r 2)) t).trans
    (congrFun (Cert.Iswt.lvlSeq_eq lo hi p2 (lvl lo hi p4 (chan V r 0) (chan V r 1)) (chan V r 2)) t)

theorem A6_arg0 (V : Valuation τ sig (Elt Ideal)) : A6 V (no_index (Proc.devRef .tc main_arg0)) = V (Proc.devRef .tc main_arg0) := by
  unfold A6
  simp only [seg6_arg0, seg5_arg0, A4_arg0]

/-- Level three, on level two's rows: a row of the specification. -/
theorem level3 (V : Valuation τ sig (Elt Ideal)) (r : Fin 2048) (t : Fin 4096) :
    A6 V (no_index (Proc.devRef .tc main_v307)) (ix2 r t) = Cert.Iswt.core lo hi (shapeCast Cert.Iswt.S2048x4x4096 (V (Proc.devRef .tc main_arg0)) Cert.Iswt.casts_in) (ix2 r t) := by
  unfold A6
  simp only [seg6_val, seg5_val, seg5_cst, seg5_v10, seg5_v208, seg5_v8, A4_lo, A4_hi, A4_ch3, level2]
  exact (congrFun (Cert.Iswt.secondHalf_firstHalf lo hi p1 (lvl lo hi p2 (lvl lo hi p4 (chan V r 0) (chan V r 1)) (chan V r 2)) (chan V r 3)) t).trans
    (congrFun (Cert.Iswt.lvlSeq_eq lo hi p1 (lvl lo hi p2 (lvl lo hi p4 (chan V r 0) (chan V r 1)) (chan V r 2)) (chan V r 3)) t)

/-! ## The whole program -/

/-- The operations, cut into the eight stretches. -/
theorem ops_eq_segs : (ops : List (HloOp τ sig (Elt Ideal)))
    = seg0 ++ (seg1 ++ (seg2 ++ (seg3 ++ (seg4 ++ (seg5 ++ (seg6 ++ seg7)))))) := rfl

theorem after_ops (V : Valuation τ sig (Elt Ideal)) : after ops V = after seg7 (A6 V) := by
  unfold A6 A4 A2
  simp only [ops_eq_segs, after_app]

/-- The array before the closing re-layout is the specification's core of the regrouped argument. -/
theorem core_eq (V : Valuation τ sig (Elt Ideal)) :
    (A6 V (Proc.devRef .tc main_v307) : Cert.Iswt.S2048x4096.Idx → EReal) = Cert.Iswt.core lo hi (shapeCast Cert.Iswt.S2048x4x4096 (V (Proc.devRef .tc main_arg0)) Cert.Iswt.casts_in) :=
  funext fun j => by rw [eq_ix2 j]; exact level3 V (j 0) (j 1)

/-- The result: the specification's whole function of the argument. -/
theorem result_eq (V : Valuation τ sig (Elt Ideal)) :
    after ops V (Proc.devRef .tc main_v308) = Cert.Iswt.whole (V (Proc.devRef .tc main_arg0)) := by
  rw [after_ops, seg7_vec, core_eq]
  rfl

/-- The argument is left as it was. -/
theorem arg_eq (V : Valuation τ sig (Elt Ideal)) : after ops V (Proc.devRef .tc main_arg0) = V (Proc.devRef .tc main_arg0) := by
  rw [after_ops, seg7_arg0, A6_arg0]

/-- Every weakly fair execution of the reference ends with the result at the specification's function of the
    argument and the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v308) = Cert.Iswt.whole (m ((c.tc : Thread nD τ).loc main_arg0))
      ∧ r.2.mem ((c.tc : Thread nD τ).loc main_arg0) = m ((c.tc : Thread nD τ).loc main_arg0) :=
  (θ_run defs _ _).mono (fun _ h c => ⟨(h c main_v308).trans (result_eq _), (h c main_arg0).trans (arg_eq _)⟩)
    (run_all m ρ)

end Cert.ReferenceIdeal.RefVal

end
-- ==== Proof.lean ====
/-
  The inverse stationary wavelet transform kernel against its jnp reference, over the extended reals.

  Both programs regroup the argument four rows at a time, run three levels of an eight-tap synthesis filter bank on
  every row group, and lay the result out as [32, 64, 4096]. Per level and tap the kernel joins the low-pass and the
  high-pass product first and shifts the sum once around the row, where the reference shifts each operand and adds the
  two products one after the other: entry by entry the two differ only in the grouping of one three-term sum, and
  addition of extended reals is associative, so no finiteness of the inputs is used. The high-pass coefficients the
  kernel holds as literals are the reference's reversed low-pass table times its alternating signs, word for word.
  Both runs are stated with ONE function of the argument, `Cert.Iswt.whole` (Proof/Spec.lean): the kernel's from its
  frame run, block by block (Proof/KBody.lean, Proof/KVal.lean), the reference's from the fold of its operations
  (Proof/RefRun.lean, Proof/RefPro.lean, Proof/RefVal.lean).
-/
import proofs.«418173_j65420941852885_3_alg».proof.Defs
import proofs.«418173_j65420941852885_3_alg».proof.Proof.Gen.Kernel
import proofs.«418173_j65420941852885_3_alg».proof.Proof.Gen.Kernel.Frame
import proofs.«418173_j65420941852885_3_alg».proof.Proof.Gen.KernelIdeal
import proofs.«418173_j65420941852885_3_alg».proof.Proof.Gen.KernelIdeal.Frame
import proofs.«418173_j65420941852885_3_alg».proof.Proof.Gen.ReferenceIdeal
import proofs.«418173_j65420941852885_3_alg».proof.Proof.Gen.Pre_finite_inputs
import proofs.«418173_j65420941852885_3_alg».proof.Proof.KVal
import proofs.«418173_j65420941852885_3_alg».proof.Proof.RefVal

noncomputable section

namespace Cert.Proof

open Idealize.ShloMosaic Idealize.SL.Sem

/-- The word-level kernel runs and leaves its argument as it was. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefVal.run m ρ)

/-- The ideal pass rewrote nothing: there is nothing to preserve. -/
theorem preserves : Cert.preserves_Kernel_KernelIdeal := trivial

/-- From memories that agree on the argument both programs end with the result at `Cert.Iswt.whole` of it. -/
theorem algebraic : Cert.algebraic_KernelIdeal_ReferenceIdeal := by
  intro m ρ m' ρ' _ hagree
  refine ⟨_, Cert.KernelIdeal.KVal.run m ρ, ?_⟩
  refine (θ_run Cert.ReferenceIdeal.defs _ _).mono (fun _ h c => ⟨(h c).1.trans ?_, (h c).2⟩)
    (Cert.ReferenceIdeal.RefVal.run m' ρ')
  rw [hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
